-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S704512 : Shape := ⟨1, ![704512]⟩
abbrev S4096x16 : Shape := ⟨2, ![4096, 16]⟩
abbrev S16x11008 : Shape := ⟨2, ![16, 11008]⟩
abbrev S4096x11008 : Shape := ⟨2, ![4096, 11008]⟩
abbrev S11008x16 : Shape := ⟨2, ![11008, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S704512 : S_.BroadcastsInDim S704512 (![] : Fin 0 → Fin S704512.rank)
  reducesTo_S704512_S_d0 : S704512.ReducesTo [0] S_
  bcast_S_S4096x16 : S_.BroadcastsInDim S4096x16 (![] : Fin 0 → Fin S4096x16.rank)
  reducesTo_S4096x16_S_d0_1 : S4096x16.ReducesTo [0, 1] S_
  bcast_S_S16x11008 : S_.BroadcastsInDim S16x11008 (![] : Fin 0 → Fin S16x11008.rank)
  reducesTo_S16x11008_S_d0_1 : S16x11008.ReducesTo [0, 1] S_
  bcast_S_S11008x16 : S_.BroadcastsInDim S11008x16 (![] : Fin 0 → Fin S11008x16.rank)
  reducesTo_S11008x16_S_d0_1 : S11008x16.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part2 {F : FTy → Type} [FloatOps F] (main_arg1 : IVec S11008x4096 32) (main_arg5 : IVec S4096x11008 32) (main_v33 : IVec S_ 1) : IVec S_ 1 :=
  let main_c_12 : IVec S_ 32 := constantI S_ 32 0#32
  let main_v34 : IVec S11008x4096 32 := broadcastInDim S11008x4096 ![] bcast_S_S11008x4096 main_c_12
  let main_v35 : IVec S11008x4096 1 := cmpi .sge main_arg1 main_v34
  let main_c_13 : IVec S_ 1 := constantI S_ 1 1#1
  let main_v36 : IVec S_ 1 := (fun x v => Host.reduce IntOp.andi x v reducesTo_S11008x4096_S_d0_1 h_S_) main_v35 main_c_13
  let main_v37 : IVec S_ 1 := andi main_v33 main_v36
  let main_c_14 : IVec S_ 32 := constantI S_ 32 16#32
  let main_v38 : IVec S11008x4096 32 := broadcastInDim S11008x4096 ![] bcast_S_S11008x4096 main_c_14
  let main_v39 : IVec S11008x4096 1 := cmpi .slt main_arg1 main_v38
  let main_c_15 : IVec S_ 1 := constantI S_ 1 1#1
  let main_v40 : IVec S_ 1 := (fun x v => Host.reduce IntOp.andi x v reducesTo_S11008x4096_S_d0_1 h_S_) main_v39 main_c_15
  let main_v41 : IVec S_ 1 := andi main_v37 main_v40
  let main_c_16 : IVec S_ 32 := constantI S_ 32 0#32
  let main_v42 : IVec S4096x11008 32 := broadcastInDim S4096x11008 ![] bcast_S_S4096x11008 main_c_16
  let main_v43 : IVec S4096x11008 1 := cmpi .sge main_arg5 main_v42
  let main_c_17 : IVec S_ 1 := constantI S_ 1 1#1
  let main_v44 : IVec S_ 1 := (fun x v => Host.reduce IntOp.andi x v reducesTo_S4096x11008_S_d0_1 h_S_) main_v43 main_c_17
  let main_v45 : IVec S_ 1 := andi main_v41 main_v44
  let main_c_18 : IVec S_ 32 := constantI S_ 32 16#32
  let main_v46 : IVec S4096x11008 32 := broadcastInDim S4096x11008 ![] bcast_S_S4096x11008 main_c_18
  let main_v47 : IVec S4096x11008 1 := cmpi .slt main_arg5 main_v46
  let main_c_19 : IVec S_ 1 := constantI S_ 1 1#1
  let main_v48 : IVec S_ 1 := (fun x v => Host.reduce IntOp.andi x v reducesTo_S4096x11008_S_d0_1 h_S_) main_v47 main_c_19
  let main_v49 : IVec S_ 1 := andi main_v45 main_v48
  main_v49

def fn_part1 {F : FTy → Type} [FloatOps F] (main_arg1 : IVec S11008x4096 32) (main_arg5 : IVec S4096x11008 32) (main_arg6 : FVec F S704512 .f32) (main_arg7 : FVec F S11008x16 .f32) (main_arg8 : FVec F S16x4096 .f32) (main_v13 : IVec S_ 1) (main_v16 : IVec S16x11008 1) : IVec S_ 1 :=
  let main_c_5 : IVec S_ 1 := constantI S_ 1 1#1
  let main_v17 : IVec S_ 1 := (fun x v => Host.reduce IntOp.andi x v reducesTo_S16x11008_S_d0_1 h_S_) main_v16 main_c_5
  let main_v18 : IVec S_ 1 := andi main_v13 main_v17
  let main_v19 : FVec F S704512 .f32 := Host.absf main_arg6
  let main_cst_6 : FVec F S_ .f32 := constant S_ .f32 0x7F800000#32
  let main_v20 : FVec F S704512 .f32 := broadcastInDim S704512 ![] bcast_S_S704512 main_cst_6
  let main_v21 : IVec S704512 1 := cmpf .olt main_v19 main_v20
  let main_c_7 : IVec S_ 1 := constantI S_ 1 1#1
  let main_v22 : IVec S_ 1 := (fun x v => Host.reduce IntOp.andi x v reducesTo_S704512_S_d0 h_S_) main_v21 main_c_7
  let main_v23 : IVec S_ 1 := andi main_v18 main_v22
  let main_v24 : FVec F S11008x16 .f32 := Host.absf main_arg7
  let main_cst_8 : FVec F S_ .f32 := constant S_ .f32 0x7F800000#32
  let main_v25 : FVec F S11008x16 .f32 := broadcastInDim S11008x16 ![] bcast_S_S11008x16 main_cst_8
  let main_v26 : IVec S11008x16 1 := cmpf .olt main_v24 main_v25
  let main_c_9 : IVec S_ 1 := constantI S_ 1 1#1
  let main_v27 : IVec S_ 1 := (fun x v => Host.reduce IntOp.andi x v reducesTo_S11008x16_S_d0_1 h_S_) main_v26 main_c_9
  let main_v28 : IVec S_ 1 := andi main_v23 main_v27
  let main_v29 : FVec F S16x4096 .f32 := Host.absf main_arg8
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg1 main_arg5 main_v33

def fn {F : FTy → Type} [FloatOps F] (main_arg0 : FVec F S8192x4096 .f32) (main_arg1 : IVec S11008x4096 32) (main_arg2 : FVec F S704512 .f32) (main_arg3 : FVec F S4096x16 .f32) (main_arg4 : FVec F S16x11008 .f32) (main_arg5 : IVec S4096x11008 32) (main_arg6 : FVec F S704512 .f32) (main_arg7 : FVec F S11008x16 .f32) (main_arg8 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x11008 .f32 := Host.absf main_arg4
  let main_cst_4 : FVec F S_ .f32 := constant S_ .f32 0x7F800000#32
  let main_v15 : FVec F S16x11008 .f32 := broadcastInDim S16x11008 ![] bcast_S_S16x11008 main_cst_4
  let main_v16 : IVec S16x11008 1 := cmpf .olt main_v14 main_v15
  fn_part1 (F := F) main_arg1 main_arg5 main_arg6 main_arg7 main_arg8 main_v13 main_v16
-- ==== Kernel.lean ====
abbrev S8192x4096 : Shape := ⟨2, ![8192, 4096]⟩
abbrev S11008x4096 : Shape := ⟨2, ![11008, 4096]⟩
abbrev S704512 : Shape := ⟨1, ![704512]⟩
abbrev S4096x16 : Shape := ⟨2, ![4096, 16]⟩
abbrev S16x11008 : Shape := ⟨2, ![16, 11008]⟩
abbrev S4096x11008 : Shape := ⟨2, ![4096, 11008]⟩
abbrev S11008x16 : Shape := ⟨2, ![11008, 16]⟩
abbrev S16x4096 : Shape := ⟨2, ![16, 4096]⟩
abbrev S704512x64 : Shape := ⟨2, ![704512, 64]⟩
abbrev S45088768 : Shape := ⟨1, ![45088768]⟩
abbrev S8192x11008 : Shape := ⟨2, ![8192, 11008]⟩
abbrev S1024x1024 : Shape := ⟨2, ![1024, 1024]⟩
abbrev S256x1024 : Shape := ⟨2, ![256, 1024]⟩
abbrev S1024x16 : Shape := ⟨2, ![1024, 16]⟩
abbrev S16x256 : Shape := ⟨2, ![16, 256]⟩
abbrev S1024x256 : Shape := ⟨2, ![1024, 256]⟩
abbrev S2048x256 : Shape := ⟨2, ![2048, 256]⟩
abbrev S512x256 : Shape := ⟨2, ![512, 256]⟩
abbrev S256x16 : Shape := ⟨2, ![256, 16]⟩
abbrev S16x512 : Shape := ⟨2, ![16, 512]⟩
abbrev S2048x512 : Shape := ⟨2, ![2048, 512]⟩
abbrev S2048x16 : Shape := ⟨2, ![2048, 16]⟩

abbrev nBuf : Space → Nat
  | .hbm => 19
  | .vmem => 28
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S704512, .f32⟩
  | .hbm, ⟨3, _⟩ => ⟨S4096x16, .f32⟩
  | .hbm, ⟨4, _⟩ => ⟨S16x11008, .f32⟩
  | .hbm, ⟨5, _⟩ => ⟨S4096x11008, .i32⟩
  | .hbm, ⟨6, _⟩ => ⟨S704512, .f32⟩
  | .hbm, ⟨7, _⟩ => ⟨S11008x16, .f32⟩
  | .hbm, ⟨8, _⟩ => ⟨S16x4096, .f32⟩
  | .hbm, ⟨9, _⟩ => ⟨S704512x64, .f32⟩
  | .hbm, ⟨10, _⟩ => ⟨S45088768, .f32⟩
  | .hbm, ⟨11, _⟩ => ⟨S11008x4096, .f32⟩
  | .hbm, ⟨12, _⟩ => ⟨S11008x4096, .bf16⟩
  | .hbm, ⟨13, _⟩ => ⟨S704512x64, .f32⟩
  | .hbm, ⟨14, _⟩ => ⟨S45088768, .f32⟩
  | .hbm, ⟨15, _⟩ => ⟨S4096x11008, .f32⟩
  | .hbm, ⟨16, _⟩ => ⟨S4096x11008, .bf16⟩
  | .hbm, ⟨17, _⟩ => ⟨S8192x11008, .bf16⟩
  | .hbm, ⟨18, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S256x1024, .i32⟩
  | .local _ .vmem, ⟨3, _⟩ => ⟨S256x1024, .i32⟩
  | .local _ .vmem, ⟨4, _⟩ => ⟨S256x1024, .bf16⟩
  | .local _ .vmem, ⟨5, _⟩ => ⟨S256x1024, .bf16⟩
  | .local _ .vmem, ⟨6, _⟩ => ⟨S1024x16, .f32⟩
  | .local _ .vmem, ⟨7, _⟩ => ⟨S1024x16, .f32⟩
  | .local _ .vmem, ⟨8, _⟩ => ⟨S16x256, .f32⟩
  | .local _ .vmem, ⟨9, _⟩ => ⟨S16x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x16, .f32⟩
  | .local _ .vmem, ⟨14, _⟩ => ⟨S2048x256, .bf16⟩
  | .local _ .vmem, ⟨15, _⟩ => ⟨S2048x256, .bf16⟩
  | .local _ .vmem, ⟨16, _⟩ => ⟨S512x256, .i32⟩
  | .local _ .vmem, ⟨17, _⟩ => ⟨S512x256, .i32⟩
  | .local _ .vmem, ⟨18, _⟩ => ⟨S512x256, .bf16⟩
  | .local _ .vmem, ⟨19, _⟩ => ⟨S512x256, .bf16⟩
  | .local _ .vmem, ⟨20, _⟩ => ⟨S256x16, .f32⟩
  | .local _ .vmem, ⟨21, _⟩ => ⟨S256x16, .f32⟩
  | .local _ .vmem, ⟨22, _⟩ => ⟨S16x512, .f32⟩
  | .local _ .vmem, ⟨23, _⟩ => ⟨S16x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![8, 43, 4], ![false, false, false]⟩

def k0_cond2 (i : grid0.Coords) : BitVec 1 :=
  let arg2 : BitVec 32 := BitVec.ofNat 32 (i 2).val
  let c3_i32_33 : BitVec 32 := 3#32
  let v86 : BitVec 1 := Scalar.cmpi .eq arg2 c3_i32_33
  let v87 : BitVec 32 := Scalar.extui v86
  let c0_i32_34 : BitVec 32 := 0#32
  let v88 : BitVec 1 := Scalar.cmpi .ne v87 c0_i32_34
  v88

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 8, 43], ![false, false, false]⟩

def k1_cond2 (i : grid1.Coords) : BitVec 1 :=
  let arg2 : BitVec 32 := BitVec.ofNat 32 (i 2).val
  let c42_i32 : BitVec 32 := 42#32
  let v86 : BitVec 1 := Scalar.cmpi .eq arg2 c42_i32
  let v87 : BitVec 32 := Scalar.extui v86
  let c0_i32_33 : BitVec 32 := 0#32
  let v88 : BitVec 1 := Scalar.cmpi .ne v87 c0_i32_33
  v88

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S16x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bcast_S704512_S704512x64_0 : S704512.BroadcastsInDim S704512x64 (![0] : Fin 1 → Fin S704512x64.rank)
  shapeCasts_S704512x64_S45088768 : S704512x64.ShapeCasts S45088768
  shapeCasts_S45088768_S11008x4096 : S45088768.ShapeCasts S11008x4096
  bitsLt_bf16_f32 : FTy.bits .bf16 < FTy.bits .f32
  shapeCasts_S45088768_S4096x11008 : S45088768.ShapeCasts S4096x11008
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S16x256_S16x256_0_0 : ∀ a, (![0, 0] : Fin 2 → Nat) a + S16x256.size a ≤ S16x256.size a
  h_S16x256 : 0 < S16x256.numel
  packedbf16_S1024x256_S1024x256_0_0 : (Rect.unit (s := S1024x256) ![0, 0] S1024x256.size inb_S1024x256_S1024x256_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x16_S256x16_0_0 : ∀ a, (![0, 0] : Fin 2 → Nat) a + S256x16.size a ≤ S256x16.size a
  h_S256x16 : 0 < S256x16.numel
  inb_S16x512_S16x512_0_0 : ∀ a, (![0, 0] : Fin 2 → Nat) a + S16x512.size a ≤ S16x512.size a
  h_S16x512 : 0 < S16x512.numel
  dot_S1024x1024_S256x1024_S1024x256_1_1_0_0_n_n_wf : DotDims.WF S1024x1024 S256x1024 S1024x256 [1] [1] [0] [0] [] []
  dot_S1024x1024_S1024x16_S1024x16_1_0_0_1_n_n_wf : DotDims.WF S1024x1024 S1024x16 S1024x16 [1] [0] [0] [1] [] []
  dot_S1024x16_S16x256_S1024x256_1_0_0_1_n_n_wf : DotDims.WF S1024x16 S16x256 S1024x256 [1] [0] [0] [1] [] []
  dot_S2048x256_S512x256_S2048x512_1_1_0_0_n_n_wf : DotDims.WF S2048x256 S512x256 S2048x512 [1] [1] [0] [0] [] []
  dot_S2048x256_S256x16_S2048x16_1_0_0_1_n_n_wf : DotDims.WF S2048x256 S256x16 S2048x16 [1] [0] [0] [1] [] []
  dot_S2048x16_S16x512_S2048x512_1_0_0_1_n_n_wf : DotDims.WF S2048x16 S16x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S11008x4096.size a
  hwx0_1 : ∀ i : grid0.Coords, EltTy.bits .i32 = 32 ∨ (Rect.block (s := S11008x4096) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S11008x4096.size a
  hwx0_2 : ∀ i : grid0.Coords, EltTy.bits .bf16 = 32 ∨ (Rect.block (s := S11008x4096) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x11008.size a
  hwx0_4 : ∀ i : grid0.Coords, EltTy.bits .f32 = 32 ∨ (Rect.block (s := S16x11008) S16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .bf16 = 32 ∨ (Rect.block (s := S8192x11008) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x11008.size a
  hwx1_0 : ∀ i : grid1.Coords, EltTy.bits .bf16 = 32 ∨ (Rect.block (s := S8192x11008) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x11008.size a
  hwx1_1 : ∀ i : grid1.Coords, EltTy.bits .i32 = 32 ∨ (Rect.block (s := S4096x11008) S512x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x11008.size a
  hwx1_2 : ∀ i : grid1.Coords, EltTy.bits .bf16 = 32 ∨ (Rect.block (s := S4096x11008) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S11008x16.size a
  hwx1_3 : ∀ i : grid1.Coords, EltTy.bits .f32 = 32 ∨ (Rect.block (s := S11008x16) S256x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x512.size a ≤ S16x4096.size a
  hwx1_4 : ∀ i : grid1.Coords, EltTy.bits .f32 = 32 ∨ (Rect.block (s := S16x4096) S16x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S8192x4096.size a
  hwx1_5 : ∀ i : grid1.Coords, EltTy.bits .f32 = 32 ∨ (Rect.block (s := S8192x4096) S2048x512.size (cc1_transform_5 i) (hinb1_5 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf
def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v8) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S704512 : Shape := ⟨1, ![704512]⟩
abbrev S4096x16 : Shape := ⟨2, ![4096, 16]⟩
abbrev S16x11008 : Shape := ⟨2, ![16, 11008]⟩
abbrev S4096x11008 : Shape := ⟨2, ![4096, 11008]⟩
abbrev S11008x16 : Shape := ⟨2, ![11008, 16]⟩
abbrev S16x4096 : Shape := ⟨2, ![16, 4096]⟩
abbrev S16 : Shape := ⟨1, ![16]⟩
abbrev S45088768 : Shape := ⟨1, ![45088768]⟩
abbrev S_ : Shape := ⟨0, ![]⟩
abbrev S45088768x1 : Shape := ⟨2, ![45088768, 1]⟩
abbrev S704512x64 : Shape := ⟨2, ![704512, 64]⟩
abbrev S8192x11008 : Shape := ⟨2, ![8192, 11008]⟩
abbrev S8192x16 : Shape := ⟨2, ![8192, 16]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S704512, .f32⟩
  | .hbm, ⟨3, _⟩ => ⟨S4096x16, .f32⟩
  | .hbm, ⟨4, _⟩ => ⟨S16x11008, .f32⟩
  | .hbm, ⟨5, _⟩ => ⟨S4096x11008, .i32⟩
  | .hbm, ⟨6, _⟩ => ⟨S704512, .f32⟩
  | .hbm, ⟨7, _⟩ => ⟨S11008x16, .f32⟩
  | .hbm, ⟨8, _⟩ => ⟨S16x4096, .f32⟩
  | .hbm, ⟨9, _⟩ => ⟨S16, .f32⟩
  | .hbm, ⟨10, _⟩ => ⟨S45088768, .i32⟩
  | .hbm, ⟨11, _⟩ => ⟨S_, .i32⟩
  | .hbm, ⟨12, _⟩ => ⟨S45088768, .i32⟩
  | .hbm, ⟨13, _⟩ => ⟨S45088768, .i1⟩
  | .hbm, ⟨14, _⟩ => ⟨S_, .i32⟩
  | .hbm, ⟨15, _⟩ => ⟨S45088768, .i32⟩
  | .hbm, ⟨16, _⟩ => ⟨S45088768, .i32⟩
  | .hbm, ⟨17, _⟩ => ⟨S45088768, .i32⟩
  | .hbm, ⟨18, _⟩ => ⟨S45088768x1, .i32⟩
  | .hbm, ⟨19, _⟩ => ⟨S45088768, .f32⟩
  | .hbm, ⟨20, _⟩ => ⟨S704512x64, .f32⟩
  | .hbm, ⟨21, _⟩ => ⟨S45088768, .f32⟩
  | .hbm, ⟨22, _⟩ => ⟨S45088768, .f32⟩
  | .hbm, ⟨23, _⟩ => ⟨S11008x4096, .f32⟩
  | .hbm, ⟨24, _⟩ => ⟨S4096x11008, .f32⟩
  | .hbm, ⟨25, _⟩ => ⟨S8192x11008, .f32⟩
  | .hbm, ⟨26, _⟩ => ⟨S8192x16, .f32⟩
  | .hbm, ⟨27, _⟩ => ⟨S8192x11008, .f32⟩
  | .hbm, ⟨28, _⟩ => ⟨S8192x11008, .f32⟩
  | .hbm, ⟨29, _⟩ => ⟨S8192x11008, .f32⟩
  | .hbm, ⟨30, _⟩ => ⟨S8192x11008, .f32⟩
  | .hbm, ⟨31, _⟩ => ⟨S_, .f32⟩
  | .hbm, ⟨32, _⟩ => ⟨S8192x11008, .f32⟩
  | .hbm, ⟨33, _⟩ => ⟨S8192x11008, .f32⟩
  | .hbm, ⟨34, _⟩ => ⟨S_, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S45088768, .i32⟩
  | .hbm, ⟨39, _⟩ => ⟨S_, .i32⟩
  | .hbm, ⟨40, _⟩ => ⟨S45088768, .i32⟩
  | .hbm, ⟨41, _⟩ => ⟨S45088768, .i1⟩
  | .hbm, ⟨42, _⟩ => ⟨S_, .i32⟩
  | .hbm, ⟨43, _⟩ => ⟨S45088768, .i32⟩
  | .hbm, ⟨44, _⟩ => ⟨S45088768, .i32⟩
  | .hbm, ⟨45, _⟩ => ⟨S45088768, .i32⟩
  | .hbm, ⟨46, _⟩ => ⟨S45088768x1, .i32⟩
  | .hbm, ⟨47, _⟩ => ⟨S45088768, .f32⟩
  | .hbm, ⟨48, _⟩ => ⟨S704512x64, .f32⟩
  | .hbm, ⟨49, _⟩ => ⟨S45088768, .f32⟩
  | .hbm, ⟨50, _⟩ => ⟨S45088768, .f32⟩
  | .hbm, ⟨51, _⟩ => ⟨S4096x11008, .f32⟩
  | .hbm, ⟨52, _⟩ => ⟨S11008x4096, .f32⟩
  | .hbm, ⟨53, _⟩ => ⟨S8192x4096, .f32⟩
  | .hbm, ⟨54, _⟩ => ⟨S8192x16, .f32⟩
  | .hbm, ⟨55, _⟩ => ⟨S8192x4096, .f32⟩
  | .hbm, ⟨56, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]

class Facts₀ : Prop where
  shapeCasts_S11008x4096_S45088768 : S11008x4096.ShapeCasts S45088768
  bcast_S_S45088768 : S_.BroadcastsInDim S45088768 (![] : Fin 0 → Fin S45088768.rank)
  bcast_S45088768_S45088768x1_0 : S45088768.BroadcastsInDim S45088768x1 (![0] : Fin 1 → Fin S45088768x1.rank)
  bcast_S704512_S704512x64_0 : S704512.BroadcastsInDim S704512x64 (![0] : Fin 1 → Fin S704512x64.rank)
  shapeCasts_S704512x64_S45088768 : S704512x64.ShapeCasts S45088768
  shapeCasts_S45088768_S11008x4096 : S45088768.ShapeCasts S11008x4096
  transposes_S11008x4096_S4096x11008_1_0 : S11008x4096.Transposes [1, 0] S4096x11008
  bcast_S_S8192x11008 : S_.BroadcastsInDim S8192x11008 (![] : Fin 0 → Fin S8192x11008.rank)
  shapeCasts_S4096x11008_S45088768 : S4096x11008.ShapeCasts S45088768
  shapeCasts_S45088768_S4096x11008 : S45088768.ShapeCasts S4096x11008
  transposes_S4096x11008_S11008x4096_1_0 : S4096x11008.Transposes [1, 0] S11008x4096
  gather_S16_S45088768x1_S45088768_n_0_n_n_0_1_1_wf : GatherDims.WF S16 S45088768x1 S45088768 [] [0] [] [0] [] 1 ![1]
  dot_S8192x4096_S4096x11008_S8192x11008_1_0_0_1_n_n_wf : DotDims.WF S8192x4096 S4096x11008 S8192x11008 [1] [0] [0] [1] [] []
  dot_S8192x4096_S4096x16_S8192x16_1_0_0_1_n_n_wf : DotDims.WF S8192x4096 S4096x16 S8192x16 [1] [0] [0] [1] [] []
  dot_S8192x16_S16x11008_S8192x11008_1_0_0_1_n_n_wf : DotDims.WF S8192x16 S16x11008 S8192x11008 [1] [0] [0] [1] [] []
  dot_S8192x11008_S11008x4096_S8192x4096_1_0_0_1_n_n_wf : DotDims.WF S8192x11008 S11008x4096 S8192x4096 [1] [0] [0] [1] [] []
  dot_S8192x11008_S11008x16_S8192x16_1_0_0_1_n_n_wf : DotDims.WF S8192x11008 S11008x16 S8192x16 [1] [0] [0] [1] [] []
  dot_S8192x16_S16x4096_S8192x4096_1_0_0_1_n_n_wf : DotDims.WF S8192x16 S16x4096 S8192x4096 [1] [0] [0] [1] [] []

variable [Facts₀]

def gather_S16_S45088768x1_S45088768_n_0_n_n_0_1_1 : GatherDims S16 S45088768x1 S45088768 where
  offsetDims := []
  collapsedSliceDims := [0]
  operandBatchingDims := []
  startIndicesBatchingDims := []
  startIndexMap := [0]
  indexVectorDim := 1
  sliceSizes := ![1]
  wf := gather_S16_S45088768x1_S45088768_n_0_n_n_0_1_1_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x11008_S8192x11008_1_0_0_1_n_n : DotDims S8192x16 S16x11008 S8192x11008 where
  lhsContracting := [1]
  rhsContracting := [0]
  lhsNonContracting := [0]
  rhsNonContracting := [1]
  lhsBatch := []
  rhsBatch := []
  wf := dot_S8192x16_S16x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf
def dot_S8192x11008_S11008x16_S8192x16_1_0_0_1_n_n : DotDims S8192x11008 S11008x16 S8192x16 where
  lhsContracting := [1]
  rhsContracting := [0]
  lhsNonContracting := [0]
  rhsNonContracting := [1]
  lhsBatch := []
  rhsBatch := []
  wf := dot_S8192x11008_S11008x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.K.Body0.lean ====
/-
  One grid point of the up projection's kernel, as a step on its two accumulators.

  The kernel walks the contraction axis in four steps per output block. Every step adds, to the main accumulator
  (1024 × 256), the product of the step's block of tokens with the dequantized block of the weight (each code's table
  value times its scale), and to the low-rank accumulator (1024 × 16) the product of the tokens with the block of the
  first low-rank factor; the first step starts both from zero; the last step multiplies the low-rank accumulator with
  the second factor, adds it to the main accumulator, applies y · logistic y and stores the finished block.
  `accStep0`, `lowStep0`, `finish0` are those three maps as functions of the blocks; the three theorems say the body,
  run on whole staging buffers holding the blocks, leaves exactly them — in the first, a middle and the last step.
-/
import proofs.«402316_j82248623718485_1_alg».proof.Proof.Gen.Kernel.Launch
import proofs.«402316_j82248623718485_1_alg».proof.Proof.Gen.Kernel.Skeleton
import proofs.«402316_j82248623718485_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The zero offsets of a whole rank-2 rectangle. -/
theorem hz2 : (![0, 0] : Fin 2 → ℕ) = fun _ => 0 := by funext a; fin_cases a <;> rfl

section WholeBlock
variable {Val : EltTy → Type} [∀ e, Nonempty (Val e)] {κ : Kind} {sp : Space} {S : Shape} {e : EltTy}

/-- A buffer read back after a store of its whole block, made last, holds that store's payload, whatever was stored before. -/
theorem read_after_whole_store (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

end WholeBlock

/-- The reduction step is the first of its output block: the two accumulators are reset. -/
abbrev isFirst0 (i : grid0.Coords) : Prop :=
  (Scalar.cmpi .ne (Scalar.extui (Scalar.cmpi .eq (BitVec.ofNat 32 (i 2).val) 0#32)) 0#32) = 1#1
/-- The reduction step is the last of its output block: the block is finished and stored. -/
abbrev isLast0 (i : grid0.Coords) : Prop := k0_cond2 i = 1#1

/-- One reduction step of the main accumulator: the block of tokens times the dequantized block of the up weight, added. -/
def accStep0 (x0 : Vec F S1024x1024 .f32) (x1 : Vec F S256x1024 .i32) (x2 : Vec F S256x1024 .bf16)
    (a : Vec F S1024x256 .f32) : Vec F S1024x256 .f32 :=
  k0_pay1 (k0_pay9 (k0_pay6 x0) x1 (k0_pay7 x2) (k0_pay8 x1) 7#32) a
/-- One reduction step of the low-rank accumulator: the block of tokens times the block of the first factor, added. -/
def lowStep0 (x0 : Vec F S1024x1024 .f32) (x3 : Vec F S1024x16 .f32) (l : Vec F S1024x16 .f32) : Vec F S1024x16 .f32 :=
  k0_pay2 (k0_pay6 x0) x3 l
/-- The finished block: the accumulator plus the low-rank term, through the activation. -/
def finish0 (x4 : Vec F S16x256 .f32) (l : Vec F S1024x16 .f32) (a : Vec F S1024x256 .f32) : Vec F S1024x256 .bf16 :=
  k0_pay3 x4 l a

set_option maxHeartbeats 4000000 in
/-- A middle step: both accumulators advance; the output block and the second low-rank factor are not touched. -/
theorem body0_mid (c : Dev nD) (i : grid0.Coords)
    (arg3 : Memref sig .tc .vmem S1024x1024 .f32) (harg3 : arg3.IsWhole) (arg4 : Memref sig .tc .vmem S256x1024 .i32) (harg4 : arg4.IsWhole)
    (arg5 : Memref sig .tc .vmem S256x1024 .bf16) (harg5 : arg5.IsWhole) (arg6 : Memref sig .tc .vmem S1024x16 .f32) (harg6 : arg6.IsWhole)
    (arg7 : Memref sig .tc .vmem S16x256 .f32) (harg7 : arg7.IsWhole) (arg8 : Memref sig .tc .vmem S1024x256 .bf16) (harg8 : arg8.IsWhole)
    (arg9 : Memref sig .tc .vmem S1024x256 .f32) (harg9 : arg9.IsWhole) (arg10 : Memref sig .tc .vmem S1024x16 .f32) (harg10 : arg10.IsWhole)
    (hf : ¬isFirst0 i) (hl : ¬isLast0 i)
    (x0 : Vec F S1024x1024 .f32) (x1 : Vec F S256x1024 .i32) (x2 : Vec F S256x1024 .bf16) (x3 : Vec F S1024x16 .f32)
    (a : Vec F S1024x256 .f32) (l : Vec F S1024x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep0 x0 x1 x2 a)
            ∗ owns (c : Thread nD τ) arg10 fullShare (lowStep0 x0 x3 l)) -∗ K ⟨⟩))
      ⊢ wp frame (wpE (defs₀ (F := F)) Variants.none c none) Set.univ
          (cc0__up_kernel i arg3 harg3 arg4 harg4 arg5 harg5 arg6 harg6 arg7 harg7 arg8 harg8 arg9 harg9 arg10 harg10) K := by
  simp only [cc0__up_kernel_eq_skeleton]; unfold cc0__up_kernel_skel
  unfold owns
  iintro ⟨⟨%f0, %hf0, H0⟩, ⟨%f1, %hf1, H1⟩, ⟨%f2, %hf2, H2⟩, ⟨%f3, %hf3, H3⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S1024x1024) hz2, View.ld_unit_zero (S := S256x1024) hz2,
    View.ld_unit_zero (S := S1024x256) hz2, View.ld_unit_zero (S := S1024x16) hz2, View.ld_unit_zero (S := S16x256) hz2,
    View.readCov_unit_zero (S := S1024x256) _ hz2, View.readCov_unit_zero (S := S1024x16) _ hz2]
  rfl

set_option maxHeartbeats 4000000 in
/-- The first step of a block: the accumulators, whatever they held, restart from zero and take the first products. -/
theorem body0_first (c : Dev nD) (i : grid0.Coords)
    (arg3 : Memref sig .tc .vmem S1024x1024 .f32) (harg3 : arg3.IsWhole) (arg4 : Memref sig .tc .vmem S256x1024 .i32) (harg4 : arg4.IsWhole)
    (arg5 : Memref sig .tc .vmem S256x1024 .bf16) (harg5 : arg5.IsWhole) (arg6 : Memref sig .tc .vmem S1024x16 .f32) (harg6 : arg6.IsWhole)
    (arg7 : Memref sig .tc .vmem S16x256 .f32) (harg7 : arg7.IsWhole) (arg8 : Memref sig .tc .vmem S1024x256 .bf16) (harg8 : arg8.IsWhole)
    (arg9 : Memref sig .tc .vmem S1024x256 .f32) (harg9 : arg9.IsWhole) (arg10 : Memref sig .tc .vmem S1024x16 .f32) (harg10 : arg10.IsWhole)
    (hf : isFirst0 i) (hl : ¬isLast0 i)
    (x0 : Vec F S1024x1024 .f32) (x1 : Vec F S256x1024 .i32) (x2 : Vec F S256x1024 .bf16) (x3 : Vec F S1024x16 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep0 x0 x1 x2 k0_pay4)
            ∗ owns (c : Thread nD τ) arg10 fullShare (lowStep0 x0 x3 k0_pay5)) -∗ K ⟨⟩))
      ⊢ wp frame (wpE (defs₀ (F := F)) Variants.none c none) Set.univ
          (cc0__up_kernel i arg3 harg3 arg4 harg4 arg5 harg5 arg6 harg6 arg7 harg7 arg8 harg8 arg9 harg9 arg10 harg10) K := by
  simp only [cc0__up_kernel_eq_skeleton]; unfold cc0__up_kernel_skel
  unfold owns
  iintro ⟨⟨%f0, %hf0, H0⟩, ⟨%f1, %hf1, H1⟩, ⟨%f2, %hf2, H2⟩, ⟨%f3, %hf3, H3⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S1024x1024) hz2, View.ld_unit_zero (S := S256x1024) hz2,
    View.ld_unit_zero (S := S1024x256) hz2, View.ld_unit_zero (S := S1024x16) hz2, View.ld_unit_zero (S := S16x256) hz2,
    View.readCov_unit_zero (S := S1024x256) _ hz2, View.readCov_unit_zero (S := S1024x16) _ hz2]
  rfl

set_option maxHeartbeats 4000000 in
/-- The last step of a block: both accumulators advance once more, and the finished block is stored. -/
theorem body0_last (c : Dev nD) (i : grid0.Coords)
    (arg3 : Memref sig .tc .vmem S1024x1024 .f32) (harg3 : arg3.IsWhole) (arg4 : Memref sig .tc .vmem S256x1024 .i32) (harg4 : arg4.IsWhole)
    (arg5 : Memref sig .tc .vmem S256x1024 .bf16) (harg5 : arg5.IsWhole) (arg6 : Memref sig .tc .vmem S1024x16 .f32) (harg6 : arg6.IsWhole)
    (arg7 : Memref sig .tc .vmem S16x256 .f32) (harg7 : arg7.IsWhole) (arg8 : Memref sig .tc .vmem S1024x256 .bf16) (harg8 : arg8.IsWhole)
    (arg9 : Memref sig .tc .vmem S1024x256 .f32) (harg9 : arg9.IsWhole) (arg10 : Memref sig .tc .vmem S1024x16 .f32) (harg10 : arg10.IsWhole)
    (hf : ¬isFirst0 i) (hl : isLast0 i)
    (x0 : Vec F S1024x1024 .f32) (x1 : Vec F S256x1024 .i32) (x2 : Vec F S256x1024 .bf16) (x3 : Vec F S1024x16 .f32)
    (x4 : Vec F S16x256 .f32) (a : Vec F S1024x256 .f32) (l : Vec F S1024x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (finish0 x4 (lowStep0 x0 x3 l) (accStep0 x0 x1 x2 a))
            ∗ owns (c : Thread nD τ) arg9 fullShare (accStep0 x0 x1 x2 a)
            ∗ owns (c : Thread nD τ) arg10 fullShare (lowStep0 x0 x3 l)) -∗ K ⟨⟩))
      ⊢ wp frame (wpE (defs₀ (F := F)) Variants.none c none) Set.univ
          (cc0__up_kernel i arg3 harg3 arg4 harg4 arg5 harg5 arg6 harg6 arg7 harg7 arg8 harg8 arg9 harg9 arg10 harg10) K := by
  simp only [cc0__up_kernel_eq_skeleton]; unfold cc0__up_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf7; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  isplitl [H8]
  · iexists _; isplitr
    swap; · iexact H8
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S1024x1024) hz2, View.ld_unit_zero (S := S256x1024) hz2,
    View.ld_unit_zero (S := S1024x256) hz2, View.ld_unit_zero (S := S1024x16) hz2, View.ld_unit_zero (S := S16x256) hz2,
    View.readCov_unit_zero (S := S1024x256) _ hz2, View.readCov_unit_zero (S := S1024x16) _ hz2]
  rfl

end Cert.Kernel.Hand

end
-- ==== Proof.K.Region0.lean ====
/-
  The up projection's region, point by point.

  The grid runs over (token block i, output block j, contraction step k), k fastest: point t has k = t mod 4. At a point
  the pipeline hands the body the blocks of the five input arrays; `scr0 n` is what the two accumulators hold after
  point n — started from zero where n mod 4 = 0, otherwise one step on from point n − 1 — and `fin0 t` the block the
  last step of a group finishes from them. The region's invariant carries the two accumulator buffers at `scr0` from
  point to point; the output window is written only by last steps and left alone, and not written back, elsewhere.
-/
import proofs.«402316_j82248623718485_1_alg».proof.Proof.K.Body0
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered: every statement below is at this parameter
variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at their literal types: tokens, codes, scales, first and second low-rank factor. -/
abbrev tok0 (c : Dev nD) (t : Fin cfg0.N) : Vec F S1024x1024 .f32 := iblk0 V c 0 t
abbrev cod0 (c : Dev nD) (t : Fin cfg0.N) : Vec F S256x1024 .i32 := iblk0 V c 1 t
abbrev scl0 (c : Dev nD) (t : Fin cfg0.N) : Vec F S256x1024 .bf16 := iblk0 V c 2 t
abbrev lra0 (c : Dev nD) (t : Fin cfg0.N) : Vec F S1024x16 .f32 := iblk0 V c 3 t
abbrev lrb0 (c : Dev nD) (t : Fin cfg0.N) : Vec F S16x256 .f32 := iblk0 V c 4 t

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators after each point -/

/-- One step on the pair of accumulators, with the blocks of point `t`. -/
def step0 (c : Dev nD) (t : Fin cfg0.N) (s : Vec F S1024x256 .f32 × Vec F S1024x16 .f32) : Vec F S1024x256 .f32 × Vec F S1024x16 .f32 :=
  (accStep0 (tok0 V c t) (cod0 V c t) (scl0 V c t) s.1, lowStep0 (tok0 V c t) (lra0 V c t) s.2)

/-- What the two accumulators hold after point `n`. -/
def scr0 (c : Dev nD) : (n : ℕ) → n < cfg0.N → Vec F S1024x256 .f32 × Vec F S1024x16 .f32
  | 0, h => step0 V c ⟨0, h⟩ (k0_pay4, k0_pay5)
  | n + 1, h => step0 V c ⟨n + 1, h⟩ (if (n + 1) % 4 = 0 then (k0_pay4, k0_pay5) else scr0 c n (Nat.lt_of_succ_lt h))

theorem scr0_first (c : Dev nD) (t : Fin cfg0.N) (h : t.val % 4 = 0) :
    scr0 V c t.val t.isLt = step0 V c t (k0_pay4, k0_pay5) := by
  obtain ⟨n, hn⟩ := t
  cases n with
  | zero => rfl
  | succ n => show step0 V c _ (if (n + 1) % 4 = 0 then _ else _) = _; rw [if_pos h]

theorem scr0_next (c : Dev nD) (t : Fin cfg0.N) (h : ¬t.val % 4 = 0) :
    scr0 V c t.val t.isLt = step0 V c t (scr0 V c (t.val - 1) (Nat.lt_of_le_of_lt (Nat.sub_le _ _) t.isLt)) := by
  obtain ⟨n, hn⟩ := t
  cases n with
  | zero => exact absurd (Nat.zero_mod _) h
  | succ n => show step0 V c _ (if (n + 1) % 4 = 0 then _ else _) = _; rw [if_neg h]; rfl

/-- The block a last step finishes at point `t` (read only where t mod 4 = 3). -/
def fin0 (c : Dev nD) (t : Fin cfg0.N) : Vec F S1024x256 .bf16 :=
  finish0 (lrb0 V c t) (scr0 V c t.val t.isLt).2 (scr0 V c t.val t.isLt).1

/-! ## The steps' conditions over the grid -/

theorem hfirst0 : ∀ t : Fin cfg0.N, isFirst0 (grid0.coords t) ↔ t.val % 4 = 0 :=
  (by decide +kernel : ∀ t : Fin grid0.N, isFirst0 (grid0.coords t) ↔ t.val % 4 = 0)
theorem hlast0 : ∀ t : Fin cfg0.N, isLast0 (grid0.coords t) ↔ t.val % 4 = 3 :=
  (by decide +kernel : ∀ t : Fin grid0.N, isLast0 (grid0.coords t) ↔ t.val % 4 = 3)

/-- The output window is idle exactly where the step is not the last. -/
theorem idle0_5 (t : Fin cfg0.N) (h : ¬isLast0 (grid0.coords t)) : cfg0.idle 5 (grid0.coords t) = true := by
  show (!(k0_cond2 (grid0.coords t) == 1#1)) = true
  rw [beq_eq_false_iff_ne.mpr h]; rfl
theorem live0_5 (t : Fin cfg0.N) (h : isLast0 (grid0.coords t)) : cfg0.idle 5 (grid0.coords t) = false := by
  show (!(k0_cond2 (grid0.coords t) == 1#1)) = false
  rw [beq_iff_eq.mpr h]; rfl
theorem noFlush0_5 (t : Fin cfg0.N) (h : ¬t.val % 4 = 3) : (cfg0.win 5).flush t = false := by
  cases hf : (cfg0.win 5).flush t with
  | false => rfl
  | true => exact absurd ((flush0_5 t).mp hf) h

/-! ## The staging and scratch memrefs -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
/-- The main and the low-rank accumulator: whole scoped buffers of the kernel's own. -/
abbrev scA0 : Memref sig .tc .vmem S1024x256 .f32 := Memref.whole cc0_scratch0
abbrev scL0 : Memref sig .tc .vmem S1024x16 .f32 := Memref.whole cc0_scratch1

/-- The scoped buffers this region neither stages nor uses, each at some contents. -/
def idleScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two accumulators as memrefs owned at some contents. -/
theorem PhiA0_eq (c : Dev nD) :
    (Pipeline.ΦA spec0 c : sProp 𝕄)
      = iprop(iprop((∃ d, owns (c : Thread nD τ) scA0 fullShare d) ∗ (∃ d, owns (c : Thread nD τ) scL0 fullShare d) ∗ idleScoped0 c) ∗ (∃ r, prngReg c r)) := by
  unfold Pipeline.ΦA idleScoped0; rw [scopedRest0_eq]; simp only [scA0, scL0, owns_whole]; try rfl

/-- The region's invariant before point `n`: before the first point the class's; afterwards the two accumulators at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scA0 fullShare (scr0 V c n hn).1 ∗ owns (c : Thread nD τ) scL0 fullShare (scr0 V c n hn).2 ∗ idleScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scA0 fullShare (scr0 V c n hn).1 ∗ owns (c : Thread nD τ) scL0 fullShare (scr0 V c n hn).2 ∗ idleScoped0 c) ∗ (∃ r, prngReg c r)) := rfl
theorem PhiS0_pos (c : Dev nD) (n : ℕ) (h : n ≤ cfg0.N) (hz : n ≠ 0) :
    PhiS0 V c n h = iprop(iprop(owns (c : Thread nD τ) scA0 fullShare (scr0 V c (n - 1) (by omega)).1 ∗ owns (c : Thread nD τ) scL0 fullShare (scr0 V c (n - 1) (by omega)).2 ∗ idleScoped0 c) ∗ (∃ r, prngReg c r)) := by
  cases n with
  | zero => exact absurd rfl hz
  | succ n => rfl

/-! ## The proof data -/

/-- The pipeline's proof data on core `c`: the arrays as the region finds them; after the body each input's buffer at
    its block and the output's at `fin0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => fin0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = fin0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem leaves0_0 (c : Dev nD) (t : Fin cfg0.N) :
    (dat0 V c).leavesExact 0 t = owns (c : Thread nD τ) (ms0_0 t) fullShare (iblk0 V c 0 t) := by
  unfold Dat.leavesExact; rw [show cfg0.idle 0 (grid0.coords t) = false from rfl, after0_0]
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (grid0.coords t) = false from rfl, after0_1]
theorem leaves0_2 (c : Dev nD) (t : Fin cfg0.N) :
    (dat0 V c).leavesExact 2 t = owns (c : Thread nD τ) (ms0_2 t) fullShare (iblk0 V c 2 t) := by
  unfold Dat.leavesExact; rw [show cfg0.idle 2 (grid0.coords t) = false from rfl, after0_2]
theorem leaves0_3 (c : Dev nD) (t : Fin cfg0.N) :
    (dat0 V c).leavesExact 3 t = owns (c : Thread nD τ) (ms0_3 t) fullShare (iblk0 V c 3 t) := by
  unfold Dat.leavesExact; rw [show cfg0.idle 3 (grid0.coords t) = false from rfl, after0_3]
theorem leaves0_4 (c : Dev nD) (t : Fin cfg0.N) :
    (dat0 V c).leavesExact 4 t = owns (c : Thread nD τ) (ms0_4 t) fullShare (iblk0 V c 4 t) := by
  unfold Dat.leavesExact; rw [show cfg0.idle 4 (grid0.coords t) = false from rfl, after0_4]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' buffers hold their blocks; t mod 4 says whether the step is the first, a middle or
    the last of its group; the invariant hands the step the two accumulators at what the point before left (at anything
    before the first point: a first step resets them) and takes them back one step on; the output window is stored by a
    last step and passes through untouched otherwise; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  by_cases h0 : t.val % 4 = 0
  · have h3 : ¬t.val % 4 = 3 := by omega
    have hf : isFirst0 (grid0.coords t) := (hfirst0 t).mpr h0
    have hl : ¬isLast0 (grid0.coords t) := fun h => h3 ((hlast0 t).mp h)
    rw [Dat.leavesExact_idle (dat0 V c) 5 t (idle0_5 t hl) (noFlush0_5 t h3)]
    rw [scr0_first V c t h0]; dsimp only [step0]
    by_cases hz : t.val = 0
    · rw [PhiS0_castSucc V c t, PhiS0_zero V c _ _ hz, PhiA0_eq]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_first c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS0_castSucc V c t, PhiS0_pos V c _ _ hz]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_first c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) _)
      isplitl [H0]; · iexact H0
      isplitl [H1]; · iexact H1
      isplitl [H2]; · iexact H2
      isplitl [H3]; · iexact H3
      isplitl [HA]; · iexists _; iexact HA
      isplitl [HL]; · iexists _; iexact HL
      iintro ⟨H0, H1, H2, H3, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    have hf : ¬isFirst0 (grid0.coords t) := fun h => h0 ((hfirst0 t).mp h)
    rw [scr0_next V c t h0]; dsimp only [step0]
    rw [PhiS0_castSucc V c t, PhiS0_pos V c _ _ hz]
    by_cases h3 : t.val % 4 = 3
    · have hl : isLast0 (grid0.coords t) := (hlast0 t).mpr h3
      rw [show (dat0 V c).leavesExact 5 t = owns (c : Thread nD τ) (ms0_5 t) fullShare ((dat0 V c).after 5 t) from by
        unfold Dat.leavesExact; rw [live0_5 t hl], after0_5]
      unfold fin0; rw [scr0_next V c t h0]; dsimp only [step0]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_last c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) (lrb0 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HL]; · iexact HL
      iintro ⟨H0, H1, H2, H3, H4, H5, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast0 (grid0.coords t) := fun h => h3 ((hlast0 t).mp h)
      rw [Dat.leavesExact_idle (dat0 V c) 5 t (idle0_5 t hl) (noFlush0_5 t h3)]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_mid c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) _ _ _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HA, HL, HR⟩, Hg⟩
  isplitl [HA HL HR]
  · isplitl [HA]; · iexists _; iexact HA
    isplitl [HL]; · iexists _; iexact HL
    iexact HR
  iexact Hg

theorem hout0 (c : Dev nD) : (dat0 V c).Φ (Fin.last cfg0.N) ⊢ Pipeline.ΦA spec0 c :=
  Phi_out0 V c _ (by rw [Fin.val_last]; have : cfg0.N = 1376 := N_0; omega)

end Region0

end Cert.Kernel.Hand

end
-- ==== Proof.K.Body1.lean ====
/-
  One grid point of the down projection's kernel, as a step on its two accumulators.

  The kernel walks the contraction axis in forty-three steps per output block. Every step adds, to the main
  accumulator (2048 × 512), the product of the step's block of activations (already in the short float format, taken
  as they are) with the dequantized block of the down weight (each code's table value times its scale), and to the
  low-rank accumulator (2048 × 16) the product of the activations with the block of the first low-rank factor; the
  first step starts both from zero; the last step multiplies the low-rank accumulator with the second factor, adds it
  to the main accumulator and stores the sum as the finished block — no activation function follows this projection.
  `accStep1`, `lowStep1`, `finish1` are those three maps as functions of the blocks; the three theorems say the body,
  run on whole staging buffers holding the blocks, leaves exactly them — in the first, a middle and the last step.
-/
import proofs.«402316_j82248623718485_1_alg».proof.Proof.Gen.Kernel.Launch
import proofs.«402316_j82248623718485_1_alg».proof.Proof.Gen.Kernel.Skeleton
import proofs.«402316_j82248623718485_1_alg».proof.Proof.Gen.Kernel.Points
import proofs.«402316_j82248623718485_1_alg».proof.Proof.K.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first of its output block: the two accumulators are reset. -/
abbrev isFirst1 (i : grid1.Coords) : Prop :=
  (Scalar.cmpi .ne (Scalar.extui (Scalar.cmpi .eq (BitVec.ofNat 32 (i 2).val) 0#32)) 0#32) = 1#1
/-- The reduction step is the last of its output block: the block is finished and stored. -/
abbrev isLast1 (i : grid1.Coords) : Prop := k1_cond2 i = 1#1

/-- One reduction step of the main accumulator: the block of activations times the dequantized block of the down weight, added. -/
def accStep1 (x0 : Vec F S2048x256 .bf16) (x1 : Vec F S512x256 .i32) (x2 : Vec F S512x256 .bf16)
    (a : Vec F S2048x512 .f32) : Vec F S2048x512 .f32 :=
  k1_pay1 (k1_pay9 (k1_pay6 x0) x1 (k1_pay7 x2) (k1_pay8 x1) 7#32) a
/-- One reduction step of the low-rank accumulator: the block of activations times the block of the first factor, added. -/
def lowStep1 (x0 : Vec F S2048x256 .bf16) (x3 : Vec F S256x16 .f32) (l : Vec F S2048x16 .f32) : Vec F S2048x16 .f32 :=
  k1_pay2 (k1_pay6 x0) x3 l
/-- The finished block: the accumulator plus the low-rank term. -/
def finish1 (x4 : Vec F S16x512 .f32) (l : Vec F S2048x16 .f32) (a : Vec F S2048x512 .f32) : Vec F S2048x512 .f32 :=
  k1_pay3 x4 l a

set_option maxHeartbeats 4000000 in
/-- A middle step: both accumulators advance; the output block and the second low-rank factor are not touched. -/
theorem body1_mid (c : Dev nD) (i : grid1.Coords)
    (arg3 : Memref sig .tc .vmem S2048x256 .bf16) (harg3 : arg3.IsWhole) (arg4 : Memref sig .tc .vmem S512x256 .i32) (harg4 : arg4.IsWhole)
    (arg5 : Memref sig .tc .vmem S512x256 .bf16) (harg5 : arg5.IsWhole) (arg6 : Memref sig .tc .vmem S256x16 .f32) (harg6 : arg6.IsWhole)
    (arg7 : Memref sig .tc .vmem S16x512 .f32) (harg7 : arg7.IsWhole) (arg8 : Memref sig .tc .vmem S2048x512 .f32) (harg8 : arg8.IsWhole)
    (arg9 : Memref sig .tc .vmem S2048x512 .f32) (harg9 : arg9.IsWhole) (arg10 : Memref sig .tc .vmem S2048x16 .f32) (harg10 : arg10.IsWhole)
    (hf : ¬isFirst1 i) (hl : ¬isLast1 i)
    (x0 : Vec F S2048x256 .bf16) (x1 : Vec F S512x256 .i32) (x2 : Vec F S512x256 .bf16) (x3 : Vec F S256x16 .f32)
    (a : Vec F S2048x512 .f32) (l : Vec F S2048x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep1 x0 x1 x2 a)
            ∗ owns (c : Thread nD τ) arg10 fullShare (lowStep1 x0 x3 l)) -∗ K ⟨⟩))
      ⊢ wp frame (wpE (defs₀ (F := F)) Variants.none c none) Set.univ
          (cc1__down_kernel i arg3 harg3 arg4 harg4 arg5 harg5 arg6 harg6 arg7 harg7 arg8 harg8 arg9 harg9 arg10 harg10) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S2048x256) hz2, View.ld_unit_zero (S := S512x256) hz2, View.ld_unit_zero (S := S256x16) hz2,
    View.ld_unit_zero (S := S16x512) hz2, View.ld_unit_zero (S := S2048x512) hz2, View.ld_unit_zero (S := S2048x16) hz2,
    View.readCov_unit_zero (S := S2048x512) _ hz2, View.readCov_unit_zero (S := S2048x16) _ hz2]
  rfl

set_option maxHeartbeats 4000000 in
/-- The first step of a block: the accumulators, whatever they held, restart from zero and take the first products. -/
theorem body1_first (c : Dev nD) (i : grid1.Coords)
    (arg3 : Memref sig .tc .vmem S2048x256 .bf16) (harg3 : arg3.IsWhole) (arg4 : Memref sig .tc .vmem S512x256 .i32) (harg4 : arg4.IsWhole)
    (arg5 : Memref sig .tc .vmem S512x256 .bf16) (harg5 : arg5.IsWhole) (arg6 : Memref sig .tc .vmem S256x16 .f32) (harg6 : arg6.IsWhole)
    (arg7 : Memref sig .tc .vmem S16x512 .f32) (harg7 : arg7.IsWhole) (arg8 : Memref sig .tc .vmem S2048x512 .f32) (harg8 : arg8.IsWhole)
    (arg9 : Memref sig .tc .vmem S2048x512 .f32) (harg9 : arg9.IsWhole) (arg10 : Memref sig .tc .vmem S2048x16 .f32) (harg10 : arg10.IsWhole)
    (hf : isFirst1 i) (hl : ¬isLast1 i)
    (x0 : Vec F S2048x256 .bf16) (x1 : Vec F S512x256 .i32) (x2 : Vec F S512x256 .bf16) (x3 : Vec F S256x16 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep1 x0 x1 x2 k1_pay4)
            ∗ owns (c : Thread nD τ) arg10 fullShare (lowStep1 x0 x3 k1_pay5)) -∗ K ⟨⟩))
      ⊢ wp frame (wpE (defs₀ (F := F)) Variants.none c none) Set.univ
          (cc1__down_kernel i arg3 harg3 arg4 harg4 arg5 harg5 arg6 harg6 arg7 harg7 arg8 harg8 arg9 harg9 arg10 harg10) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S2048x256) hz2, View.ld_unit_zero (S := S512x256) hz2, View.ld_unit_zero (S := S256x16) hz2,
    View.ld_unit_zero (S := S16x512) hz2, View.ld_unit_zero (S := S2048x512) hz2, View.ld_unit_zero (S := S2048x16) hz2,
    View.readCov_unit_zero (S := S2048x512) _ hz2, View.readCov_unit_zero (S := S2048x16) _ hz2]
  rfl

set_option maxHeartbeats 4000000 in
/-- The last step of a block: both accumulators advance once more, and the finished block is stored. -/
theorem body1_last (c : Dev nD) (i : grid1.Coords)
    (arg3 : Memref sig .tc .vmem S2048x256 .bf16) (harg3 : arg3.IsWhole) (arg4 : Memref sig .tc .vmem S512x256 .i32) (harg4 : arg4.IsWhole)
    (arg5 : Memref sig .tc .vmem S512x256 .bf16) (harg5 : arg5.IsWhole) (arg6 : Memref sig .tc .vmem S256x16 .f32) (harg6 : arg6.IsWhole)
    (arg7 : Memref sig .tc .vmem S16x512 .f32) (harg7 : arg7.IsWhole) (arg8 : Memref sig .tc .vmem S2048x512 .f32) (harg8 : arg8.IsWhole)
    (arg9 : Memref sig .tc .vmem S2048x512 .f32) (harg9 : arg9.IsWhole) (arg10 : Memref sig .tc .vmem S2048x16 .f32) (harg10 : arg10.IsWhole)
    (hf : ¬isFirst1 i) (hl : isLast1 i)
    (x0 : Vec F S2048x256 .bf16) (x1 : Vec F S512x256 .i32) (x2 : Vec F S512x256 .bf16) (x3 : Vec F S256x16 .f32)
    (x4 : Vec F S16x512 .f32) (a : Vec F S2048x512 .f32) (l : Vec F S2048x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (finish1 x4 (lowStep1 x0 x3 l) (accStep1 x0 x1 x2 a))
            ∗ owns (c : Thread nD τ) arg9 fullShare (accStep1 x0 x1 x2 a)
            ∗ owns (c : Thread nD τ) arg10 fullShare (lowStep1 x0 x3 l)) -∗ K ⟨⟩))
      ⊢ wp frame (wpE (defs₀ (F := F)) Variants.none c none) Set.univ
          (cc1__down_kernel i arg3 harg3 arg4 harg4 arg5 harg5 arg6 harg6 arg7 harg7 arg8 harg8 arg9 harg9 arg10 harg10) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf7; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  isplitl [H8]
  · iexists _; isplitr
    swap; · iexact H8
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S2048x256) hz2, View.ld_unit_zero (S := S512x256) hz2, View.ld_unit_zero (S := S256x16) hz2,
    View.ld_unit_zero (S := S16x512) hz2, View.ld_unit_zero (S := S2048x512) hz2, View.ld_unit_zero (S := S2048x16) hz2,
    View.readCov_unit_zero (S := S2048x512) _ hz2, View.readCov_unit_zero (S := S2048x16) _ hz2]
  rfl

end Cert.Kernel.Hand

end
-- ==== Proof.K.Region1.lean ====
/-
  The down projection's region, point by point.

  The grid runs over (token block i, output block j, contraction step k), k fastest: point t has k = t mod 43. The
  tokens of this projection are the rows of the hidden array, the activated up projection. At a point the pipeline hands
  the body the blocks of the five input arrays; `scr1 n` is what the two accumulators hold after point n — started from
  zero where n mod 43 = 0, otherwise one step on from point n − 1 — and `fin1 t` the block the last step of a group
  finishes from them. The region's invariant carries the two accumulator buffers at `scr1` from point to point; the
  output window is written only by last steps and left alone, and not written back, elsewhere.
-/
import proofs.«402316_j82248623718485_1_alg».proof.Proof.K.Body1
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered: every statement below is at this parameter
variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at their literal types: tokens (rows of the hidden array), codes, scales, first and second
    low-rank factor. -/
abbrev tok1 (c : Dev nD) (t : Fin cfg1.N) : Vec F S2048x256 .bf16 := iblk1 V c 0 t
abbrev cod1 (c : Dev nD) (t : Fin cfg1.N) : Vec F S512x256 .i32 := iblk1 V c 1 t
abbrev scl1 (c : Dev nD) (t : Fin cfg1.N) : Vec F S512x256 .bf16 := iblk1 V c 2 t
abbrev lra1 (c : Dev nD) (t : Fin cfg1.N) : Vec F S256x16 .f32 := iblk1 V c 3 t
abbrev lrb1 (c : Dev nD) (t : Fin cfg1.N) : Vec F S16x512 .f32 := iblk1 V c 4 t

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- One step on the pair of accumulators, with the blocks of point `t`. -/
def step1 (c : Dev nD) (t : Fin cfg1.N) (s : Vec F S2048x512 .f32 × Vec F S2048x16 .f32) : Vec F S2048x512 .f32 × Vec F S2048x16 .f32 :=
  (accStep1 (tok1 V c t) (cod1 V c t) (scl1 V c t) s.1, lowStep1 (tok1 V c t) (lra1 V c t) s.2)

/-- What the two accumulators hold after point `n`. -/
def scr1 (c : Dev nD) : (n : ℕ) → n < cfg1.N → Vec F S2048x512 .f32 × Vec F S2048x16 .f32
  | 0, h => step1 V c ⟨0, h⟩ (k1_pay4, k1_pay5)
  | n + 1, h => step1 V c ⟨n + 1, h⟩ (if (n + 1) % 43 = 0 then (k1_pay4, k1_pay5) else scr1 c n (Nat.lt_of_succ_lt h))

theorem scr1_first (c : Dev nD) (t : Fin cfg1.N) (h : t.val % 43 = 0) :
    scr1 V c t.val t.isLt = step1 V c t (k1_pay4, k1_pay5) := by
  obtain ⟨n, hn⟩ := t
  cases n with
  | zero => rfl
  | succ n => show step1 V c _ (if (n + 1) % 43 = 0 then _ else _) = _; rw [if_pos h]

theorem scr1_next (c : Dev nD) (t : Fin cfg1.N) (h : ¬t.val % 43 = 0) :
    scr1 V c t.val t.isLt = step1 V c t (scr1 V c (t.val - 1) (Nat.lt_of_le_of_lt (Nat.sub_le _ _) t.isLt)) := by
  obtain ⟨n, hn⟩ := t
  cases n with
  | zero => exact absurd (Nat.zero_mod _) h
  | succ n => show step1 V c _ (if (n + 1) % 43 = 0 then _ else _) = _; rw [if_neg h]; rfl

/-- The block a last step finishes at point `t` (read only where t mod 43 = 42). -/
def fin1 (c : Dev nD) (t : Fin cfg1.N) : Vec F S2048x512 .f32 :=
  finish1 (lrb1 V c t) (scr1 V c t.val t.isLt).2 (scr1 V c t.val t.isLt).1

/-! ## The steps' conditions over the grid -/

theorem hfirst1 : ∀ t : Fin cfg1.N, isFirst1 (grid1.coords t) ↔ t.val % 43 = 0 :=
  (by decide +kernel : ∀ t : Fin grid1.N, isFirst1 (grid1.coords t) ↔ t.val % 43 = 0)
theorem hlast1 : ∀ t : Fin cfg1.N, isLast1 (grid1.coords t) ↔ t.val % 43 = 42 :=
  (by decide +kernel : ∀ t : Fin grid1.N, isLast1 (grid1.coords t) ↔ t.val % 43 = 42)

/-- The output window is idle exactly where the step is not the last. -/
theorem idle1_5 (t : Fin cfg1.N) (h : ¬isLast1 (grid1.coords t)) : cfg1.idle 5 (grid1.coords t) = true := by
  show (!(k1_cond2 (grid1.coords t) == 1#1)) = true
  rw [beq_eq_false_iff_ne.mpr h]; rfl
theorem live1_5 (t : Fin cfg1.N) (h : isLast1 (grid1.coords t)) : cfg1.idle 5 (grid1.coords t) = false := by
  show (!(k1_cond2 (grid1.coords t) == 1#1)) = false
  rw [beq_iff_eq.mpr h]; rfl
theorem noFlush1_5 (t : Fin cfg1.N) (h : ¬t.val % 43 = 42) : (cfg1.win 5).flush t = false := by
  cases hf : (cfg1.win 5).flush t with
  | false => rfl
  | true => exact absurd ((flush1_5 t).mp hf) h

/-! ## The staging and scratch memrefs -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
/-- The main and the low-rank accumulator: whole scoped buffers of the kernel's own. -/
abbrev scA1 : Memref sig .tc .vmem S2048x512 .f32 := Memref.whole cc1_scratch0
abbrev scL1 : Memref sig .tc .vmem S2048x16 .f32 := Memref.whole cc1_scratch1

/-- The scoped buffers this region neither stages nor uses, each at some contents, and after them `P` — the place of this
    kernel's two accumulators, which come last among the core's scoped buffers. -/
def scopedWith1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- The class invariant with the two accumulators as memrefs owned at some contents. -/
theorem PhiA1_eq (c : Dev nD) :
    (Pipeline.ΦA spec1 c : sProp 𝕄)
      = iprop(scopedWith1 c iprop((∃ d, owns (c : Thread nD τ) scA1 fullShare d) ∗ (∃ d, owns (c : Thread nD τ) scL1 fullShare d)) ∗ (∃ r, prngReg c r)) := by
  unfold Pipeline.ΦA scopedWith1; rw [scopedRest1_eq]; simp only [scA1, scL1, owns_whole]; try rfl

/-- The region's invariant before point `n`: before the first point the class's; afterwards the two accumulators at what
    the point before left, the other scoped buffers at anything, the generator register at some state. -/
def PhiS1 (c : Dev nD) : (n : ℕ) → n ≤ cfg1.N → sProp 𝕄
  | 0, _ => Pipeline.ΦA spec1 c
  | n + 1, hn => iprop(scopedWith1 c iprop(owns (c : Thread nD τ) scA1 fullShare (scr1 V c n hn).1 ∗ owns (c : Thread nD τ) scL1 fullShare (scr1 V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith1 c iprop(owns (c : Thread nD τ) scA1 fullShare (scr1 V c n hn).1 ∗ owns (c : Thread nD τ) scL1 fullShare (scr1 V c n hn).2) ∗ (∃ r, prngReg c r)) := rfl
theorem PhiS1_pos (c : Dev nD) (n : ℕ) (h : n ≤ cfg1.N) (hz : n ≠ 0) :
    PhiS1 V c n h = iprop(scopedWith1 c iprop(owns (c : Thread nD τ) scA1 fullShare (scr1 V c (n - 1) (by omega)).1 ∗ owns (c : Thread nD τ) scL1 fullShare (scr1 V c (n - 1) (by omega)).2) ∗ (∃ r, prngReg c r)) := by
  cases n with
  | zero => exact absurd rfl hz
  | succ n => rfl

/-! ## The proof data -/

/-- The pipeline's proof data on core `c`: the arrays as the region finds them; after the body each input's buffer at
    its block and the output's at `fin1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => fin1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = fin1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem leaves1_0 (c : Dev nD) (t : Fin cfg1.N) :
    (dat1 V c).leavesExact 0 t = owns (c : Thread nD τ) (ms1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact; rw [show cfg1.idle 4 (grid1.coords t) = false from rfl, after1_4]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' buffers hold their blocks; t mod 43 says whether the step is the first, a middle or
    the last of its group; the invariant hands the step the two accumulators at what the point before left (at anything
    before the first point: a first step resets them) and takes them back one step on; the output window is stored by a
    last step and passes through untouched otherwise; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  by_cases h0 : t.val % 43 = 0
  · have h42 : ¬t.val % 43 = 42 := by omega
    have hf : isFirst1 (grid1.coords t) := (hfirst1 t).mpr h0
    have hl : ¬isLast1 (grid1.coords t) := fun h => h42 ((hlast1 t).mp h)
    rw [Dat.leavesExact_idle (dat1 V c) 5 t (idle1_5 t hl) (noFlush1_5 t h42)]
    rw [scr1_first V c t h0]; dsimp only [step1]
    by_cases hz : t.val = 0
    · rw [PhiS1_castSucc V c t, PhiS1_zero V c _ _ hz, PhiA1_eq]
      unfold scopedWith1
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_first c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS1_castSucc V c t, PhiS1_pos V c _ _ hz]
      unfold scopedWith1
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_first c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) _)
      isplitl [H0]; · iexact H0
      isplitl [H1]; · iexact H1
      isplitl [H2]; · iexact H2
      isplitl [H3]; · iexact H3
      isplitl [HA]; · iexists _; iexact HA
      isplitl [HL]; · iexists _; iexact HL
      iintro ⟨H0, H1, H2, H3, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    have hf : ¬isFirst1 (grid1.coords t) := fun h => h0 ((hfirst1 t).mp h)
    rw [scr1_next V c t h0]; dsimp only [step1]
    rw [PhiS1_castSucc V c t, PhiS1_pos V c _ _ hz]
    unfold scopedWith1
    by_cases h42 : t.val % 43 = 42
    · have hl : isLast1 (grid1.coords t) := (hlast1 t).mpr h42
      rw [show (dat1 V c).leavesExact 5 t = owns (c : Thread nD τ) (ms1_5 t) fullShare ((dat1 V c).after 5 t) from by
        unfold Dat.leavesExact; rw [live1_5 t hl], after1_5]
      unfold fin1; rw [scr1_next V c t h0]; dsimp only [step1]
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_last c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) (lrb1 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HL]; · iexact HL
      iintro ⟨H0, H1, H2, H3, H4, H5, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast1 (grid1.coords t) := fun h => h42 ((hlast1 t).mp h)
      rw [Dat.leavesExact_idle (dat1 V c) 5 t (idle1_5 t hl) (noFlush1_5 t h42)]
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_mid c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) _ _ _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scopedWith1
  iintro ⟨⟨R0, R1, R2, R3, R4, R5, R6, R7, R8, R9, R10, R11, R12, R13, HA, HL⟩, Hg⟩
  isplitl [R0 R1 R2 R3 R4 R5 R6 R7 R8 R9 R10 R11 R12 R13 HA HL]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HA]; · iexists _; iexact HA
    iexists _; iexact HL
  iexact Hg

theorem hout1 (c : Dev nD) : (dat1 V c).Φ (Fin.last cfg1.N) ⊢ Pipeline.ΦA spec1 c :=
  Phi_out1 V c _ (by rw [Fin.val_last]; have : cfg1.N = 1376 := N_1; omega)

end Region1

end Cert.Kernel.Hand

end
-- ==== Proof.K.Run.lean ====
/-
  The whole program's run: eight host operations that spread each weight's scales over its entries, then the up
  projection's region, then the down projection's region.

  `W0` … `W3` are the contents of every buffer that outlives a region at the four boundaries: as launched; after the host
  operations; after the first region, whose output array holds what its pipeline leaves and everything else is unchanged;
  after the second region likewise. No item writes an argument array, so each argument is read back through the four to
  its launch contents; the result array is the second pipeline's output window at its final contents.
-/
import proofs.«402316_j82248623718485_1_alg».proof.Proof.K.Region0
import proofs.«402316_j82248623718485_1_alg».proof.Proof.K.Region1
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the host operations. -/
abbrev W1 : Dev nD → Valuation τ sig (Elt F) := fun c => StableHlo.after hostOps0 (W0 m c)
/-- The same read at the TensorCore's references: what the first region's proof data take. -/
abbrev Vr1 : (c : Dev nD) → (b : Ref sig .tc) → Buf (Elt F) ((c : Thread nD τ).loc b) := fun c b => W1 m c b

theorem hostOps0_fresh : (hostOps0 : List (HloOp τ sig (Elt F))).Forall fun op => op.fresh = ∅ := by
  simp only [List.Forall]; repeat' constructor
/-- The references the host operations write. -/
abbrev hostW : List (Ref sig .tc) := [main_v0, main_v1, main_v2, main_v3, main_v4, main_v5, main_v6, main_v7]
theorem hostOps0_writes : (hostOps0 : List (HloOp τ sig (Elt F))).Forall fun op => op.writes ⊆ (hostW.map (Proc.devRef (τ := τ) .tc)).toFinset := by
  simp only [List.Forall]
  refine ⟨?_, ?_, ?_, ?_, ?_, ?_, ?_, ?_⟩ <;>
    (simp only [StableHlo.unary_writes, StableHlo.reshape_writes, Finset.singleton_subset_iff, List.mem_toFinset]
     exact List.mem_map_of_mem (by decide))
/-- A buffer the host operations do not write holds its launch contents after them. -/
theorem W1_of (c : Dev nD) (r : Ref sig .tc) (h : r ∉ hostW) : W1 m c (Proc.devRef .tc r) = W0 m c (Proc.devRef .tc r) :=
  StableHlo.after_of_writes_sub hostOps0 _ hostOps0_writes h

/-- After the first region. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the second region. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (Vr1 m) c).arrAt_in 0 rfl _).trans (A_eq0 (Vr1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (Vr1 m) c).arrAt_in 1 rfl _).trans (A_eq0 (Vr1 m) c 1))
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 3).trans (((dat0 (Vr1 m) c).arrAt_in 3 rfl _).trans (A_eq0 (Vr1 m) c 3))
    _ = W0 m c (Proc.devRef .tc main_arg3) := W1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (Vr1 m) c).arrAt_in 4 rfl _).trans (A_eq0 (Vr1 m) c 4))
    _ = W0 m c (Proc.devRef .tc main_arg4) := W1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 1).trans (((dat1 (Vr2 m) c).arrAt_in 1 rfl _).trans (A_eq1 (Vr2 m) c 1))
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 3).trans (((dat1 (Vr2 m) c).arrAt_in 3 rfl _).trans (A_eq1 (Vr2 m) c 3))
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 4).trans (((dat1 (Vr2 m) c).arrAt_in 4 rfl _).trans (A_eq1 (Vr2 m) c 4))
    _ = W1 m c (Proc.devRef .tc main_arg8) := W2_of_ne m c main_arg8 (by decide)
    _ = W0 m c (Proc.devRef .tc main_arg8) := W1_of m c main_arg8 (by decide)
    _ = m ((c : Thread nD τ).loc main_arg8) := rfl

/-- The result array ends at what the second pipeline leaves in its output window. -/
theorem W3_main_v9 (c : Dev nD) : W3 m c (Proc.devRef .tc main_v9) = (dat1 (Vr2 m) c).arrAt 5 cfg1.N := W3_arr m c 5
/-- The second region's token array is what the first pipeline left in its output window. -/
theorem W2_main_v8 (c : Dev nD) : W2 m c (Proc.devRef .tc main_v8) = (dat0 (Vr1 m) c).arrAt 5 cfg0.N := W2_arr m c 5
/-- The second region finds every buffer the first did not write as the host operations left it. -/
theorem W2_of_not_v8 (c : Dev nD) (b : Ref sig .tc) (hb : ∀ w, Pipeline.arrRef spec0 w ≠ b) :
    Vr2 m c b = Vr1 m c b := W2_of_ne m c b hb

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`. Its arrays are split
    out of the unscoped buffers and put back at the contents the pipeline leaves; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vr1 m) c).Φ 0 from rfl]
    have h := hin0 (Vr1 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (Vr1 m) c).Φ (Fin.last cfg0.N) from rfl]
    have h := hout0 (Vr1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the contents the pipeline leaves; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr2 m) c).Φ 0 from rfl]
    have h := hin1 (Vr2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (Vr2 m) c).Φ (Fin.last cfg1.N) from rfl]
    have h := hout1 (Vr2 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg m), .region (reg0 m), .region (reg1 m) ]

theorem main_run (c : Dev nD) : main (F := F) c = Pipeline.Seg.run (segs m) :=
  main_segs adm (pdats m) () 𝒱₀ L lv (hseg m) (reg0 m) (reg1 m) rfl c

set_option backward.isDefEq.respectTransparency.types false in
/-- From any memory with zero counters every weakly fair execution of the program terminates, nothing faulting, and every
    buffer that outlives the regions ends at `W3`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the program runs to the end, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩)
    (run_all m ρ)

end Cert.Kernel.Hand

end
-- ==== Proof.KI.Body0.lean ====
/-
  One grid point of the up projection's kernel, as a step on its two accumulators.

  The kernel walks the contraction axis in four steps per output block. Every step adds, to the main accumulator
  (1024 × 256), the product of the step's block of tokens with the dequantized block of the weight (each code's table
  value times its scale), and to the low-rank accumulator (1024 × 16) the product of the tokens with the block of the
  first low-rank factor; the first step starts both from zero; the last step multiplies the low-rank accumulator with
  the second factor, adds it to the main accumulator, applies y · logistic y and stores the finished block.
  `accStep0`, `lowStep0`, `finish0` are those three maps as functions of the blocks; the three theorems say the body,
  run on whole staging buffers holding the blocks, leaves exactly them — in the first, a middle and the last step.
-/
import proofs.«402316_j82248623718485_1_alg».proof.Proof.Gen.KernelIdeal.Launch
import proofs.«402316_j82248623718485_1_alg».proof.Proof.Gen.KernelIdeal.Skeleton
import proofs.«402316_j82248623718485_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The zero offsets of a whole rank-2 rectangle. -/
theorem hz2 : (![0, 0] : Fin 2 → ℕ) = fun _ => 0 := by funext a; fin_cases a <;> rfl

section WholeBlock
variable {Val : EltTy → Type} [∀ e, Nonempty (Val e)] {κ : Kind} {sp : Space} {S : Shape} {e : EltTy}

/-- A buffer read back after a store of its whole block, made last, holds that store's payload, whatever was stored before. -/
theorem read_after_whole_store (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

end WholeBlock

/-- The reduction step is the first of its output block: the two accumulators are reset. -/
abbrev isFirst0 (i : grid0.Coords) : Prop :=
  (Scalar.cmpi .ne (Scalar.extui (Scalar.cmpi .eq (BitVec.ofNat 32 (i 2).val) 0#32)) 0#32) = 1#1
/-- The reduction step is the last of its output block: the block is finished and stored. -/
abbrev isLast0 (i : grid0.Coords) : Prop := k0_cond2 i = 1#1

/-- One reduction step of the main accumulator: the block of tokens times the dequantized block of the up weight, added. -/
def accStep0 (x0 : Vec F S1024x1024 .f32) (x1 : Vec F S256x1024 .i32) (x2 : Vec F S256x1024 .bf16)
    (a : Vec F S1024x256 .f32) : Vec F S1024x256 .f32 :=
  k0_pay1 (k0_pay9 (k0_pay6 x0) x1 (k0_pay7 x2) (k0_pay8 x1) 7#32) a
/-- One reduction step of the low-rank accumulator: the block of tokens times the block of the first factor, added. -/
def lowStep0 (x0 : Vec F S1024x1024 .f32) (x3 : Vec F S1024x16 .f32) (l : Vec F S1024x16 .f32) : Vec F S1024x16 .f32 :=
  k0_pay2 (k0_pay6 x0) x3 l
/-- The finished block: the accumulator plus the low-rank term, through the activation. -/
def finish0 (x4 : Vec F S16x256 .f32) (l : Vec F S1024x16 .f32) (a : Vec F S1024x256 .f32) : Vec F S1024x256 .bf16 :=
  k0_pay3 x4 l a

set_option maxHeartbeats 4000000 in
/-- A middle step: both accumulators advance; the output block and the second low-rank factor are not touched. -/
theorem body0_mid (c : Dev nD) (i : grid0.Coords)
    (arg3 : Memref sig .tc .vmem S1024x1024 .f32) (harg3 : arg3.IsWhole) (arg4 : Memref sig .tc .vmem S256x1024 .i32) (harg4 : arg4.IsWhole)
    (arg5 : Memref sig .tc .vmem S256x1024 .bf16) (harg5 : arg5.IsWhole) (arg6 : Memref sig .tc .vmem S1024x16 .f32) (harg6 : arg6.IsWhole)
    (arg7 : Memref sig .tc .vmem S16x256 .f32) (harg7 : arg7.IsWhole) (arg8 : Memref sig .tc .vmem S1024x256 .bf16) (harg8 : arg8.IsWhole)
    (arg9 : Memref sig .tc .vmem S1024x256 .f32) (harg9 : arg9.IsWhole) (arg10 : Memref sig .tc .vmem S1024x16 .f32) (harg10 : arg10.IsWhole)
    (hf : ¬isFirst0 i) (hl : ¬isLast0 i)
    (x0 : Vec F S1024x1024 .f32) (x1 : Vec F S256x1024 .i32) (x2 : Vec F S256x1024 .bf16) (x3 : Vec F S1024x16 .f32)
    (a : Vec F S1024x256 .f32) (l : Vec F S1024x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep0 x0 x1 x2 a)
            ∗ owns (c : Thread nD τ) arg10 fullShare (lowStep0 x0 x3 l)) -∗ K ⟨⟩))
      ⊢ wp frame (wpE (defs₀ (F := F)) Variants.none c none) Set.univ
          (cc0__up_kernel i arg3 harg3 arg4 harg4 arg5 harg5 arg6 harg6 arg7 harg7 arg8 harg8 arg9 harg9 arg10 harg10) K := by
  simp only [cc0__up_kernel_eq_skeleton]; unfold cc0__up_kernel_skel
  unfold owns
  iintro ⟨⟨%f0, %hf0, H0⟩, ⟨%f1, %hf1, H1⟩, ⟨%f2, %hf2, H2⟩, ⟨%f3, %hf3, H3⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S1024x1024) hz2, View.ld_unit_zero (S := S256x1024) hz2,
    View.ld_unit_zero (S := S1024x256) hz2, View.ld_unit_zero (S := S1024x16) hz2, View.ld_unit_zero (S := S16x256) hz2,
    View.readCov_unit_zero (S := S1024x256) _ hz2, View.readCov_unit_zero (S := S1024x16) _ hz2]
  rfl

set_option maxHeartbeats 4000000 in
/-- The first step of a block: the accumulators, whatever they held, restart from zero and take the first products. -/
theorem body0_first (c : Dev nD) (i : grid0.Coords)
    (arg3 : Memref sig .tc .vmem S1024x1024 .f32) (harg3 : arg3.IsWhole) (arg4 : Memref sig .tc .vmem S256x1024 .i32) (harg4 : arg4.IsWhole)
    (arg5 : Memref sig .tc .vmem S256x1024 .bf16) (harg5 : arg5.IsWhole) (arg6 : Memref sig .tc .vmem S1024x16 .f32) (harg6 : arg6.IsWhole)
    (arg7 : Memref sig .tc .vmem S16x256 .f32) (harg7 : arg7.IsWhole) (arg8 : Memref sig .tc .vmem S1024x256 .bf16) (harg8 : arg8.IsWhole)
    (arg9 : Memref sig .tc .vmem S1024x256 .f32) (harg9 : arg9.IsWhole) (arg10 : Memref sig .tc .vmem S1024x16 .f32) (harg10 : arg10.IsWhole)
    (hf : isFirst0 i) (hl : ¬isLast0 i)
    (x0 : Vec F S1024x1024 .f32) (x1 : Vec F S256x1024 .i32) (x2 : Vec F S256x1024 .bf16) (x3 : Vec F S1024x16 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep0 x0 x1 x2 k0_pay4)
            ∗ owns (c : Thread nD τ) arg10 fullShare (lowStep0 x0 x3 k0_pay5)) -∗ K ⟨⟩))
      ⊢ wp frame (wpE (defs₀ (F := F)) Variants.none c none) Set.univ
          (cc0__up_kernel i arg3 harg3 arg4 harg4 arg5 harg5 arg6 harg6 arg7 harg7 arg8 harg8 arg9 harg9 arg10 harg10) K := by
  simp only [cc0__up_kernel_eq_skeleton]; unfold cc0__up_kernel_skel
  unfold owns
  iintro ⟨⟨%f0, %hf0, H0⟩, ⟨%f1, %hf1, H1⟩, ⟨%f2, %hf2, H2⟩, ⟨%f3, %hf3, H3⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S1024x1024) hz2, View.ld_unit_zero (S := S256x1024) hz2,
    View.ld_unit_zero (S := S1024x256) hz2, View.ld_unit_zero (S := S1024x16) hz2, View.ld_unit_zero (S := S16x256) hz2,
    View.readCov_unit_zero (S := S1024x256) _ hz2, View.readCov_unit_zero (S := S1024x16) _ hz2]
  rfl

set_option maxHeartbeats 4000000 in
/-- The last step of a block: both accumulators advance once more, and the finished block is stored. -/
theorem body0_last (c : Dev nD) (i : grid0.Coords)
    (arg3 : Memref sig .tc .vmem S1024x1024 .f32) (harg3 : arg3.IsWhole) (arg4 : Memref sig .tc .vmem S256x1024 .i32) (harg4 : arg4.IsWhole)
    (arg5 : Memref sig .tc .vmem S256x1024 .bf16) (harg5 : arg5.IsWhole) (arg6 : Memref sig .tc .vmem S1024x16 .f32) (harg6 : arg6.IsWhole)
    (arg7 : Memref sig .tc .vmem S16x256 .f32) (harg7 : arg7.IsWhole) (arg8 : Memref sig .tc .vmem S1024x256 .bf16) (harg8 : arg8.IsWhole)
    (arg9 : Memref sig .tc .vmem S1024x256 .f32) (harg9 : arg9.IsWhole) (arg10 : Memref sig .tc .vmem S1024x16 .f32) (harg10 : arg10.IsWhole)
    (hf : ¬isFirst0 i) (hl : isLast0 i)
    (x0 : Vec F S1024x1024 .f32) (x1 : Vec F S256x1024 .i32) (x2 : Vec F S256x1024 .bf16) (x3 : Vec F S1024x16 .f32)
    (x4 : Vec F S16x256 .f32) (a : Vec F S1024x256 .f32) (l : Vec F S1024x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (finish0 x4 (lowStep0 x0 x3 l) (accStep0 x0 x1 x2 a))
            ∗ owns (c : Thread nD τ) arg9 fullShare (accStep0 x0 x1 x2 a)
            ∗ owns (c : Thread nD τ) arg10 fullShare (lowStep0 x0 x3 l)) -∗ K ⟨⟩))
      ⊢ wp frame (wpE (defs₀ (F := F)) Variants.none c none) Set.univ
          (cc0__up_kernel i arg3 harg3 arg4 harg4 arg5 harg5 arg6 harg6 arg7 harg7 arg8 harg8 arg9 harg9 arg10 harg10) K := by
  simp only [cc0__up_kernel_eq_skeleton]; unfold cc0__up_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf7; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  isplitl [H8]
  · iexists _; isplitr
    swap; · iexact H8
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S1024x1024) hz2, View.ld_unit_zero (S := S256x1024) hz2,
      View.ld_unit_zero (S := S1024x256) hz2, View.ld_unit_zero (S := S1024x16) hz2, View.ld_unit_zero (S := S16x256) hz2,
      View.readCov_unit_zero (S := S1024x256) _ hz2, View.readCov_unit_zero (S := S1024x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S1024x1024) hz2, View.ld_unit_zero (S := S256x1024) hz2,
    View.ld_unit_zero (S := S1024x256) hz2, View.ld_unit_zero (S := S1024x16) hz2, View.ld_unit_zero (S := S16x256) hz2,
    View.readCov_unit_zero (S := S1024x256) _ hz2, View.readCov_unit_zero (S := S1024x16) _ hz2]
  rfl

end Cert.KernelIdeal.Hand

end
-- ==== Proof.KI.Region0.lean ====
/-
  The up projection's region, point by point.

  The grid runs over (token block i, output block j, contraction step k), k fastest: point t has k = t mod 4. At a point
  the pipeline hands the body the blocks of the five input arrays; `scr0 n` is what the two accumulators hold after
  point n — started from zero where n mod 4 = 0, otherwise one step on from point n − 1 — and `fin0 t` the block the
  last step of a group finishes from them. The region's invariant carries the two accumulator buffers at `scr0` from
  point to point; the output window is written only by last steps and left alone, and not written back, elsewhere.
-/
import proofs.«402316_j82248623718485_1_alg».proof.Proof.KI.Body0
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered: every statement below is at this parameter
variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at their literal types: tokens, codes, scales, first and second low-rank factor. -/
abbrev tok0 (c : Dev nD) (t : Fin cfg0.N) : Vec F S1024x1024 .f32 := iblk0 V c 0 t
abbrev cod0 (c : Dev nD) (t : Fin cfg0.N) : Vec F S256x1024 .i32 := iblk0 V c 1 t
abbrev scl0 (c : Dev nD) (t : Fin cfg0.N) : Vec F S256x1024 .bf16 := iblk0 V c 2 t
abbrev lra0 (c : Dev nD) (t : Fin cfg0.N) : Vec F S1024x16 .f32 := iblk0 V c 3 t
abbrev lrb0 (c : Dev nD) (t : Fin cfg0.N) : Vec F S16x256 .f32 := iblk0 V c 4 t

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators after each point -/

/-- One step on the pair of accumulators, with the blocks of point `t`. -/
def step0 (c : Dev nD) (t : Fin cfg0.N) (s : Vec F S1024x256 .f32 × Vec F S1024x16 .f32) : Vec F S1024x256 .f32 × Vec F S1024x16 .f32 :=
  (accStep0 (tok0 V c t) (cod0 V c t) (scl0 V c t) s.1, lowStep0 (tok0 V c t) (lra0 V c t) s.2)

/-- What the two accumulators hold after point `n`. -/
def scr0 (c : Dev nD) : (n : ℕ) → n < cfg0.N → Vec F S1024x256 .f32 × Vec F S1024x16 .f32
  | 0, h => step0 V c ⟨0, h⟩ (k0_pay4, k0_pay5)
  | n + 1, h => step0 V c ⟨n + 1, h⟩ (if (n + 1) % 4 = 0 then (k0_pay4, k0_pay5) else scr0 c n (Nat.lt_of_succ_lt h))

theorem scr0_first (c : Dev nD) (t : Fin cfg0.N) (h : t.val % 4 = 0) :
    scr0 V c t.val t.isLt = step0 V c t (k0_pay4, k0_pay5) := by
  obtain ⟨n, hn⟩ := t
  cases n with
  | zero => rfl
  | succ n => show step0 V c _ (if (n + 1) % 4 = 0 then _ else _) = _; rw [if_pos h]

theorem scr0_next (c : Dev nD) (t : Fin cfg0.N) (h : ¬t.val % 4 = 0) :
    scr0 V c t.val t.isLt = step0 V c t (scr0 V c (t.val - 1) (Nat.lt_of_le_of_lt (Nat.sub_le _ _) t.isLt)) := by
  obtain ⟨n, hn⟩ := t
  cases n with
  | zero => exact absurd (Nat.zero_mod _) h
  | succ n => show step0 V c _ (if (n + 1) % 4 = 0 then _ else _) = _; rw [if_neg h]; rfl

/-- The block a last step finishes at point `t` (read only where t mod 4 = 3). -/
def fin0 (c : Dev nD) (t : Fin cfg0.N) : Vec F S1024x256 .bf16 :=
  finish0 (lrb0 V c t) (scr0 V c t.val t.isLt).2 (scr0 V c t.val t.isLt).1

/-! ## The steps' conditions over the grid -/

theorem hfirst0 : ∀ t : Fin cfg0.N, isFirst0 (grid0.coords t) ↔ t.val % 4 = 0 :=
  (by decide +kernel : ∀ t : Fin grid0.N, isFirst0 (grid0.coords t) ↔ t.val % 4 = 0)
theorem hlast0 : ∀ t : Fin cfg0.N, isLast0 (grid0.coords t) ↔ t.val % 4 = 3 :=
  (by decide +kernel : ∀ t : Fin grid0.N, isLast0 (grid0.coords t) ↔ t.val % 4 = 3)

/-- The output window is idle exactly where the step is not the last. -/
theorem idle0_5 (t : Fin cfg0.N) (h : ¬isLast0 (grid0.coords t)) : cfg0.idle 5 (grid0.coords t) = true := by
  show (!(k0_cond2 (grid0.coords t) == 1#1)) = true
  rw [beq_eq_false_iff_ne.mpr h]; rfl
theorem live0_5 (t : Fin cfg0.N) (h : isLast0 (grid0.coords t)) : cfg0.idle 5 (grid0.coords t) = false := by
  show (!(k0_cond2 (grid0.coords t) == 1#1)) = false
  rw [beq_iff_eq.mpr h]; rfl
theorem noFlush0_5 (t : Fin cfg0.N) (h : ¬t.val % 4 = 3) : (cfg0.win 5).flush t = false := by
  cases hf : (cfg0.win 5).flush t with
  | false => rfl
  | true => exact absurd ((flush0_5 t).mp hf) h

/-! ## The staging and scratch memrefs -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
/-- The main and the low-rank accumulator: whole scoped buffers of the kernel's own. -/
abbrev scA0 : Memref sig .tc .vmem S1024x256 .f32 := Memref.whole cc0_scratch0
abbrev scL0 : Memref sig .tc .vmem S1024x16 .f32 := Memref.whole cc0_scratch1

/-- The scoped buffers this region neither stages nor uses, each at some contents. -/
def idleScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two accumulators as memrefs owned at some contents. -/
theorem PhiA0_eq (c : Dev nD) :
    (Pipeline.ΦA spec0 c : sProp 𝕄)
      = iprop(iprop((∃ d, owns (c : Thread nD τ) scA0 fullShare d) ∗ (∃ d, owns (c : Thread nD τ) scL0 fullShare d) ∗ idleScoped0 c) ∗ (∃ r, prngReg c r)) := by
  unfold Pipeline.ΦA idleScoped0; rw [scopedRest0_eq]; simp only [scA0, scL0, owns_whole]; try rfl

/-- The region's invariant before point `n`: before the first point the class's; afterwards the two accumulators at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scA0 fullShare (scr0 V c n hn).1 ∗ owns (c : Thread nD τ) scL0 fullShare (scr0 V c n hn).2 ∗ idleScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scA0 fullShare (scr0 V c n hn).1 ∗ owns (c : Thread nD τ) scL0 fullShare (scr0 V c n hn).2 ∗ idleScoped0 c) ∗ (∃ r, prngReg c r)) := rfl
theorem PhiS0_pos (c : Dev nD) (n : ℕ) (h : n ≤ cfg0.N) (hz : n ≠ 0) :
    PhiS0 V c n h = iprop(iprop(owns (c : Thread nD τ) scA0 fullShare (scr0 V c (n - 1) (by omega)).1 ∗ owns (c : Thread nD τ) scL0 fullShare (scr0 V c (n - 1) (by omega)).2 ∗ idleScoped0 c) ∗ (∃ r, prngReg c r)) := by
  cases n with
  | zero => exact absurd rfl hz
  | succ n => rfl

/-! ## The proof data -/

/-- The pipeline's proof data on core `c`: the arrays as the region finds them; after the body each input's buffer at
    its block and the output's at `fin0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => fin0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = fin0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem leaves0_0 (c : Dev nD) (t : Fin cfg0.N) :
    (dat0 V c).leavesExact 0 t = owns (c : Thread nD τ) (ms0_0 t) fullShare (iblk0 V c 0 t) := by
  unfold Dat.leavesExact; rw [show cfg0.idle 0 (grid0.coords t) = false from rfl, after0_0]
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (grid0.coords t) = false from rfl, after0_1]
theorem leaves0_2 (c : Dev nD) (t : Fin cfg0.N) :
    (dat0 V c).leavesExact 2 t = owns (c : Thread nD τ) (ms0_2 t) fullShare (iblk0 V c 2 t) := by
  unfold Dat.leavesExact; rw [show cfg0.idle 2 (grid0.coords t) = false from rfl, after0_2]
theorem leaves0_3 (c : Dev nD) (t : Fin cfg0.N) :
    (dat0 V c).leavesExact 3 t = owns (c : Thread nD τ) (ms0_3 t) fullShare (iblk0 V c 3 t) := by
  unfold Dat.leavesExact; rw [show cfg0.idle 3 (grid0.coords t) = false from rfl, after0_3]
theorem leaves0_4 (c : Dev nD) (t : Fin cfg0.N) :
    (dat0 V c).leavesExact 4 t = owns (c : Thread nD τ) (ms0_4 t) fullShare (iblk0 V c 4 t) := by
  unfold Dat.leavesExact; rw [show cfg0.idle 4 (grid0.coords t) = false from rfl, after0_4]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' buffers hold their blocks; t mod 4 says whether the step is the first, a middle or
    the last of its group; the invariant hands the step the two accumulators at what the point before left (at anything
    before the first point: a first step resets them) and takes them back one step on; the output window is stored by a
    last step and passes through untouched otherwise; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  by_cases h0 : t.val % 4 = 0
  · have h3 : ¬t.val % 4 = 3 := by omega
    have hf : isFirst0 (grid0.coords t) := (hfirst0 t).mpr h0
    have hl : ¬isLast0 (grid0.coords t) := fun h => h3 ((hlast0 t).mp h)
    rw [Dat.leavesExact_idle (dat0 V c) 5 t (idle0_5 t hl) (noFlush0_5 t h3)]
    rw [scr0_first V c t h0]; dsimp only [step0]
    by_cases hz : t.val = 0
    · rw [PhiS0_castSucc V c t, PhiS0_zero V c _ _ hz, PhiA0_eq]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_first c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS0_castSucc V c t, PhiS0_pos V c _ _ hz]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_first c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) _)
      isplitl [H0]; · iexact H0
      isplitl [H1]; · iexact H1
      isplitl [H2]; · iexact H2
      isplitl [H3]; · iexact H3
      isplitl [HA]; · iexists _; iexact HA
      isplitl [HL]; · iexists _; iexact HL
      iintro ⟨H0, H1, H2, H3, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    have hf : ¬isFirst0 (grid0.coords t) := fun h => h0 ((hfirst0 t).mp h)
    rw [scr0_next V c t h0]; dsimp only [step0]
    rw [PhiS0_castSucc V c t, PhiS0_pos V c _ _ hz]
    by_cases h3 : t.val % 4 = 3
    · have hl : isLast0 (grid0.coords t) := (hlast0 t).mpr h3
      rw [show (dat0 V c).leavesExact 5 t = owns (c : Thread nD τ) (ms0_5 t) fullShare ((dat0 V c).after 5 t) from by
        unfold Dat.leavesExact; rw [live0_5 t hl], after0_5]
      unfold fin0; rw [scr0_next V c t h0]; dsimp only [step0]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_last c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) (lrb0 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HL]; · iexact HL
      iintro ⟨H0, H1, H2, H3, H4, H5, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast0 (grid0.coords t) := fun h => h3 ((hlast0 t).mp h)
      rw [Dat.leavesExact_idle (dat0 V c) 5 t (idle0_5 t hl) (noFlush0_5 t h3)]
      iintro ⟨⟨⟨HA, HL, HR⟩, Hg⟩, Ho, ⟨%d0, H0⟩, ⟨%d1, H1⟩, ⟨%d2, H2⟩, ⟨%d3, H3⟩, ⟨%d4, H4⟩, ⟨%d5, H5⟩⟩
      iapply (body0_mid c (grid0.coords t) _ (hs0_0 t) _ (hs0_1 t) _ (hs0_2 t) _ (hs0_3 t) _ (hs0_4 t) _ (hs0_5 t) _ (Memref.isWhole_whole _) _ (Memref.isWhole_whole _) hf hl (tok0 V c t) (cod0 V c t) (scl0 V c t) (lra0 V c t) _ _ _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [HA HL HR Hg]
      · isplitl [HA HL HR]
        · isplitl [HA]; · iexact HA
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HA, HL, HR⟩, Hg⟩
  isplitl [HA HL HR]
  · isplitl [HA]; · iexists _; iexact HA
    isplitl [HL]; · iexists _; iexact HL
    iexact HR
  iexact Hg

theorem hout0 (c : Dev nD) : (dat0 V c).Φ (Fin.last cfg0.N) ⊢ Pipeline.ΦA spec0 c :=
  Phi_out0 V c _ (by rw [Fin.val_last]; have : cfg0.N = 1376 := N_0; omega)

end Region0

end Cert.KernelIdeal.Hand

end
-- ==== Proof.KI.Body1.lean ====
/-
  One grid point of the down projection's kernel, as a step on its two accumulators.

  The kernel walks the contraction axis in forty-three steps per output block. Every step adds, to the main
  accumulator (2048 × 512), the product of the step's block of activations (already in the short float format, taken
  as they are) with the dequantized block of the down weight (each code's table value times its scale), and to the
  low-rank accumulator (2048 × 16) the product of the activations with the block of the first low-rank factor; the
  first step starts both from zero; the last step multiplies the low-rank accumulator with the second factor, adds it
  to the main accumulator and stores the sum as the finished block — no activation function follows this projection.
  `accStep1`, `lowStep1`, `finish1` are those three maps as functions of the blocks; the three theorems say the body,
  run on whole staging buffers holding the blocks, leaves exactly them — in the first, a middle and the last step.
-/
import proofs.«402316_j82248623718485_1_alg».proof.Proof.Gen.KernelIdeal.Launch
import proofs.«402316_j82248623718485_1_alg».proof.Proof.Gen.KernelIdeal.Skeleton
import proofs.«402316_j82248623718485_1_alg».proof.Proof.Gen.KernelIdeal.Points
import proofs.«402316_j82248623718485_1_alg».proof.Proof.KI.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first of its output block: the two accumulators are reset. -/
abbrev isFirst1 (i : grid1.Coords) : Prop :=
  (Scalar.cmpi .ne (Scalar.extui (Scalar.cmpi .eq (BitVec.ofNat 32 (i 2).val) 0#32)) 0#32) = 1#1
/-- The reduction step is the last of its output block: the block is finished and stored. -/
abbrev isLast1 (i : grid1.Coords) : Prop := k1_cond2 i = 1#1

/-- One reduction step of the main accumulator: the block of activations times the dequantized block of the down weight, added. -/
def accStep1 (x0 : Vec F S2048x256 .bf16) (x1 : Vec F S512x256 .i32) (x2 : Vec F S512x256 .bf16)
    (a : Vec F S2048x512 .f32) : Vec F S2048x512 .f32 :=
  k1_pay1 (k1_pay9 (k1_pay6 x0) x1 (k1_pay7 x2) (k1_pay8 x1) 7#32) a
/-- One reduction step of the low-rank accumulator: the block of activations times the block of the first factor, added. -/
def lowStep1 (x0 : Vec F S2048x256 .bf16) (x3 : Vec F S256x16 .f32) (l : Vec F S2048x16 .f32) : Vec F S2048x16 .f32 :=
  k1_pay2 (k1_pay6 x0) x3 l
/-- The finished block: the accumulator plus the low-rank term. -/
def finish1 (x4 : Vec F S16x512 .f32) (l : Vec F S2048x16 .f32) (a : Vec F S2048x512 .f32) : Vec F S2048x512 .f32 :=
  k1_pay3 x4 l a

set_option maxHeartbeats 4000000 in
/-- A middle step: both accumulators advance; the output block and the second low-rank factor are not touched. -/
theorem body1_mid (c : Dev nD) (i : grid1.Coords)
    (arg3 : Memref sig .tc .vmem S2048x256 .bf16) (harg3 : arg3.IsWhole) (arg4 : Memref sig .tc .vmem S512x256 .i32) (harg4 : arg4.IsWhole)
    (arg5 : Memref sig .tc .vmem S512x256 .bf16) (harg5 : arg5.IsWhole) (arg6 : Memref sig .tc .vmem S256x16 .f32) (harg6 : arg6.IsWhole)
    (arg7 : Memref sig .tc .vmem S16x512 .f32) (harg7 : arg7.IsWhole) (arg8 : Memref sig .tc .vmem S2048x512 .f32) (harg8 : arg8.IsWhole)
    (arg9 : Memref sig .tc .vmem S2048x512 .f32) (harg9 : arg9.IsWhole) (arg10 : Memref sig .tc .vmem S2048x16 .f32) (harg10 : arg10.IsWhole)
    (hf : ¬isFirst1 i) (hl : ¬isLast1 i)
    (x0 : Vec F S2048x256 .bf16) (x1 : Vec F S512x256 .i32) (x2 : Vec F S512x256 .bf16) (x3 : Vec F S256x16 .f32)
    (a : Vec F S2048x512 .f32) (l : Vec F S2048x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep1 x0 x1 x2 a)
            ∗ owns (c : Thread nD τ) arg10 fullShare (lowStep1 x0 x3 l)) -∗ K ⟨⟩))
      ⊢ wp frame (wpE (defs₀ (F := F)) Variants.none c none) Set.univ
          (cc1__down_kernel i arg3 harg3 arg4 harg4 arg5 harg5 arg6 harg6 arg7 harg7 arg8 harg8 arg9 harg9 arg10 harg10) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S2048x256) hz2, View.ld_unit_zero (S := S512x256) hz2, View.ld_unit_zero (S := S256x16) hz2,
    View.ld_unit_zero (S := S16x512) hz2, View.ld_unit_zero (S := S2048x512) hz2, View.ld_unit_zero (S := S2048x16) hz2,
    View.readCov_unit_zero (S := S2048x512) _ hz2, View.readCov_unit_zero (S := S2048x16) _ hz2]
  rfl

set_option maxHeartbeats 4000000 in
/-- The first step of a block: the accumulators, whatever they held, restart from zero and take the first products. -/
theorem body1_first (c : Dev nD) (i : grid1.Coords)
    (arg3 : Memref sig .tc .vmem S2048x256 .bf16) (harg3 : arg3.IsWhole) (arg4 : Memref sig .tc .vmem S512x256 .i32) (harg4 : arg4.IsWhole)
    (arg5 : Memref sig .tc .vmem S512x256 .bf16) (harg5 : arg5.IsWhole) (arg6 : Memref sig .tc .vmem S256x16 .f32) (harg6 : arg6.IsWhole)
    (arg7 : Memref sig .tc .vmem S16x512 .f32) (harg7 : arg7.IsWhole) (arg8 : Memref sig .tc .vmem S2048x512 .f32) (harg8 : arg8.IsWhole)
    (arg9 : Memref sig .tc .vmem S2048x512 .f32) (harg9 : arg9.IsWhole) (arg10 : Memref sig .tc .vmem S2048x16 .f32) (harg10 : arg10.IsWhole)
    (hf : isFirst1 i) (hl : ¬isLast1 i)
    (x0 : Vec F S2048x256 .bf16) (x1 : Vec F S512x256 .i32) (x2 : Vec F S512x256 .bf16) (x3 : Vec F S256x16 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg9 fullShare (accStep1 x0 x1 x2 k1_pay4)
            ∗ owns (c : Thread nD τ) arg10 fullShare (lowStep1 x0 x3 k1_pay5)) -∗ K ⟨⟩))
      ⊢ wp frame (wpE (defs₀ (F := F)) Variants.none c none) Set.univ
          (cc1__down_kernel i arg3 harg3 arg4 harg4 arg5 harg5 arg6 harg6 arg7 harg7 arg8 harg8 arg9 harg9 arg10 harg10) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S2048x256) hz2, View.ld_unit_zero (S := S512x256) hz2, View.ld_unit_zero (S := S256x16) hz2,
    View.ld_unit_zero (S := S16x512) hz2, View.ld_unit_zero (S := S2048x512) hz2, View.ld_unit_zero (S := S2048x16) hz2,
    View.readCov_unit_zero (S := S2048x512) _ hz2, View.readCov_unit_zero (S := S2048x16) _ hz2]
  rfl

set_option maxHeartbeats 4000000 in
/-- The last step of a block: both accumulators advance once more, and the finished block is stored. -/
theorem body1_last (c : Dev nD) (i : grid1.Coords)
    (arg3 : Memref sig .tc .vmem S2048x256 .bf16) (harg3 : arg3.IsWhole) (arg4 : Memref sig .tc .vmem S512x256 .i32) (harg4 : arg4.IsWhole)
    (arg5 : Memref sig .tc .vmem S512x256 .bf16) (harg5 : arg5.IsWhole) (arg6 : Memref sig .tc .vmem S256x16 .f32) (harg6 : arg6.IsWhole)
    (arg7 : Memref sig .tc .vmem S16x512 .f32) (harg7 : arg7.IsWhole) (arg8 : Memref sig .tc .vmem S2048x512 .f32) (harg8 : arg8.IsWhole)
    (arg9 : Memref sig .tc .vmem S2048x512 .f32) (harg9 : arg9.IsWhole) (arg10 : Memref sig .tc .vmem S2048x16 .f32) (harg10 : arg10.IsWhole)
    (hf : ¬isFirst1 i) (hl : isLast1 i)
    (x0 : Vec F S2048x256 .bf16) (x1 : Vec F S512x256 .i32) (x2 : Vec F S512x256 .bf16) (x3 : Vec F S256x16 .f32)
    (x4 : Vec F S16x512 .f32) (a : Vec F S2048x512 .f32) (l : Vec F S2048x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare a ∗ owns (c : Thread nD τ) arg10 fullShare l
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (finish1 x4 (lowStep1 x0 x3 l) (accStep1 x0 x1 x2 a))
            ∗ owns (c : Thread nD τ) arg9 fullShare (accStep1 x0 x1 x2 a)
            ∗ owns (c : Thread nD τ) arg10 fullShare (lowStep1 x0 x3 l)) -∗ K ⟨⟩))
      ⊢ wp frame (wpE (defs₀ (F := F)) Variants.none c none) Set.univ
          (cc1__down_kernel i arg3 harg3 arg4 harg4 arg5 harg5 arg6 harg6 arg7 harg7 arg8 harg8 arg9 harg9 arg10 harg10) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf7; obtain rfl := harg9.eq_unread hf9; obtain rfl := harg10.eq_unread hf10
  sl_exec (disch := first | sl_exact hf | sl_exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  isplitl [H8]
  · iexists _; isplitr
    swap; · iexact H8
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  isplitl [H9]
  · iexists _; isplitr
    swap; · iexact H9
    ipureintro
    try sl_unfold_run_names
    rw [read_after_whole_store _ _ hz2]
    try sl_unfold_run_names
    simp only [View.readAt_eq_ld, harg3.read_unread, harg4.read_unread, harg5.read_unread, harg6.read_unread, harg7.read_unread, harg9.read_unread, harg10.read_unread,
      View.ld_unit_zero (S := S2048x256) hz2, View.ld_unit_zero (S := S512x256) hz2, View.ld_unit_zero (S := S256x16) hz2,
      View.ld_unit_zero (S := S16x512) hz2, View.ld_unit_zero (S := S2048x512) hz2, View.ld_unit_zero (S := S2048x16) hz2,
      View.readCov_unit_zero (S := S2048x512) _ hz2, View.readCov_unit_zero (S := S2048x16) _ hz2]
    rfl
  iexists _; isplitr
  swap; · iexact H10
  ipureintro
  try sl_unfold_run_names
  rw [read_after_whole_store _ _ hz2]
  try sl_unfold_run_names
  simp only [View.readAt_eq_ld, harg3.read_unread, harg4.read_unread, harg5.read_unread, harg6.read_unread, harg7.read_unread, harg9.read_unread, harg10.read_unread,
    View.ld_unit_zero (S := S2048x256) hz2, View.ld_unit_zero (S := S512x256) hz2, View.ld_unit_zero (S := S256x16) hz2,
    View.ld_unit_zero (S := S16x512) hz2, View.ld_unit_zero (S := S2048x512) hz2, View.ld_unit_zero (S := S2048x16) hz2,
    View.readCov_unit_zero (S := S2048x512) _ hz2, View.readCov_unit_zero (S := S2048x16) _ hz2]
  rfl

end Cert.KernelIdeal.Hand

end
-- ==== Proof.KI.Region1.lean ====
/-
  The down projection's region, point by point.

  The grid runs over (token block i, output block j, contraction step k), k fastest: point t has k = t mod 43. The
  tokens of this projection are the rows of the hidden array, the activated up projection. At a point the pipeline hands
  the body the blocks of the five input arrays; `scr1 n` is what the two accumulators hold after point n — started from
  zero where n mod 43 = 0, otherwise one step on from point n − 1 — and `fin1 t` the block the last step of a group
  finishes from them. The region's invariant carries the two accumulator buffers at `scr1` from point to point; the
  output window is written only by last steps and left alone, and not written back, elsewhere.
-/
import proofs.«402316_j82248623718485_1_alg».proof.Proof.KI.Body1
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered: every statement below is at this parameter
variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at their literal types: tokens (rows of the hidden array), codes, scales, first and second
    low-rank factor. -/
abbrev tok1 (c : Dev nD) (t : Fin cfg1.N) : Vec F S2048x256 .bf16 := iblk1 V c 0 t
abbrev cod1 (c : Dev nD) (t : Fin cfg1.N) : Vec F S512x256 .i32 := iblk1 V c 1 t
abbrev scl1 (c : Dev nD) (t : Fin cfg1.N) : Vec F S512x256 .bf16 := iblk1 V c 2 t
abbrev lra1 (c : Dev nD) (t : Fin cfg1.N) : Vec F S256x16 .f32 := iblk1 V c 3 t
abbrev lrb1 (c : Dev nD) (t : Fin cfg1.N) : Vec F S16x512 .f32 := iblk1 V c 4 t

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- One step on the pair of accumulators, with the blocks of point `t`. -/
def step1 (c : Dev nD) (t : Fin cfg1.N) (s : Vec F S2048x512 .f32 × Vec F S2048x16 .f32) : Vec F S2048x512 .f32 × Vec F S2048x16 .f32 :=
  (accStep1 (tok1 V c t) (cod1 V c t) (scl1 V c t) s.1, lowStep1 (tok1 V c t) (lra1 V c t) s.2)

/-- What the two accumulators hold after point `n`. -/
def scr1 (c : Dev nD) : (n : ℕ) → n < cfg1.N → Vec F S2048x512 .f32 × Vec F S2048x16 .f32
  | 0, h => step1 V c ⟨0, h⟩ (k1_pay4, k1_pay5)
  | n + 1, h => step1 V c ⟨n + 1, h⟩ (if (n + 1) % 43 = 0 then (k1_pay4, k1_pay5) else scr1 c n (Nat.lt_of_succ_lt h))

theorem scr1_first (c : Dev nD) (t : Fin cfg1.N) (h : t.val % 43 = 0) :
    scr1 V c t.val t.isLt = step1 V c t (k1_pay4, k1_pay5) := by
  obtain ⟨n, hn⟩ := t
  cases n with
  | zero => rfl
  | succ n => show step1 V c _ (if (n + 1) % 43 = 0 then _ else _) = _; rw [if_pos h]

theorem scr1_next (c : Dev nD) (t : Fin cfg1.N) (h : ¬t.val % 43 = 0) :
    scr1 V c t.val t.isLt = step1 V c t (scr1 V c (t.val - 1) (Nat.lt_of_le_of_lt (Nat.sub_le _ _) t.isLt)) := by
  obtain ⟨n, hn⟩ := t
  cases n with
  | zero => exact absurd (Nat.zero_mod _) h
  | succ n => show step1 V c _ (if (n + 1) % 43 = 0 then _ else _) = _; rw [if_neg h]; rfl

/-- The block a last step finishes at point `t` (read only where t mod 43 = 42). -/
def fin1 (c : Dev nD) (t : Fin cfg1.N) : Vec F S2048x512 .f32 :=
  finish1 (lrb1 V c t) (scr1 V c t.val t.isLt).2 (scr1 V c t.val t.isLt).1

/-! ## The steps' conditions over the grid -/

theorem hfirst1 : ∀ t : Fin cfg1.N, isFirst1 (grid1.coords t) ↔ t.val % 43 = 0 :=
  (by decide +kernel : ∀ t : Fin grid1.N, isFirst1 (grid1.coords t) ↔ t.val % 43 = 0)
theorem hlast1 : ∀ t : Fin cfg1.N, isLast1 (grid1.coords t) ↔ t.val % 43 = 42 :=
  (by decide +kernel : ∀ t : Fin grid1.N, isLast1 (grid1.coords t) ↔ t.val % 43 = 42)

/-- The output window is idle exactly where the step is not the last. -/
theorem idle1_5 (t : Fin cfg1.N) (h : ¬isLast1 (grid1.coords t)) : cfg1.idle 5 (grid1.coords t) = true := by
  show (!(k1_cond2 (grid1.coords t) == 1#1)) = true
  rw [beq_eq_false_iff_ne.mpr h]; rfl
theorem live1_5 (t : Fin cfg1.N) (h : isLast1 (grid1.coords t)) : cfg1.idle 5 (grid1.coords t) = false := by
  show (!(k1_cond2 (grid1.coords t) == 1#1)) = false
  rw [beq_iff_eq.mpr h]; rfl
theorem noFlush1_5 (t : Fin cfg1.N) (h : ¬t.val % 43 = 42) : (cfg1.win 5).flush t = false := by
  cases hf : (cfg1.win 5).flush t with
  | false => rfl
  | true => exact absurd ((flush1_5 t).mp hf) h

/-! ## The staging and scratch memrefs -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
/-- The main and the low-rank accumulator: whole scoped buffers of the kernel's own. -/
abbrev scA1 : Memref sig .tc .vmem S2048x512 .f32 := Memref.whole cc1_scratch0
abbrev scL1 : Memref sig .tc .vmem S2048x16 .f32 := Memref.whole cc1_scratch1

/-- The scoped buffers this region neither stages nor uses, each at some contents, and after them `P` — the place of this
    kernel's two accumulators, which come last among the core's scoped buffers. -/
def scopedWith1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- The class invariant with the two accumulators as memrefs owned at some contents. -/
theorem PhiA1_eq (c : Dev nD) :
    (Pipeline.ΦA spec1 c : sProp 𝕄)
      = iprop(scopedWith1 c iprop((∃ d, owns (c : Thread nD τ) scA1 fullShare d) ∗ (∃ d, owns (c : Thread nD τ) scL1 fullShare d)) ∗ (∃ r, prngReg c r)) := by
  unfold Pipeline.ΦA scopedWith1; rw [scopedRest1_eq]; simp only [scA1, scL1, owns_whole]; try rfl

/-- The region's invariant before point `n`: before the first point the class's; afterwards the two accumulators at what
    the point before left, the other scoped buffers at anything, the generator register at some state. -/
def PhiS1 (c : Dev nD) : (n : ℕ) → n ≤ cfg1.N → sProp 𝕄
  | 0, _ => Pipeline.ΦA spec1 c
  | n + 1, hn => iprop(scopedWith1 c iprop(owns (c : Thread nD τ) scA1 fullShare (scr1 V c n hn).1 ∗ owns (c : Thread nD τ) scL1 fullShare (scr1 V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith1 c iprop(owns (c : Thread nD τ) scA1 fullShare (scr1 V c n hn).1 ∗ owns (c : Thread nD τ) scL1 fullShare (scr1 V c n hn).2) ∗ (∃ r, prngReg c r)) := rfl
theorem PhiS1_pos (c : Dev nD) (n : ℕ) (h : n ≤ cfg1.N) (hz : n ≠ 0) :
    PhiS1 V c n h = iprop(scopedWith1 c iprop(owns (c : Thread nD τ) scA1 fullShare (scr1 V c (n - 1) (by omega)).1 ∗ owns (c : Thread nD τ) scL1 fullShare (scr1 V c (n - 1) (by omega)).2) ∗ (∃ r, prngReg c r)) := by
  cases n with
  | zero => exact absurd rfl hz
  | succ n => rfl

/-! ## The proof data -/

/-- The pipeline's proof data on core `c`: the arrays as the region finds them; after the body each input's buffer at
    its block and the output's at `fin1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => fin1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = fin1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem leaves1_0 (c : Dev nD) (t : Fin cfg1.N) :
    (dat1 V c).leavesExact 0 t = owns (c : Thread nD τ) (ms1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact; rw [show cfg1.idle 4 (grid1.coords t) = false from rfl, after1_4]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' buffers hold their blocks; t mod 43 says whether the step is the first, a middle or
    the last of its group; the invariant hands the step the two accumulators at what the point before left (at anything
    before the first point: a first step resets them) and takes them back one step on; the output window is stored by a
    last step and passes through untouched otherwise; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  by_cases h0 : t.val % 43 = 0
  · have h42 : ¬t.val % 43 = 42 := by omega
    have hf : isFirst1 (grid1.coords t) := (hfirst1 t).mpr h0
    have hl : ¬isLast1 (grid1.coords t) := fun h => h42 ((hlast1 t).mp h)
    rw [Dat.leavesExact_idle (dat1 V c) 5 t (idle1_5 t hl) (noFlush1_5 t h42)]
    rw [scr1_first V c t h0]; dsimp only [step1]
    by_cases hz : t.val = 0
    · rw [PhiS1_castSucc V c t, PhiS1_zero V c _ _ hz, PhiA1_eq]
      unfold scopedWith1
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_first c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS1_castSucc V c t, PhiS1_pos V c _ _ hz]
      unfold scopedWith1
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_first c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) _)
      isplitl [H0]; · iexact H0
      isplitl [H1]; · iexact H1
      isplitl [H2]; · iexact H2
      isplitl [H3]; · iexact H3
      isplitl [HA]; · iexists _; iexact HA
      isplitl [HL]; · iexists _; iexact HL
      iintro ⟨H0, H1, H2, H3, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    have hf : ¬isFirst1 (grid1.coords t) := fun h => h0 ((hfirst1 t).mp h)
    rw [scr1_next V c t h0]; dsimp only [step1]
    rw [PhiS1_castSucc V c t, PhiS1_pos V c _ _ hz]
    unfold scopedWith1
    by_cases h42 : t.val % 43 = 42
    · have hl : isLast1 (grid1.coords t) := (hlast1 t).mpr h42
      rw [show (dat1 V c).leavesExact 5 t = owns (c : Thread nD τ) (ms1_5 t) fullShare ((dat1 V c).after 5 t) from by
        unfold Dat.leavesExact; rw [live1_5 t hl], after1_5]
      unfold fin1; rw [scr1_next V c t h0]; dsimp only [step1]
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_last c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) (lrb1 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HL]; · iexact HL
      iintro ⟨H0, H1, H2, H3, H4, H5, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast1 (grid1.coords t) := fun h => h42 ((hlast1 t).mp h)
      rw [Dat.leavesExact_idle (dat1 V c) 5 t (idle1_5 t hl) (noFlush1_5 t h42)]
      iintro ⟨⟨⟨R0, R1, R2, R3, R4, R5, R6, R7, R8, R9, R10, R11, R12, R13, HA, HL⟩, Hg⟩, Ho, ⟨%d0, H0⟩, ⟨%d1, H1⟩, ⟨%d2, H2⟩, ⟨%d3, H3⟩, ⟨%d4, H4⟩, ⟨%d5, H5⟩⟩
      iapply (body1_mid c (grid1.coords t) _ (hs1_0 t) _ (hs1_1 t) _ (hs1_2 t) _ (hs1_3 t) _ (hs1_4 t) _ (hs1_5 t) _ (Memref.isWhole_whole _) _ (Memref.isWhole_whole _) hf hl (tok1 V c t) (cod1 V c t) (scl1 V c t) (lra1 V c t) _ _ _)
      isplitl [H0]; · iexact H0
      isplitl [H1]; · iexact H1
      isplitl [H2]; · iexact H2
      isplitl [H3]; · iexact H3
      isplitl [HA]; · iexact HA
      isplitl [HL]; · iexact HL
      iintro ⟨H0, H1, H2, H3, HA, HL⟩
      isplitl [R0 R1 R2 R3 R4 R5 R6 R7 R8 R9 R10 R11 R12 R13 HA HL Hg]
      · isplitl [R0 R1 R2 R3 R4 R5 R6 R7 R8 R9 R10 R11 R12 R13 HA HL]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HA]; · iexact HA
          iexact HL
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scopedWith1
  iintro ⟨⟨R0, R1, R2, R3, R4, R5, R6, R7, R8, R9, R10, R11, R12, R13, HA, HL⟩, Hg⟩
  isplitl [R0 R1 R2 R3 R4 R5 R6 R7 R8 R9 R10 R11 R12 R13 HA HL]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HA]; · iexists _; iexact HA
    iexists _; iexact HL
  iexact Hg

theorem hout1 (c : Dev nD) : (dat1 V c).Φ (Fin.last cfg1.N) ⊢ Pipeline.ΦA spec1 c :=
  Phi_out1 V c _ (by rw [Fin.val_last]; have : cfg1.N = 1376 := N_1; omega)

end Region1

end Cert.KernelIdeal.Hand

end
-- ==== Proof.KI.Run.lean ====
/-
  The whole program's run: eight host operations that spread each weight's scales over its entries, then the up
  projection's region, then the down projection's region.

  `W0` … `W3` are the contents of every buffer that outlives a region at the four boundaries: as launched; after the host
  operations; after the first region, whose output array holds what its pipeline leaves and everything else is unchanged;
  after the second region likewise. No item writes an argument array, so each argument is read back through the four to
  its launch contents; the result array is the second pipeline's output window at its final contents.
-/
import proofs.«402316_j82248623718485_1_alg».proof.Proof.KI.Region0
import proofs.«402316_j82248623718485_1_alg».proof.Proof.KI.Region1
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the host operations. -/
abbrev W1 : Dev nD → Valuation τ sig (Elt F) := fun c => StableHlo.after hostOps0 (W0 m c)
/-- The same read at the TensorCore's references: what the first region's proof data take. -/
abbrev Vr1 : (c : Dev nD) → (b : Ref sig .tc) → Buf (Elt F) ((c : Thread nD τ).loc b) := fun c b => W1 m c b

theorem hostOps0_fresh : (hostOps0 : List (HloOp τ sig (Elt F))).Forall fun op => op.fresh = ∅ := by
  simp only [List.Forall]; repeat' constructor
/-- The references the host operations write. -/
abbrev hostW : List (Ref sig .tc) := [main_v0, main_v1, main_v2, main_v3, main_v4, main_v5, main_v6, main_v7]
theorem hostOps0_writes : (hostOps0 : List (HloOp τ sig (Elt F))).Forall fun op => op.writes ⊆ (hostW.map (Proc.devRef (τ := τ) .tc)).toFinset := by
  simp only [List.Forall]
  refine ⟨?_, ?_, ?_, ?_, ?_, ?_, ?_, ?_⟩ <;>
    (simp only [StableHlo.unary_writes, StableHlo.reshape_writes, Finset.singleton_subset_iff, List.mem_toFinset]
     exact List.mem_map_of_mem (by decide))
/-- A buffer the host operations do not write holds its launch contents after them. -/
theorem W1_of (c : Dev nD) (r : Ref sig .tc) (h : r ∉ hostW) : W1 m c (Proc.devRef .tc r) = W0 m c (Proc.devRef .tc r) :=
  StableHlo.after_of_writes_sub hostOps0 _ hostOps0_writes h

/-- After the first region. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the second region. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (Vr1 m) c).arrAt_in 0 rfl _).trans (A_eq0 (Vr1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (Vr1 m) c).arrAt_in 1 rfl _).trans (A_eq0 (Vr1 m) c 1))
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 3).trans (((dat0 (Vr1 m) c).arrAt_in 3 rfl _).trans (A_eq0 (Vr1 m) c 3))
    _ = W0 m c (Proc.devRef .tc main_arg3) := W1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (Vr1 m) c).arrAt_in 4 rfl _).trans (A_eq0 (Vr1 m) c 4))
    _ = W0 m c (Proc.devRef .tc main_arg4) := W1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 1).trans (((dat1 (Vr2 m) c).arrAt_in 1 rfl _).trans (A_eq1 (Vr2 m) c 1))
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 3).trans (((dat1 (Vr2 m) c).arrAt_in 3 rfl _).trans (A_eq1 (Vr2 m) c 3))
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 4).trans (((dat1 (Vr2 m) c).arrAt_in 4 rfl _).trans (A_eq1 (Vr2 m) c 4))
    _ = W1 m c (Proc.devRef .tc main_arg8) := W2_of_ne m c main_arg8 (by decide)
    _ = W0 m c (Proc.devRef .tc main_arg8) := W1_of m c main_arg8 (by decide)
    _ = m ((c : Thread nD τ).loc main_arg8) := rfl

/-- The result array ends at what the second pipeline leaves in its output window. -/
theorem W3_main_v9 (c : Dev nD) : W3 m c (Proc.devRef .tc main_v9) = (dat1 (Vr2 m) c).arrAt 5 cfg1.N := W3_arr m c 5
/-- The second region's token array is what the first pipeline left in its output window. -/
theorem W2_main_v8 (c : Dev nD) : W2 m c (Proc.devRef .tc main_v8) = (dat0 (Vr1 m) c).arrAt 5 cfg0.N := W2_arr m c 5
/-- The second region finds every buffer the first did not write as the host operations left it. -/
theorem W2_of_not_v8 (c : Dev nD) (b : Ref sig .tc) (hb : ∀ w, Pipeline.arrRef spec0 w ≠ b) :
    Vr2 m c b = Vr1 m c b := W2_of_ne m c b hb

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`. Its arrays are split
    out of the unscoped buffers and put back at the contents the pipeline leaves; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vr1 m) c).Φ 0 from rfl]
    have h := hin0 (Vr1 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (Vr1 m) c).Φ (Fin.last cfg0.N) from rfl]
    have h := hout0 (Vr1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the contents the pipeline leaves; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr2 m) c).Φ 0 from rfl]
    have h := hin1 (Vr2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (Vr2 m) c).Φ (Fin.last cfg1.N) from rfl]
    have h := hout1 (Vr2 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg m), .region (reg0 m), .region (reg1 m) ]

theorem main_run (c : Dev nD) : main (F := F) c = Pipeline.Seg.run (segs m) :=
  main_segs adm (pdats m) () 𝒱₀ L lv (hseg m) (reg0 m) (reg1 m) rfl c

set_option backward.isDefEq.respectTransparency.types false in
/-- From any memory with zero counters every weakly fair execution of the program terminates, nothing faulting, and every
    buffer that outlives the regions ends at `W3`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the program runs to the end, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩)
    (run_all m ρ)

end Cert.KernelIdeal.Hand

end
-- ==== Proof.KI.HostVal.lean ====
/-
  What the two per-entry scale arrays hold once the host operations have run.

  Each weight matrix comes with one scale per 64 consecutive entries of its row-major flattening.  Before the two
  matrix products the program spreads each scale list out to the matrix's shape: scale g is repeated 64 times
  ([704512] to [704512, 64]), the repeats are laid end to end ([45088768]), and the line is cut into rows
  ([11008, 4096] for the up weight, [4096, 11008] for the down weight); the final change of number format keeps
  every value over the extended reals.  A cut or a join keeps the row-major position, so entry (f, d) of the
  [11008, 4096] array sits at position f·4096 + d of the line, which is repeat (f·4096 + d) % 64 of scale
  (f·4096 + d) / 64; likewise entry (e, f) of the [4096, 11008] array is scale (e·11008 + f) / 64.
-/
import proofs.«402316_j82248623718485_1_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## One scale list spread over a matrix, read at an entry -/

/-- A list of 704512 values, each repeated 64 times, the repeats joined into one line and the line cut into rows of
    length b: the entry at row i, column j is value (i·b + j) / 64 of the list. -/
theorem spread_apply {a b : ℕ} (hab : a * b = 704512 * 64) (u : S704512.Idx → EReal)
    (hb : S704512.BroadcastsInDim S704512x64 (![0] : Fin 1 → Fin S704512x64.rank))
    (h1 : S704512x64.ShapeCasts S45088768) (h2 : S45088768.ShapeCasts ⟨2, ![a, b]⟩)
    (i : Fin a) (j : Fin b) (hq : (i.val * b + j.val) / 64 < 704512) :
    shapeCast ⟨2, ![a, b]⟩ (shapeCast S45088768 (broadcastInDim S704512x64 ![0] hb u) h1) h2 (ix2 i j)
      = u (ix1 ⟨(i.val * b + j.val) / 64, hq⟩) := by
  have hlt : i.val * b + j.val < 45088768 := by
    have hi := i.isLt
    have hj := j.isLt
    have : (i.val + 1) * b ≤ a * b := Nat.mul_le_mul_right b hi
    rw [Nat.add_mul, Nat.one_mul] at this
    omega
  -- the cut into rows keeps the position in the line
  rw [shapeCast_apply _ h2 (ix2 i j) (ix1 (⟨i.val * b + j.val, hlt⟩ : Fin 45088768))
    (by rw [Shape.rowMajor_val_one, Shape.rowMajor_val_two]; rfl)]
  -- the join keeps it too: position q of the line is repeat q % 64 of value q / 64
  rw [shapeCast_apply _ h1 (ix1 (⟨i.val * b + j.val, hlt⟩ : Fin 45088768))
    (ix2 (⟨(i.val * b + j.val) / 64, hq⟩ : Fin 704512) (⟨(i.val * b + j.val) % 64, Nat.mod_lt _ (by norm_num)⟩ : Fin 64))
    (by
      rw [Shape.rowMajor_val_one, Shape.rowMajor_val_two]
      show (i.val * b + j.val) / 64 * 64 + (i.val * b + j.val) % 64 = i.val * b + j.val
      omega)]
  -- a repeat is the value it repeats
  exact broadcastInDim_apply _ hb u _ _ (fun c => by
    match c with
    | ⟨0, _⟩ => rfl)

/-! ## The two scale arrays after the host operations -/

/-- The up weight's scale array, as the term the first four host operations compute from the scale list. -/
theorem scalesUp_term (V : Valuation τ sig (Elt Ideal)) :
    (StableHlo.after (hostOps0 (F := Ideal)) V (Proc.devRef .tc main_v3) : S11008x4096.Idx → EReal)
      = (truncf .bf16 (shapeCast S11008x4096 (shapeCast S45088768
          (broadcastInDim S704512x64 ![0] bcast_S704512_S704512x64_0
            (V (Proc.devRef .tc main_arg2) : FVec Ideal S704512 .f32))
          shapeCasts_S704512x64_S45088768) shapeCasts_S45088768_S11008x4096) bitsLt_bf16_f32
          : FVec Ideal S11008x4096 .bf16) := by
  dsimp only [hostOps0]
  after_results
  rfl

/-- The down weight's scale array, as the term the last four host operations compute from the scale list. -/
theorem scalesDown_term (V : Valuation τ sig (Elt Ideal)) :
    (StableHlo.after (hostOps0 (F := Ideal)) V (Proc.devRef .tc main_v7) : S4096x11008.Idx → EReal)
      = (truncf .bf16 (shapeCast S4096x11008 (shapeCast S45088768
          (broadcastInDim S704512x64 ![0] bcast_S704512_S704512x64_0
            (V (Proc.devRef .tc main_arg6) : FVec Ideal S704512 .f32))
          shapeCasts_S704512x64_S45088768) shapeCasts_S45088768_S4096x11008) bitsLt_bf16_f32
          : FVec Ideal S4096x11008 .bf16) := by
  dsimp only [hostOps0]
  after_results
  rfl

/-- Entry (f, d) of the up weight's scale array is scale (f·4096 + d) / 64 of the list the program was given. -/
theorem scalesUp_apply (V : Valuation τ sig (Elt Ideal)) (f : Fin 11008) (d : Fin 4096) :
    (StableHlo.after (hostOps0 (F := Ideal)) V (Proc.devRef .tc main_v3) : S11008x4096.Idx → EReal) (ix2 f d)
      = (V (Proc.devRef .tc main_arg2) : S704512.Idx → EReal)
          (ix1 ⟨(f.val * 4096 + d.val) / 64, by have := f.isLt; have := d.isLt; omega⟩) := by
  rw [scalesUp_term V, truncf_apply]
  exact spread_apply (by norm_num) _ _ _ _ f d _

/-- Entry (e, f) of the down weight's scale array is scale (e·11008 + f) / 64 of the list the program was given. -/
theorem scalesDown_apply (V : Valuation τ sig (Elt Ideal)) (e : Fin 4096) (f : Fin 11008) :
    (StableHlo.after (hostOps0 (F := Ideal)) V (Proc.devRef .tc main_v7) : S4096x11008.Idx → EReal) (ix2 e f)
      = (V (Proc.devRef .tc main_arg6) : S704512.Idx → EReal)
          (ix1 ⟨(e.val * 11008 + f.val) / 64, by have := e.isLt; have := f.isLt; omega⟩) := by
  rw [scalesDown_term V, truncf_apply]
  exact spread_apply (by norm_num) _ _ _ _ e f _

end Cert.KernelIdeal.Hand

end
-- ==== Proof.Spec.lean ====
/-
  The mathematics both programs compute, as functions of the nine argument arrays over the extended reals.

  A weight matrix is stored as 4-bit codes with one scale per 64 consecutive entries of its row-major
  flattening: entry (f, d) of the up weight is  nf4(code[f, d]) · scale[(f·4096 + d) / 64],  entry (e, f) of the
  down weight  nf4(code[e, f]) · scale[(e·11008 + f) / 64].  The hidden layer is
      h[n, f] = silu( Σ_d x[n, d] · Wup[f, d]  +  Σ_r (Σ_d x[n, d] · A1[d, r]) · B1[r, f] ),
  silu y = y · (1 / (1 + e^(−y))), and the result
      out[n, e] = Σ_f h[n, f] · Wdown[e, f]  +  Σ_r (Σ_f h[n, f] · A2[f, r]) · B2[r, e].
  `nf4` is read as the chain of sixteen equality tests the kernel runs (any word that is none of 1 … 15 reads
  the first table entry); for a code in 0 … 15 it is the table entry the reference looks up (`CodesOk`).
-/
import Idealize.ShloMosaic.PureOps.Ideal
import Idealize.ShloMosaic.Lib.ValueIdx

noncomputable section

open scoped BigOperators

namespace Cert.Spec

open Idealize.ShloMosaic Idealize.ShloMosaic.ValueIdx

/-- The value of a 4-bit code word: the sixteen table entries, tested from 15 down to 1, the first entry otherwise. -/
def nf4 (c : BitVec 32) : EReal :=
  if c = 15#32 then Ideal.ofBits .f32 0x3F800000#32 else
  if c = 14#32 then Ideal.ofBits .f32 0x3F3913B3#32 else
  if c = 13#32 then Ideal.ofBits .f32 0x3F1007AB#32 else
  if c = 12#32 then Ideal.ofBits .f32 0x3EE1A4B8#32 else
  if c = 11#32 then Ideal.ofBits .f32 0x3EAD033A#32 else
  if c = 10#32 then Ideal.ofBits .f32 0x3E7C04DD#32 else
  if c = 9#32 then Ideal.ofBits .f32 0x3E24CAE3#32 else
  if c = 8#32 then Ideal.ofBits .f32 0x3DA2FAFF#32 else
  if c = 7#32 then Ideal.ofBits .f32 0x00000000#32 else
  if c = 6#32 then Ideal.ofBits .f32 0xBDBA7871#32 else
  if c = 5#32 then Ideal.ofBits .f32 0xBE3D353F#32 else
  if c = 4#32 then Ideal.ofBits .f32 0xBE91A24D#32 else
  if c = 3#32 then Ideal.ofBits .f32 0xBECA32A0#32 else
  if c = 2#32 then Ideal.ofBits .f32 0xBF066B30#32 else
  if c = 1#32 then Ideal.ofBits .f32 0xBF3239B1#32 else
  Ideal.ofBits .f32 0xBF800000#32

/-- Every code of an array is one of 0 … 15. -/
def CodesOk {S : Shape} (codes : S.Idx → BitVec 32) : Prop := ∀ i, (codes i).toNat < 16

/-- Entry (f, d) of the dequantized up weight. -/
def wUp (codes : (⟨2, ![11008, 4096]⟩ : Shape).Idx → BitVec 32) (am : (⟨1, ![704512]⟩ : Shape).Idx → EReal)
    (f : Fin 11008) (d : Fin 4096) : EReal :=
  nf4 (codes (ix2 f d)) * am (ix1 ⟨(f.val * 4096 + d.val) / 64, by have := f.isLt; have := d.isLt; omega⟩)

/-- Entry (e, f) of the dequantized down weight. -/
def wDown (codes : (⟨2, ![4096, 11008]⟩ : Shape).Idx → BitVec 32) (am : (⟨1, ![704512]⟩ : Shape).Idx → EReal)
    (e : Fin 4096) (f : Fin 11008) : EReal :=
  nf4 (codes (ix2 e f)) * am (ix1 ⟨(e.val * 11008 + f.val) / 64, by have := e.isLt; have := f.isLt; omega⟩)

/-- y · logistic y. -/
def silu (y : EReal) : EReal := y * Ideal.logistic y

/-- The up projection before the activation. -/
def y1 (x : (⟨2, ![8192, 4096]⟩ : Shape).Idx → EReal) (codes : (⟨2, ![11008, 4096]⟩ : Shape).Idx → BitVec 32)
    (am : (⟨1, ![704512]⟩ : Shape).Idx → EReal) (la : (⟨2, ![4096, 16]⟩ : Shape).Idx → EReal)
    (lb : (⟨2, ![16, 11008]⟩ : Shape).Idx → EReal) (n : Fin 8192) (f : Fin 11008) : EReal :=
  (∑ d : Fin 4096, x (ix2 n d) * wUp codes am f d)
    + ∑ r : Fin 16, (∑ d : Fin 4096, x (ix2 n d) * la (ix2 d r)) * lb (ix2 r f)

/-- The hidden layer, as an array. -/
def hidden (x : (⟨2, ![8192, 4096]⟩ : Shape).Idx → EReal) (codes : (⟨2, ![11008, 4096]⟩ : Shape).Idx → BitVec 32)
    (am : (⟨1, ![704512]⟩ : Shape).Idx → EReal) (la : (⟨2, ![4096, 16]⟩ : Shape).Idx → EReal)
    (lb : (⟨2, ![16, 11008]⟩ : Shape).Idx → EReal) : (⟨2, ![8192, 11008]⟩ : Shape).Idx → EReal :=
  fun j => silu (y1 x codes am la lb (j 0) (j 1))

/-- The down projection of a hidden array. -/
def y2 (h : (⟨2, ![8192, 11008]⟩ : Shape).Idx → EReal) (codes : (⟨2, ![4096, 11008]⟩ : Shape).Idx → BitVec 32)
    (am : (⟨1, ![704512]⟩ : Shape).Idx → EReal) (la : (⟨2, ![11008, 16]⟩ : Shape).Idx → EReal)
    (lb : (⟨2, ![16, 4096]⟩ : Shape).Idx → EReal) : (⟨2, ![8192, 4096]⟩ : Shape).Idx → EReal :=
  fun j => (∑ f : Fin 11008, h (ix2 (j 0) f) * wDown codes am (j 1) f)
    + ∑ r : Fin 16, (∑ f : Fin 11008, h (ix2 (j 0) f) * la (ix2 f r)) * lb (ix2 r (j 1))

/-- The whole computation. -/
def out (x : (⟨2, ![8192, 4096]⟩ : Shape).Idx → EReal) (c1 : (⟨2, ![11008, 4096]⟩ : Shape).Idx → BitVec 32)
    (am1 : (⟨1, ![704512]⟩ : Shape).Idx → EReal) (la1 : (⟨2, ![4096, 16]⟩ : Shape).Idx → EReal)
    (lb1 : (⟨2, ![16, 11008]⟩ : Shape).Idx → EReal) (c2 : (⟨2, ![4096, 11008]⟩ : Shape).Idx → BitVec 32)
    (am2 : (⟨1, ![704512]⟩ : Shape).Idx → EReal) (la2 : (⟨2, ![11008, 16]⟩ : Shape).Idx → EReal)
    (lb2 : (⟨2, ![16, 4096]⟩ : Shape).Idx → EReal) : (⟨2, ![8192, 4096]⟩ : Shape).Idx → EReal :=
  y2 (hidden x c1 am1 la1 lb1) c2 am2 la2 lb2

end Cert.Spec

end
-- ==== Proof.SpecFull.lean ====
/-
  The same two projections with the scales given per ENTRY of the weight (an array of the weight's own shape) instead of
  per block of 64: the form in which the kernels receive them. Where every entry's scale is its block's, they are the
  specification's `hidden` and `y2`.
-/
import proofs.«402316_j82248623718485_1_alg».proof.Proof.Spec

noncomputable section

open scoped BigOperators

namespace Cert.Spec

open Idealize.ShloMosaic Idealize.ShloMosaic.ValueIdx

/-- The hidden layer over per-entry scales. -/
def hiddenFull (x : (⟨2, ![8192, 4096]⟩ : Shape).Idx → EReal) (codes : (⟨2, ![11008, 4096]⟩ : Shape).Idx → BitVec 32)
    (sf : (⟨2, ![11008, 4096]⟩ : Shape).Idx → EReal) (la : (⟨2, ![4096, 16]⟩ : Shape).Idx → EReal)
    (lb : (⟨2, ![16, 11008]⟩ : Shape).Idx → EReal) : (⟨2, ![8192, 11008]⟩ : Shape).Idx → EReal :=
  fun j => silu ((∑ d : Fin 4096, x (ix2 (j 0) d) * (nf4 (codes (ix2 (j 1) d)) * sf (ix2 (j 1) d)))
    + ∑ r : Fin 16, (∑ d : Fin 4096, x (ix2 (j 0) d) * la (ix2 d r)) * lb (ix2 r (j 1)))

/-- The down projection over per-entry scales. -/
def outFull (h : (⟨2, ![8192, 11008]⟩ : Shape).Idx → EReal) (codes : (⟨2, ![4096, 11008]⟩ : Shape).Idx → BitVec 32)
    (sf : (⟨2, ![4096, 11008]⟩ : Shape).Idx → EReal) (la : (⟨2, ![11008, 16]⟩ : Shape).Idx → EReal)
    (lb : (⟨2, ![16, 4096]⟩ : Shape).Idx → EReal) : (⟨2, ![8192, 4096]⟩ : Shape).Idx → EReal :=
  fun j => (∑ f : Fin 11008, h (ix2 (j 0) f) * (nf4 (codes (ix2 (j 1) f)) * sf (ix2 (j 1) f)))
    + ∑ r : Fin 16, (∑ f : Fin 11008, h (ix2 (j 0) f) * la (ix2 f r)) * lb (ix2 r (j 1))

/-- Per-entry scales that repeat each block's scale give the specification's hidden layer. -/
theorem hiddenFull_eq (x : (⟨2, ![8192, 4096]⟩ : Shape).Idx → EReal) (codes : (⟨2, ![11008, 4096]⟩ : Shape).Idx → BitVec 32)
    (sf : (⟨2, ![11008, 4096]⟩ : Shape).Idx → EReal) (am : (⟨1, ![704512]⟩ : Shape).Idx → EReal)
    (la : (⟨2, ![4096, 16]⟩ : Shape).Idx → EReal) (lb : (⟨2, ![16, 11008]⟩ : Shape).Idx → EReal)
    (hs : ∀ (f : Fin 11008) (d : Fin 4096),
      sf (ix2 f d) = am (ix1 ⟨(f.val * 4096 + d.val) / 64, by have := f.isLt; have := d.isLt; omega⟩)) :
    hiddenFull x codes sf la lb = hidden x codes am la lb := by
  funext j
  obtain ⟨n, f, rfl⟩ : ∃ (n : Fin 8192) (f : Fin 11008), j = ix2 n f := ⟨j 0, j 1, eq_ix2 j⟩
  show silu ((∑ d : Fin 4096, x (ix2 n d) * (nf4 (codes (ix2 f d)) * sf (ix2 f d))) + _)
    = silu ((∑ d : Fin 4096, x (ix2 n d) * wUp codes am f d) + _)
  refine congrArg (fun s => silu (s + _)) (Finset.sum_congr rfl fun d _ => ?_)
  unfold wUp
  rw [hs f d]

/-- Per-entry scales that repeat each block's scale give the specification's down projection. -/
theorem outFull_eq (h : (⟨2, ![8192, 11008]⟩ : Shape).Idx → EReal) (codes : (⟨2, ![4096, 11008]⟩ : Shape).Idx → BitVec 32)
    (sf : (⟨2, ![4096, 11008]⟩ : Shape).Idx → EReal) (am : (⟨1, ![704512]⟩ : Shape).Idx → EReal)
    (la : (⟨2, ![11008, 16]⟩ : Shape).Idx → EReal) (lb : (⟨2, ![16, 4096]⟩ : Shape).Idx → EReal)
    (hs : ∀ (e : Fin 4096) (f : Fin 11008),
      sf (ix2 e f) = am (ix1 ⟨(e.val * 11008 + f.val) / 64, by have := e.isLt; have := f.isLt; omega⟩)) :
    outFull h codes sf la lb = y2 h codes am la lb := by
  funext j
  obtain ⟨n, e, rfl⟩ : ∃ (n : Fin 8192) (e : Fin 4096), j = ix2 n e := ⟨j 0, j 1, eq_ix2 j⟩
  show (∑ f : Fin 11008, h (ix2 n f) * (nf4 (codes (ix2 e f)) * sf (ix2 e f))) + _
    = (∑ f : Fin 11008, h (ix2 n f) * wDown codes am e f) + _
  refine congrArg (fun s => s + _) (Finset.sum_congr rfl fun f _ => ?_)
  unfold wDown
  rw [hs e f]

end Cert.Spec

end
-- ==== Proof.KI.Val0a.lean ====
/-
  The up projection's three step maps, read at one element, over the extended reals.

  One reduction step adds to the main accumulator, at row p and column q, the sum over the step's 1024 contraction
  positions d of  x[p, d] · (nf4(code[q, d]) · scale[q, d]):  the chain of fifteen compare-and-select steps the step runs on
  a code word is the code's table value, the scale is widened and the product narrowed without change, and the matrix
  product contracts the second axis of both operands.  The low-rank accumulator takes  Σ_d x[p, d] · A[d, r];  the finished
  block is  silu(acc[p, q] + Σ_r low[p, r] · B[r, q]).  The two accumulators start from zero.
-/
import proofs.«402316_j82248623718485_1_alg».proof.Proof.KI.Body0
import proofs.«402316_j82248623718485_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand.Up

open Cert.KernelIdeal Cert.KernelIdeal.Gen Cert.KernelIdeal.Hand
open Idealize.ShloMosaic Idealize.ShloMosaic.ValueIdx

/-! ## The three matrix products at an element

For each dimension-number record: the operand indices' coordinates, axis by axis, then the product into the zero
accumulator as the sum over the one contraction coordinate. -/

theorem lhs_up_0 (i : S1024x256.Idx) (k : dot_S1024x1024_S256x1024_S1024x256_1_1_0_0_n_n.contr.Idx) :
    (dot_S1024x1024_S256x1024_S1024x256_1_1_0_0_n_n.lhsIdx i k 0).val = (i 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl
theorem lhs_up_1 (i : S1024x256.Idx) (k : dot_S1024x1024_S256x1024_S1024x256_1_1_0_0_n_n.contr.Idx) :
    (dot_S1024x1024_S256x1024_S1024x256_1_1_0_0_n_n.lhsIdx i k 1).val = (k ⟨0, by decide⟩).val :=
  dot_S1024x1024_S256x1024_S1024x256_1_1_0_0_n_n.lhsIdx_val_of_single rfl i k
theorem rhs_up_0 (i : S1024x256.Idx) (k : dot_S1024x1024_S256x1024_S1024x256_1_1_0_0_n_n.contr.Idx) :
    (dot_S1024x1024_S256x1024_S1024x256_1_1_0_0_n_n.rhsIdx i k 0).val = (i 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl
theorem rhs_up_1 (i : S1024x256.Idx) (k : dot_S1024x1024_S256x1024_S1024x256_1_1_0_0_n_n.contr.Idx) :
    (dot_S1024x1024_S256x1024_S1024x256_1_1_0_0_n_n.rhsIdx i k 1).val = (k ⟨0, by decide⟩).val :=
  dot_S1024x1024_S256x1024_S1024x256_1_1_0_0_n_n.rhsIdx_val_of_single rfl i k

/-- Tokens times the transposed weight block: both operands contracted on their second axis. -/
theorem matmul_up_apply {φ₁ φ₂ : FTy} (L : FVec Ideal S1024x1024 φ₁) (R : FVec Ideal S256x1024 φ₂) (p : Fin 1024) (q : Fin 256) :
    matmul dot_S1024x1024_S256x1024_S1024x256_1_1_0_0_n_n none L R (constant (F := Ideal) S1024x256 .f32 0x00000000#32) (ix2 p q)
      = ∑ k : Fin 1024, L (ix2 p k) * R (ix2 q k) := by
  simp only [matmul]
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 p q) ((contrEquiv1 dot_S1024x1024_S256x1024_S1024x256_1_1_0_0_n_n 1024 rfl rfl).symm k) = ix2 p k := funext fun a => Fin.ext (by
    match a with
    | ⟨0, _⟩ => exact lhs_up_0 _ _
    | ⟨1, _⟩ => exact (lhs_up_1 _ _).trans hk)
  have er : dot_S1024x1024_S256x1024_S1024x256_1_1_0_0_n_n.rhsIdx (ix2 p q) ((contrEquiv1 dot_S1024x1024_S256x1024_S1024x256_1_1_0_0_n_n 1024 rfl rfl).symm k) = ix2 q k := funext fun a => Fin.ext (by
    match a with
    | ⟨0, _⟩ => exact rhs_up_0 _ _
    | ⟨1, _⟩ => exact (rhs_up_1 _ _).trans hk)
  rw [el, er]

theorem lhs_low_0 (i : S1024x16.Idx) (k : dot_S1024x1024_S1024x16_S1024x16_1_0_0_1_n_n.contr.Idx) :
    (dot_S1024x1024_S1024x16_S1024x16_1_0_0_1_n_n.lhsIdx i k 0).val = (i 0).val := by
  unfold DotDims.lhsIdx
  rw [dif_neg (show ¬(0 : Fin S1024x1024.rank) ∈ dot_S1024x1024_S1024x16_S1024x16_1_0_0_1_n_n.lhsBatch by decide),
    dif_pos (show (0 : Fin S1024x1024.rank) ∈ dot_S1024x1024_S1024x16_S1024x16_1_0_0_1_n_n.lhsNonContracting by decide)]
  rfl
theorem lhs_low_1 (i : S1024x16.Idx) (k : dot_S1024x1024_S1024x16_S1024x16_1_0_0_1_n_n.contr.Idx) :
    (dot_S1024x1024_S1024x16_S1024x16_1_0_0_1_n_n.lhsIdx i k 1).val = (k ⟨0, by decide⟩).val :=
  dot_S1024x1024_S1024x16_S1024x16_1_0_0_1_n_n.lhsIdx_val_of_single rfl i k
theorem rhs_low_0 (i : S1024x16.Idx) (k : dot_S1024x1024_S1024x16_S1024x16_1_0_0_1_n_n.contr.Idx) :
    (dot_S1024x1024_S1024x16_S1024x16_1_0_0_1_n_n.rhsIdx i k 0).val = (k ⟨0, by decide⟩).val :=
  dot_S1024x1024_S1024x16_S1024x16_1_0_0_1_n_n.rhsIdx_val_of_single rfl i k
theorem rhs_low_1 (i : S1024x16.Idx) (k : dot_S1024x1024_S1024x16_S1024x16_1_0_0_1_n_n.contr.Idx) :
    (dot_S1024x1024_S1024x16_S1024x16_1_0_0_1_n_n.rhsIdx i k 1).val = (i 1).val := by
  unfold DotDims.rhsIdx
  rw [dif_neg (show ¬(1 : Fin S1024x16.rank) ∈ dot_S1024x1024_S1024x16_S1024x16_1_0_0_1_n_n.rhsBatch by decide),
    dif_pos (show (1 : Fin S1024x16.rank) ∈ dot_S1024x1024_S1024x16_S1024x16_1_0_0_1_n_n.rhsNonContracting by decide)]
  rfl

/-- Tokens times the block of the first low-rank factor. -/
theorem matmul_low_apply {φ₁ φ₂ : FTy} (L : FVec Ideal S1024x1024 φ₁) (R : FVec Ideal S1024x16 φ₂) (p : Fin 1024) (q : Fin 16) :
    matmul dot_S1024x1024_S1024x16_S1024x16_1_0_0_1_n_n none L R (constant (F := Ideal) S1024x16 .f32 0x00000000#32) (ix2 p q)
      = ∑ k : Fin 1024, L (ix2 p k) * R (ix2 k q) := by
  simp only [matmul]
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact lhs_low_0 _ _
    | ⟨1, _⟩ => exact (lhs_low_1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (rhs_low_0 _ _).trans hk
    | ⟨1, _⟩ => exact rhs_low_1 _ _)
  rw [el, er]

theorem lhs_fin_0 (i : S1024x256.Idx) (k : dot_S1024x16_S16x256_S1024x256_1_0_0_1_n_n.contr.Idx) :
    (dot_S1024x16_S16x256_S1024x256_1_0_0_1_n_n.lhsIdx i k 0).val = (i 0).val := by
  unfold DotDims.lhsIdx
  rw [dif_neg (show ¬(0 : Fin S1024x16.rank) ∈ dot_S1024x16_S16x256_S1024x256_1_0_0_1_n_n.lhsBatch by decide),
    dif_pos (show (0 : Fin S1024x16.rank) ∈ dot_S1024x16_S16x256_S1024x256_1_0_0_1_n_n.lhsNonContracting by decide)]
  rfl
theorem lhs_fin_1 (i : S1024x256.Idx) (k : dot_S1024x16_S16x256_S1024x256_1_0_0_1_n_n.contr.Idx) :
    (dot_S1024x16_S16x256_S1024x256_1_0_0_1_n_n.lhsIdx i k 1).val = (k ⟨0, by decide⟩).val :=
  dot_S1024x16_S16x256_S1024x256_1_0_0_1_n_n.lhsIdx_val_of_single rfl i k
theorem rhs_fin_0 (i : S1024x256.Idx) (k : dot_S1024x16_S16x256_S1024x256_1_0_0_1_n_n.contr.Idx) :
    (dot_S1024x16_S16x256_S1024x256_1_0_0_1_n_n.rhsIdx i k 0).val = (k ⟨0, by decide⟩).val :=
  dot_S1024x16_S16x256_S1024x256_1_0_0_1_n_n.rhsIdx_val_of_single rfl i k
theorem rhs_fin_1 (i : S1024x256.Idx) (k : dot_S1024x16_S16x256_S1024x256_1_0_0_1_n_n.contr.Idx) :
    (dot_S1024x16_S16x256_S1024x256_1_0_0_1_n_n.rhsIdx i k 1).val = (i 1).val := by
  unfold DotDims.rhsIdx
  rw [dif_neg (show ¬(1 : Fin S16x256.rank) ∈ dot_S1024x16_S16x256_S1024x256_1_0_0_1_n_n.rhsBatch by decide),
    dif_pos (show (1 : Fin S16x256.rank) ∈ dot_S1024x16_S16x256_S1024x256_1_0_0_1_n_n.rhsNonContracting by decide)]
  rfl

/-- The low-rank accumulator times the block of the second factor. -/
theorem matmul_fin_apply {φ₁ φ₂ : FTy} (L : FVec Ideal S1024x16 φ₁) (R : FVec Ideal S16x256 φ₂) (p : Fin 1024) (q : Fin 256) :
    matmul dot_S1024x16_S16x256_S1024x256_1_0_0_1_n_n none L R (constant (F := Ideal) S1024x256 .f32 0x00000000#32) (ix2 p q)
      = ∑ k : Fin 16, L (ix2 p k) * R (ix2 k q) := by
  simp only [matmul]
  rw [Ideal.matmul_constant_zero_apply, ← Equiv.sum_comp (contrEquiv1 dot_S1024x16_S16x256_S1024x256_1_0_0_1_n_n 16 rfl rfl).symm]
  refine Finset.sum_congr rfl fun k _ => ?_
  have hk := contrEquiv1_symm_val dot_S1024x16_S16x256_S1024x256_1_0_0_1_n_n 16 rfl rfl k
  have el : dot_S1024x16_S16x256_S1024x256_1_0_0_1_n_n.lhsIdx (ix2 p q) ((contrEquiv1 dot_S1024x16_S16x256_S1024x256_1_0_0_1_n_n 16 rfl rfl).symm k) = ix2 p k := funext fun a => Fin.ext (by
    match a with
    | ⟨0, _⟩ => exact lhs_fin_0 _ _
    | ⟨1, _⟩ => exact (lhs_fin_1 _ _).trans hk)
  have er : dot_S1024x16_S16x256_S1024x256_1_0_0_1_n_n.rhsIdx (ix2 p q) ((contrEquiv1 dot_S1024x16_S16x256_S1024x256_1_0_0_1_n_n 16 rfl rfl).symm k) = ix2 k q := funext fun a => Fin.ext (by
    match a with
    | ⟨0, _⟩ => exact (rhs_fin_0 _ _).trans hk
    | ⟨1, _⟩ => exact rhs_fin_1 _ _)
  rw [el, er]
/-! ## One code word through the fifteen tests -/

/-- A select on the test "the word is k" is the `if` on that equation. -/
theorem select_cmpi_eq {α : Type} (c k : BitVec 32) (a b : α) :
    Scalar.select (IntOp.cmpi .eq c k) a b = if c = k then a else b := by
  unfold Scalar.select
  by_cases h : c = k
  · exact (if_pos (IntOp.cmpi_eq.mpr h)).trans (if_pos h).symm
  · exact (if_neg fun h1 => h (IntOp.cmpi_eq.mp h1)).trans (if_neg h).symm

/-- What the step's fifteen compare-and-select steps leave for a code word `c`: the test on 1 innermost, on 15 outermost,
    minus one where no test holds. -/
def codeChain (c : BitVec 32) : EReal :=
  Scalar.select (IntOp.cmpi .eq c 15#32) (Ideal.ofBits .f32 0x3F800000#32) (
  Scalar.select (IntOp.cmpi .eq c 14#32) (Ideal.ofBits .f32 0x3F3913B3#32) (
  Scalar.select (IntOp.cmpi .eq c 13#32) (Ideal.ofBits .f32 0x3F1007AB#32) (
  Scalar.select (IntOp.cmpi .eq c 12#32) (Ideal.ofBits .f32 0x3EE1A4B8#32) (
  Scalar.select (IntOp.cmpi .eq c 11#32) (Ideal.ofBits .f32 0x3EAD033A#32) (
  Scalar.select (IntOp.cmpi .eq c 10#32) (Ideal.ofBits .f32 0x3E7C04DD#32) (
  Scalar.select (IntOp.cmpi .eq c 9#32) (Ideal.ofBits .f32 0x3E24CAE3#32) (
  Scalar.select (IntOp.cmpi .eq c 8#32) (Ideal.ofBits .f32 0x3DA2FAFF#32) (
  Scalar.select (IntOp.cmpi .eq c 7#32) (Ideal.ofBits .f32 0x00000000#32) (
  Scalar.select (IntOp.cmpi .eq c 6#32) (Ideal.ofBits .f32 0xBDBA7871#32) (
  Scalar.select (IntOp.cmpi .eq c 5#32) (Ideal.ofBits .f32 0xBE3D353F#32) (
  Scalar.select (IntOp.cmpi .eq c 4#32) (Ideal.ofBits .f32 0xBE91A24D#32) (
  Scalar.select (IntOp.cmpi .eq c 3#32) (Ideal.ofBits .f32 0xBECA32A0#32) (
  Scalar.select (IntOp.cmpi .eq c 2#32) (Ideal.ofBits .f32 0xBF066B30#32) (
  Scalar.select (IntOp.cmpi .eq c 1#32) (Ideal.ofBits .f32 0xBF3239B1#32) (
  Ideal.ofBits .f32 0xBF800000#32)))))))))))))))

/-- That chain is the code's table value. -/
theorem codeChain_eq (c : BitVec 32) : codeChain c = Cert.Spec.nf4 c := by
  unfold codeChain Cert.Spec.nf4
  simp only [select_cmpi_eq]
/-! ## The step maps at an element -/

/-- The tokens' block is narrowed without change. -/
theorem narrowed_apply (x0 : Vec Ideal S1024x1024 .f32) (j : S1024x1024.Idx) : k0_pay6 (F := Ideal) x0 j = x0 j := rfl

/-- The scales' block is cast to its own shape and widened without change. -/
theorem widened_apply (x2 : Vec Ideal S256x1024 .bf16) (j : S256x1024.Idx) : k0_pay7 (F := Ideal) x2 j = x2 j := by
  unfold k0_pay7
  exact (show _ = shapeCast S256x1024 x2 shapeCasts_S256x1024_S256x1024 j from rfl).trans
    (congrFun (shapeCast_self _ _) _)

/-- The main accumulator's step: the accumulator plus the tokens' row times the dequantized weight's row. -/
theorem accStep0_apply (x0 : Vec Ideal S1024x1024 .f32) (x1 : Vec Ideal S256x1024 .i32) (x2 : Vec Ideal S256x1024 .bf16)
    (a : Vec Ideal S1024x256 .f32) (p : Fin 1024) (q : Fin 256) :
    accStep0 (F := Ideal) x0 x1 x2 a (ix2 p q)
      = a (ix2 p q) + ∑ d : Fin 1024, x0 (ix2 p d) * (Cert.Spec.nf4 (x1 (ix2 q d)) * x2 (ix2 q d)) := by
  unfold accStep0 k0_pay1
  simp only [shapeCast_self]
  refine (show _ = a (ix2 p q) + k0_pay9 (F := Ideal) (k0_pay6 x0) x1 (k0_pay7 x2) (k0_pay8 x1) 7#32 (ix2 p q) from rfl).trans
    (congrArg (a (ix2 p q) + ·) ?_)
  unfold k0_pay9
  refine (matmul_up_apply _ _ p q).trans (Finset.sum_congr rfl fun d _ => ?_)
  refine (show _ = x0 (ix2 p d) * (codeChain (x1 (ix2 q d)) * k0_pay7 (F := Ideal) x2 (ix2 q d)) from rfl).trans ?_
  rw [codeChain_eq, widened_apply]

/-- The low-rank accumulator's step: the accumulator plus the tokens' row times the first factor's column. -/
theorem lowStep0_apply (x0 : Vec Ideal S1024x1024 .f32) (x3 : Vec Ideal S1024x16 .f32) (l : Vec Ideal S1024x16 .f32)
    (p : Fin 1024) (r : Fin 16) :
    lowStep0 (F := Ideal) x0 x3 l (ix2 p r) = l (ix2 p r) + ∑ d : Fin 1024, x0 (ix2 p d) * x3 (ix2 d r) := by
  unfold lowStep0 k0_pay2
  simp only [shapeCast_self]
  refine (show _ = l (ix2 p r) + matmul dot_S1024x1024_S1024x16_S1024x16_1_0_0_1_n_n none (k0_pay6 (F := Ideal) x0)
      (truncf (F := Ideal) .bf16 x3 bitsLt_bf16_f32) (constant (F := Ideal) S1024x16 .f32 0x00000000#32) (ix2 p r) from rfl).trans
    (congrArg (l (ix2 p r) + ·) ?_)
  exact (matmul_low_apply _ _ p r).trans (Finset.sum_congr rfl fun d _ => rfl)

/-- The finished block: the activation of the accumulator plus the low-rank accumulator's row times the second factor's column. -/
theorem finish0_apply (x4 : Vec Ideal S16x256 .f32) (l : Vec Ideal S1024x16 .f32) (a : Vec Ideal S1024x256 .f32)
    (p : Fin 1024) (q : Fin 256) :
    finish0 (F := Ideal) x4 l a (ix2 p q) = Cert.Spec.silu (a (ix2 p q) + ∑ r : Fin 16, l (ix2 p r) * x4 (ix2 r q)) := by
  unfold finish0 k0_pay3
  have hsum : (matmul dot_S1024x16_S16x256_S1024x256_1_0_0_1_n_n none (truncf (F := Ideal) .bf16 l bitsLt_bf16_f32)
      (truncf (F := Ideal) .bf16 x4 bitsLt_bf16_f32) (constant (F := Ideal) S1024x256 .f32 0x00000000#32)) (ix2 p q) = ∑ r : Fin 16, l (ix2 p r) * x4 (ix2 r q) :=
    (matmul_fin_apply _ _ p q).trans (Finset.sum_congr rfl fun r _ => rfl)
  refine (show _ = Cert.Spec.silu (a (ix2 p q) + (matmul dot_S1024x16_S16x256_S1024x256_1_0_0_1_n_n none (truncf (F := Ideal) .bf16 l bitsLt_bf16_f32)
      (truncf (F := Ideal) .bf16 x4 bitsLt_bf16_f32) (constant (F := Ideal) S1024x256 .f32 0x00000000#32)) (ix2 p q)) from rfl).trans ?_
  rw [hsum]

/-- The main accumulator starts from zero. -/
theorem zeroAcc0_apply (j : S1024x256.Idx) : (k0_pay4 (F := Ideal)) j = 0 := by
  unfold k0_pay4
  simp only [shapeCast_self]
  exact Ideal.ofBits_zero_f32

/-- The low-rank accumulator starts from zero. -/
theorem zeroLow0_apply (j : S1024x16.Idx) : (k0_pay5 (F := Ideal)) j = 0 := by
  unfold k0_pay5
  simp only [shapeCast_self]
  exact Ideal.ofBits_zero_f32

end Cert.KernelIdeal.Hand.Up

end
-- ==== Proof.KI.Val0b.lean ====
/-
  What the up projection's region leaves in its output array, over the extended reals.

  The grid runs over (token block i, output block j, contraction step k), k fastest: point t is
  (t / 172, t / 4 mod 43, t mod 4).  At point t the five input blocks are the rectangles of the arrays at
  (i · 1024, k · 1024) of the tokens, (j · 256, k · 1024) of the codes and of the per-entry scales, (k · 1024, 0) of the
  first low-rank factor and (0, j · 256) of the second.  Inside a group of four steps the main accumulator, started from
  zero, adds at each step the products over that step's run of 1024 contraction positions, and the low-rank accumulator
  likewise; a sum over 4096 positions is the sum of its four runs of 1024 in order, so at the last step the two
  accumulators hold the full sums, and the finished block is block (i, j) of the hidden layer.  The blocks written back
  by the last steps tile the output array: entry (r, f) lies in the block of the point with i = r / 1024, j = f / 256,
  k = 3.
-/
import proofs.«402316_j82248623718485_1_alg».proof.Proof.KI.Region0
import proofs.«402316_j82248623718485_1_alg».proof.Proof.KI.Val0a
import proofs.«402316_j82248623718485_1_alg».proof.Proof.SpecFull
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Hand.Up
open Idealize.ShloMosaic Idealize.ShloMosaic.TcCoe Idealize.ShloMosaic.ValueIdx
open Idealize.SL.Sem
open Idealize.ShloMosaic.Pipeline (Dat Cfg Window)

section Value0

variable (V : (c : Dev nD) → (b : Ref sig .tc) → Buf (Elt Ideal) ((c : Thread nD τ).loc b))

/-! ## Where each point's blocks lie -/

/-- Point t is (token block t / 172, output block t / 4 mod 43, contraction step t mod 4); each window's block indices
    in those terms. -/
theorem blockIndices0 : ∀ t : Fin cfg0.N,
    win0_0.index t (0 : Fin 2) = t.val / 172 ∧ win0_0.index t (1 : Fin 2) = t.val % 4
    ∧ win0_1.index t (0 : Fin 2) = t.val / 4 % 43 ∧ win0_1.index t (1 : Fin 2) = t.val % 4
    ∧ win0_2.index t (0 : Fin 2) = t.val / 4 % 43 ∧ win0_2.index t (1 : Fin 2) = t.val % 4
    ∧ win0_3.index t (0 : Fin 2) = t.val % 4 ∧ win0_3.index t (1 : Fin 2) = 0
    ∧ win0_4.index t (0 : Fin 2) = 0 ∧ win0_4.index t (1 : Fin 2) = t.val / 4 % 43
    ∧ win0_5.index t (0 : Fin 2) = t.val / 172 ∧ win0_5.index t (1 : Fin 2) = t.val / 4 % 43 :=
  (by decide +kernel : ∀ t : Fin grid0.N, _)

/-- The five argument arrays and the output array's index type, at their literal types. -/
abbrev arrX (c : Dev nD) : Vec Ideal S8192x4096 .f32 := V c main_arg0
abbrev arrC (c : Dev nD) : Vec Ideal S11008x4096 .i32 := V c main_arg1
abbrev arrS (c : Dev nD) : Vec Ideal S11008x4096 .bf16 := V c main_v3
abbrev arrA (c : Dev nD) : Vec Ideal S4096x16 .f32 := V c main_arg3
abbrev arrB (c : Dev nD) : Vec Ideal S16x11008 .f32 := V c main_arg4

/-- The token block of point t, at (p, d), is the token array at (i · 1024 + p, k · 1024 + d). -/
theorem tok0_at (c : Dev nD) (t : Fin cfg0.N) (i k : Nat) (hi : t.val / 172 = i) (hk : t.val % 4 = k)
    (p d : Fin 1024) (hp : i * 1024 + p.val < 8192) (hd : k * 1024 + d.val < 4096) :
    tok0 V c t (ix2 p d) = arrX V c (ix2 ⟨i * 1024 + p.val, hp⟩ ⟨k * 1024 + d.val, hd⟩) := by
  obtain ⟨e00, e01, -⟩ := blockIndices0 t
  show V c main_arg0 (((cfg0.win 0).blk t).view.emb (ix2 p d)) = _
  refine congrArg (V c main_arg0) (funext fun a => Fin.ext ?_)
  match a with
  | ⟨0, _⟩ => show win0_0.index t (0 : Fin 2) * 1024 + 1 * p.val = i * 1024 + p.val; rw [e00, hi]; omega
  | ⟨1, _⟩ => show win0_0.index t (1 : Fin 2) * 1024 + 1 * d.val = k * 1024 + d.val; rw [e01, hk]; omega

/-- The code block of point t, at (q, d), is the code array at (j · 256 + q, k · 1024 + d). -/
theorem cod0_at (c : Dev nD) (t : Fin cfg0.N) (j k : Nat) (hj : t.val / 4 % 43 = j) (hk : t.val % 4 = k)
    (q : Fin 256) (d : Fin 1024) (hq : j * 256 + q.val < 11008) (hd : k * 1024 + d.val < 4096) :
    cod0 V c t (ix2 q d) = arrC V c (ix2 ⟨j * 256 + q.val, hq⟩ ⟨k * 1024 + d.val, hd⟩) := by
  obtain ⟨-, -, e10, e11, -⟩ := blockIndices0 t
  show V c main_arg1 (((cfg0.win 1).blk t).view.emb (ix2 q d)) = _
  refine congrArg (V c main_arg1) (funext fun a => Fin.ext ?_)
  match a with
  | ⟨0, _⟩ => show win0_1.index t (0 : Fin 2) * 256 + 1 * q.val = j * 256 + q.val; rw [e10, hj]; omega
  | ⟨1, _⟩ => show win0_1.index t (1 : Fin 2) * 1024 + 1 * d.val = k * 1024 + d.val; rw [e11, hk]; omega

/-- The scale block of point t, at (q, d), is the per-entry scale array at (j · 256 + q, k · 1024 + d). -/
theorem scl0_at (c : Dev nD) (t : Fin cfg0.N) (j k : Nat) (hj : t.val / 4 % 43 = j) (hk : t.val % 4 = k)
    (q : Fin 256) (d : Fin 1024) (hq : j * 256 + q.val < 11008) (hd : k * 1024 + d.val < 4096) :
    scl0 V c t (ix2 q d) = arrS V c (ix2 ⟨j * 256 + q.val, hq⟩ ⟨k * 1024 + d.val, hd⟩) := by
  obtain ⟨-, -, -, -, e20, e21, -⟩ := blockIndices0 t
  show V c main_v3 (((cfg0.win 2).blk t).view.emb (ix2 q d)) = _
  refine congrArg (V c main_v3) (funext fun a => Fin.ext ?_)
  match a with
  | ⟨0, _⟩ => show win0_2.index t (0 : Fin 2) * 256 + 1 * q.val = j * 256 + q.val; rw [e20, hj]; omega
  | ⟨1, _⟩ => show win0_2.index t (1 : Fin 2) * 1024 + 1 * d.val = k * 1024 + d.val; rw [e21, hk]; omega

/-- The first low-rank factor's block of point t, at (d, r), is that factor at (k · 1024 + d, r). -/
theorem lra0_at (c : Dev nD) (t : Fin cfg0.N) (k : Nat) (hk : t.val % 4 = k)
    (d : Fin 1024) (r : Fin 16) (hd : k * 1024 + d.val < 4096) :
    lra0 V c t (ix2 d r) = arrA V c (ix2 ⟨k * 1024 + d.val, hd⟩ r) := by
  obtain ⟨-, -, -, -, -, -, e30, e31, -⟩ := blockIndices0 t
  show V c main_arg3 (((cfg0.win 3).blk t).view.emb (ix2 d r)) = _
  refine congrArg (V c main_arg3) (funext fun a => Fin.ext ?_)
  match a with
  | ⟨0, _⟩ => show win0_3.index t (0 : Fin 2) * 1024 + 1 * d.val = k * 1024 + d.val; rw [e30, hk]; omega
  | ⟨1, _⟩ => show win0_3.index t (1 : Fin 2) * 16 + 1 * r.val = r.val; rw [e31]; omega

/-- The second low-rank factor's block of point t, at (r, q), is that factor at (r, j · 256 + q). -/
theorem lrb0_at (c : Dev nD) (t : Fin cfg0.N) (j : Nat) (hj : t.val / 4 % 43 = j)
    (r : Fin 16) (q : Fin 256) (hq : j * 256 + q.val < 11008) :
    lrb0 V c t (ix2 r q) = arrB V c (ix2 r ⟨j * 256 + q.val, hq⟩) := by
  obtain ⟨-, -, -, -, -, -, -, -, e40, e41, -⟩ := blockIndices0 t
  show V c main_arg4 (((cfg0.win 4).blk t).view.emb (ix2 r q)) = _
  refine congrArg (V c main_arg4) (funext fun a => Fin.ext ?_)
  match a with
  | ⟨0, _⟩ => show win0_4.index t (0 : Fin 2) * 16 + 1 * r.val = r.val; rw [e40]; omega
  | ⟨1, _⟩ => show win0_4.index t (1 : Fin 2) * 256 + 1 * q.val = j * 256 + q.val; rw [e41, hj]; omega

/-! ## The accumulators inside a group of four steps -/

/-- What one step adds to the main accumulator at (p, q), and to the low-rank one at (p, r). -/
def accTerm (c : Dev nD) (t : Fin cfg0.N) (p : Fin 1024) (q : Fin 256) : EReal :=
  ∑ d : Fin 1024, tok0 V c t (ix2 p d) * (Cert.Spec.nf4 (cod0 V c t (ix2 q d)) * scl0 V c t (ix2 q d))
def lowTerm (c : Dev nD) (t : Fin cfg0.N) (p : Fin 1024) (r : Fin 16) : EReal :=
  ∑ d : Fin 1024, tok0 V c t (ix2 p d) * lra0 V c t (ix2 d r)

theorem scr0_first_acc (c : Dev nD) (t : Fin cfg0.N) (h : t.val % 4 = 0) (p : Fin 1024) (q : Fin 256) :
    (scr0 V c t.val t.isLt).1 (ix2 p q) = accTerm V c t p q := by
  rw [scr0_first V c t h]
  show accStep0 (F := Ideal) (tok0 V c t) (cod0 V c t) (scl0 V c t) (k0_pay4 (F := Ideal)) (ix2 p q) = _
  rw [accStep0_apply, zeroAcc0_apply, zero_add]
  rfl

theorem scr0_first_low (c : Dev nD) (t : Fin cfg0.N) (h : t.val % 4 = 0) (p : Fin 1024) (r : Fin 16) :
    (scr0 V c t.val t.isLt).2 (ix2 p r) = lowTerm V c t p r := by
  rw [scr0_first V c t h]
  show lowStep0 (F := Ideal) (tok0 V c t) (lra0 V c t) (k0_pay5 (F := Ideal)) (ix2 p r) = _
  rw [lowStep0_apply, zeroLow0_apply, zero_add]
  rfl

theorem scr0_next_acc (c : Dev nD) (t : Fin cfg0.N) (h : ¬t.val % 4 = 0) (p : Fin 1024) (q : Fin 256) :
    (scr0 V c t.val t.isLt).1 (ix2 p q)
      = (scr0 V c (t.val - 1) (Nat.lt_of_le_of_lt (Nat.sub_le _ _) t.isLt)).1 (ix2 p q) + accTerm V c t p q := by
  rw [scr0_next V c t h]
  show accStep0 (F := Ideal) (tok0 V c t) (cod0 V c t) (scl0 V c t) _ (ix2 p q) = _
  rw [accStep0_apply]
  rfl

theorem scr0_next_low (c : Dev nD) (t : Fin cfg0.N) (h : ¬t.val % 4 = 0) (p : Fin 1024) (r : Fin 16) :
    (scr0 V c t.val t.isLt).2 (ix2 p r)
      = (scr0 V c (t.val - 1) (Nat.lt_of_le_of_lt (Nat.sub_le _ _) t.isLt)).2 (ix2 p r) + lowTerm V c t p r := by
  rw [scr0_next V c t h]
  show lowStep0 (F := Ideal) (tok0 V c t) (lra0 V c t) _ (ix2 p r) = _
  rw [lowStep0_apply]
  rfl

/-- The point before t (t itself at the first point). -/
abbrev prev (t : Fin cfg0.N) : Fin cfg0.N := ⟨t.val - 1, Nat.lt_of_le_of_lt (Nat.sub_le _ _) t.isLt⟩

/-- At the last step of a group the main accumulator holds the four steps' terms, added in order. -/
theorem acc_last (c : Dev nD) (t : Fin cfg0.N) (h3 : t.val % 4 = 3) (p : Fin 1024) (q : Fin 256) :
    (scr0 V c t.val t.isLt).1 (ix2 p q)
      = accTerm V c (prev (prev (prev t))) p q + accTerm V c (prev (prev t)) p q + accTerm V c (prev t) p q
        + accTerm V c t p q := by
  have h0 : (prev (prev (prev t))).val % 4 = 0 := by show (t.val - 1 - 1 - 1) % 4 = 0; omega
  have e2 := scr0_next_acc V c (prev t) (by show ¬(t.val - 1) % 4 = 0; omega) p q
  have e1 := scr0_next_acc V c (prev (prev t)) (by show ¬(t.val - 1 - 1) % 4 = 0; omega) p q
  have e0 := scr0_first_acc V c (prev (prev (prev t))) h0 p q
  rw [scr0_next_acc V c t (by omega)]
  exact congrArg (· + accTerm V c t p q)
    (e2.trans (congrArg (· + accTerm V c (prev t) p q) (e1.trans (congrArg (· + accTerm V c (prev (prev t)) p q) e0))))

/-- Likewise the low-rank accumulator. -/
theorem low_last (c : Dev nD) (t : Fin cfg0.N) (h3 : t.val % 4 = 3) (p : Fin 1024) (r : Fin 16) :
    (scr0 V c t.val t.isLt).2 (ix2 p r)
      = lowTerm V c (prev (prev (prev t))) p r + lowTerm V c (prev (prev t)) p r + lowTerm V c (prev t) p r
        + lowTerm V c t p r := by
  have h0 : (prev (prev (prev t))).val % 4 = 0 := by show (t.val - 1 - 1 - 1) % 4 = 0; omega
  have e2 := scr0_next_low V c (prev t) (by show ¬(t.val - 1) % 4 = 0; omega) p r
  have e1 := scr0_next_low V c (prev (prev t)) (by show ¬(t.val - 1 - 1) % 4 = 0; omega) p r
  have e0 := scr0_first_low V c (prev (prev (prev t))) h0 p r
  rw [scr0_next_low V c t (by omega)]
  exact congrArg (· + lowTerm V c t p r)
    (e2.trans (congrArg (· + lowTerm V c (prev t) p r) (e1.trans (congrArg (· + lowTerm V c (prev (prev t)) p r) e0))))

/-! ## Global coordinates -/

/-- Row p of token block i; column q of output block j; position d of contraction step k. -/
abbrev tokRow (i : Fin 8) (p : Fin 1024) : Fin 8192 := ⟨i.val * 1024 + p.val, by have := i.isLt; have := p.isLt; omega⟩
abbrev outCol (j : Fin 43) (q : Fin 256) : Fin 11008 := ⟨j.val * 256 + q.val, by have := j.isLt; have := q.isLt; omega⟩
abbrev inPos (k : Fin 4) (d : Fin 1024) : Fin 4096 := ⟨k.val * 1024 + d.val, by have := k.isLt; have := d.isLt; omega⟩

/-- A step's term for the main accumulator, over the arrays. -/
theorem accTerm_eq (c : Dev nD) (t : Fin cfg0.N) (i : Fin 8) (j : Fin 43) (k : Fin 4) (hi : t.val / 172 = i.val)
    (hj : t.val / 4 % 43 = j.val) (hk : t.val % 4 = k.val) (p : Fin 1024) (q : Fin 256) :
    accTerm V c t p q
      = ∑ d : Fin 1024, arrX V c (ix2 (tokRow i p) (inPos k d))
          * (Cert.Spec.nf4 (arrC V c (ix2 (outCol j q) (inPos k d))) * arrS V c (ix2 (outCol j q) (inPos k d))) := by
  unfold accTerm
  refine Finset.sum_congr rfl fun d _ => ?_
  rw [tok0_at V c t i.val k.val hi hk p d (tokRow i p).isLt (inPos k d).isLt,
    cod0_at V c t j.val k.val hj hk q d (outCol j q).isLt (inPos k d).isLt,
    scl0_at V c t j.val k.val hj hk q d (outCol j q).isLt (inPos k d).isLt]

/-- A step's term for the low-rank accumulator, over the arrays. -/
theorem lowTerm_eq (c : Dev nD) (t : Fin cfg0.N) (i : Fin 8) (k : Fin 4) (hi : t.val / 172 = i.val)
    (hk : t.val % 4 = k.val) (p : Fin 1024) (r : Fin 16) :
    lowTerm V c t p r = ∑ d : Fin 1024, arrX V c (ix2 (tokRow i p) (inPos k d)) * arrA V c (ix2 (inPos k d) r) := by
  unfold lowTerm
  refine Finset.sum_congr rfl fun d _ => ?_
  rw [tok0_at V c t i.val k.val hi hk p d (tokRow i p).isLt (inPos k d).isLt,
    lra0_at V c t k.val hk d r (inPos k d).isLt]

/-- A sum over 4096 positions is the sum of its four runs of 1024, added in order. -/
theorem sum_four_runs (f : Fin 4096 → EReal) :
    ∑ d : Fin 4096, f d
      = (∑ e : Fin 1024, f (inPos 0 e)) + (∑ e : Fin 1024, f (inPos 1 e)) + (∑ e : Fin 1024, f (inPos 2 e))
        + ∑ e : Fin 1024, f (inPos 3 e) := by
  have h : ∑ d : Fin 4096, f d = ∑ k : Fin 4, ∑ e : Fin 1024, f (inPos k e) := by
    rw [← Equiv.sum_comp (finProdFinEquiv (m := 4) (n := 1024)) f, Fintype.sum_prod_type]
    refine Finset.sum_congr rfl fun k _ => Finset.sum_congr rfl fun e _ => congrArg f (Fin.ext ?_)
    show e.val + 1024 * k.val = k.val * 1024 + e.val
    omega
  rw [h, Fin.sum_univ_four]

/-! ## The finished block, and the output array -/

/-- The hidden layer over per-entry scales, of the five arrays as the region finds them. -/
abbrev hidden0 (c : Dev nD) : Vec Ideal S8192x11008 .bf16 :=
  Cert.Spec.hiddenFull (arrX V c) (arrC V c) (arrS V c) (arrA V c) (arrB V c)

/-- The block a last step finishes is the hidden layer's block (i, j). -/
theorem fin0_apply (c : Dev nD) (t : Fin cfg0.N) (h3 : t.val % 4 = 3) (i : Fin 8) (j : Fin 43)
    (hi : t.val / 172 = i.val) (hj : t.val / 4 % 43 = j.val) (p : Fin 1024) (q : Fin 256) :
    fin0 V c t (ix2 p q) = hidden0 V c (ix2 (tokRow i p) (outCol j q)) := by
  have hi2 : (prev t).val / 172 = i.val := by show (t.val - 1) / 172 = i.val; omega
  have hi1 : (prev (prev t)).val / 172 = i.val := by show (t.val - 1 - 1) / 172 = i.val; omega
  have hi0 : (prev (prev (prev t))).val / 172 = i.val := by show (t.val - 1 - 1 - 1) / 172 = i.val; omega
  have hj2 : (prev t).val / 4 % 43 = j.val := by show (t.val - 1) / 4 % 43 = j.val; omega
  have hj1 : (prev (prev t)).val / 4 % 43 = j.val := by show (t.val - 1 - 1) / 4 % 43 = j.val; omega
  have hj0 : (prev (prev (prev t))).val / 4 % 43 = j.val := by show (t.val - 1 - 1 - 1) / 4 % 43 = j.val; omega
  have hk3 : t.val % 4 = (3 : Fin 4).val := h3
  have hk2 : (prev t).val % 4 = (2 : Fin 4).val := by show (t.val - 1) % 4 = 2; omega
  have hk1 : (prev (prev t)).val % 4 = (1 : Fin 4).val := by show (t.val - 1 - 1) % 4 = 1; omega
  have hk0 : (prev (prev (prev t))).val % 4 = (0 : Fin 4).val := by show (t.val - 1 - 1 - 1) % 4 = 0; omega
  unfold fin0
  rw [finish0_apply]
  show Cert.Spec.silu (_ + _)
    = Cert.Spec.silu ((∑ d : Fin 4096, arrX V c (ix2 (tokRow i p) d)
          * (Cert.Spec.nf4 (arrC V c (ix2 (outCol j q) d)) * arrS V c (ix2 (outCol j q) d)))
        + ∑ r : Fin 16, (∑ d : Fin 4096, arrX V c (ix2 (tokRow i p) d) * arrA V c (ix2 d r)) * arrB V c (ix2 r (outCol j q)))
  congr 2
  · rw [acc_last V c t h3, accTerm_eq V c _ i j 0 hi0 hj0 hk0, accTerm_eq V c _ i j 1 hi1 hj1 hk1,
      accTerm_eq V c _ i j 2 hi2 hj2 hk2, accTerm_eq V c _ i j 3 hi hj hk3,
      sum_four_runs fun d => arrX V c (ix2 (tokRow i p) d)
        * (Cert.Spec.nf4 (arrC V c (ix2 (outCol j q) d)) * arrS V c (ix2 (outCol j q) d))]
  · refine Finset.sum_congr rfl fun r _ => ?_
    rw [low_last V c t h3, lowTerm_eq V c _ i 0 hi0 hk0, lowTerm_eq V c _ i 1 hi1 hk1, lowTerm_eq V c _ i 2 hi2 hk2,
      lowTerm_eq V c _ i 3 hi hk3, lrb0_at V c t j.val hj r q (outCol j q).isLt,
      sum_four_runs fun d => arrX V c (ix2 (tokRow i p) d) * arrA V c (ix2 d r)]

/-- What a last step writes back is its block of the hidden layer. -/
theorem flushed0_eq (c : Dev nD) (t : Fin cfg0.N) (hf : (cfg0.win 5).flush t = true) :
    (dat0 (F := Ideal) V c).flushed 5 t = ((cfg0.win 5).blk t).view.read (Elt Ideal) (hidden0 V c) := by
  have h3 : t.val % 4 = 3 := (flush0_5 t).mp hf
  have hN : cfg0.N = 1376 := N_0
  have ht : t.val < 1376 := hN ▸ t.isLt
  obtain ⟨-, -, -, -, -, -, -, -, -, -, e50, e51⟩ := blockIndices0 t
  show (cfg0.win 5).cut (grid0.coords t) ((dat0 (F := Ideal) V c).after 5 t) = _
  rw [after0_5]
  funext y
  obtain ⟨p, q, rfl⟩ : ∃ (p : Fin 1024) (q : Fin 256), y = ix2 p q := ⟨y 0, y 1, eq_ix2 y⟩
  show fin0 V c t (ix2 p q) = hidden0 V c (((cfg0.win 5).blk t).view.emb (ix2 p q))
  rw [fin0_apply V c t h3 ⟨t.val / 172, by omega⟩ ⟨t.val / 4 % 43, by omega⟩ rfl rfl p q]
  refine congrArg (hidden0 V c) (funext fun a => Fin.ext ?_)
  match a with
  | ⟨0, _⟩ => show t.val / 172 * 1024 + p.val = win0_5.index t (0 : Fin 2) * 1024 + 1 * p.val; rw [e50]; omega
  | ⟨1, _⟩ => show t.val / 4 % 43 * 256 + q.val = win0_5.index t (1 : Fin 2) * 256 + 1 * q.val; rw [e51]; omega

/-- Every entry of the output array is in the block of some last step. -/
theorem covered0 (i : S8192x11008.Idx) :
    ∃ t : Fin cfg0.N, (cfg0.win 5).flush t = true ∧ i ∈ ((cfg0.win 5).blk t).view.set := by
  have hN : cfg0.N = 1376 := N_0
  have hr : (i 0).val < 8192 := (i 0).isLt
  have hf : (i 1).val < 11008 := (i 1).isLt
  let t : Fin cfg0.N := ⟨(i 0).val / 1024 * 172 + (i 1).val / 256 * 4 + 3, by rw [hN]; omega⟩
  have htv : t.val = (i 0).val / 1024 * 172 + (i 1).val / 256 * 4 + 3 := rfl
  obtain ⟨-, -, -, -, -, -, -, -, -, -, e50, e51⟩ := blockIndices0 t
  refine ⟨t, (flush0_5 t).mpr (by rw [htv]; omega), ?_⟩
  show i ∈ ((View.whole main_v8).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e50, htv]; omega
  | ⟨1, _⟩ =>
    show win0_5.index t (1 : Fin 2) * 256 ≤ (i 1).val ∧ (i 1).val < win0_5.index t (1 : Fin 2) * 256 + 256
    rw [e51, htv]; omega

/-- After the region the output array holds the hidden layer over per-entry scales. -/
theorem final0 (c : Dev nD) :
    (dat0 (F := Ideal) V c).arrAt 5 cfg0.N
      = Cert.Spec.hiddenFull (V c main_arg0) (V c main_arg1) (V c main_v3) (V c main_arg3) (V c main_arg4) :=
  (dat0 (F := Ideal) V c).arrAt_eq_of_cover 5 (hidden0 V c) (fun t hf => flushed0_eq V c t hf) (covered0)

end Value0

end Cert.KernelIdeal.Hand

end
-- ==== Proof.KI.Val1a.lean ====
/-
  The down projection's three step maps, entry by entry, over the extended reals.

  One reduction step holds a block of activations X (2048 × 256), the matching block of codes C and of scales S of the
  down weight (512 × 256 each, row q of the block being output column q), a block of the first low-rank factor
  A (256 × 16), and the two accumulators: acc (2048 × 512) and low (2048 × 16). A code word c stands for the table value
  nf4 c: the fifteen equality tests the step runs on it, from 15 down to 1, are the specification's own chain
  (`downCodeValue_word`). Read at an entry, the step is

      acc'[p, q] = acc[p, q] + Σ_d X[p, d] · (nf4 C[q, d] · S[q, d])          (`accStep1_apply`)
      low'[p, r] = low[p, r] + Σ_d X[p, d] · A[d, r]                          (`lowStep1_apply`)

  and the block's last step, with the second low-rank factor B (16 × 512), leaves

      out[p, q]  = acc[p, q] + Σ_r low[p, r] · B[r, q]                        (`finish1_apply`);

  the first step of a block starts both accumulators from 0 (`zeroAcc1_apply`, `zeroLow1_apply`). Changes between the
  short and the long float format, and a reshape to the same shape, do nothing to an extended real. Each of the three
  products contracts one axis; its sum over the contraction index is re-indexed by that axis's coordinate d (or r),
  the operand indices being (p, d) and (q, d) for the weight's product — which contracts the second axis of both
  operands — and (p, d), (d, r) resp. (p, r), (r, q) for the two low-rank ones.
-/
import proofs.«402316_j82248623718485_1_alg».proof.Proof.KI.Body1
import proofs.«402316_j82248623718485_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Mathlib.Algebra.BigOperators.Group.Finset.Basic

set_option maxRecDepth 16384

noncomputable section

open scoped BigOperators

namespace Cert.KernelIdeal.Hand

open Cert.KernelIdeal Cert.KernelIdeal.Gen
open Idealize.ShloMosaic Idealize.ShloMosaic.ValueIdx

/-! ## One code word -/

/-- A select on "the word is k" is the `if` on that equality. -/
theorem downSelect_eq_ite {α : Type} (c k : BitVec 32) (u v : α) :
    Scalar.select (IntOp.cmpi .eq c k) u v = if c = k then u else v := by
  by_cases h : c = k
  · rw [if_pos h, StableHlo.Predicate.cmpi_eq_iff.mpr h, select_one]
  · rw [if_neg h, eq_zero_of_ne_one (fun h1 => h (StableHlo.Predicate.cmpi_eq_iff.mp h1)), select_zero]

/-- The fifteen tests on one code word, from 15 down to 1, read the word's table value. -/
theorem downCodeValue_word (c : BitVec 32) :
    Scalar.select (IntOp.cmpi .eq c 15#32) (Ideal.ofBits .f32 0x3F800000#32)
      (Scalar.select (IntOp.cmpi .eq c 14#32) (Ideal.ofBits .f32 0x3F3913B3#32)
      (Scalar.select (IntOp.cmpi .eq c 13#32) (Ideal.ofBits .f32 0x3F1007AB#32)
      (Scalar.select (IntOp.cmpi .eq c 12#32) (Ideal.ofBits .f32 0x3EE1A4B8#32)
      (Scalar.select (IntOp.cmpi .eq c 11#32) (Ideal.ofBits .f32 0x3EAD033A#32)
      (Scalar.select (IntOp.cmpi .eq c 10#32) (Ideal.ofBits .f32 0x3E7C04DD#32)
      (Scalar.select (IntOp.cmpi .eq c 9#32) (Ideal.ofBits .f32 0x3E24CAE3#32)
      (Scalar.select (IntOp.cmpi .eq c 8#32) (Ideal.ofBits .f32 0x3DA2FAFF#32)
      (Scalar.select (IntOp.cmpi .eq c 7#32) (Ideal.ofBits .f32 0x00000000#32)
      (Scalar.select (IntOp.cmpi .eq c 6#32) (Ideal.ofBits .f32 0xBDBA7871#32)
      (Scalar.select (IntOp.cmpi .eq c 5#32) (Ideal.ofBits .f32 0xBE3D353F#32)
      (Scalar.select (IntOp.cmpi .eq c 4#32) (Ideal.ofBits .f32 0xBE91A24D#32)
      (Scalar.select (IntOp.cmpi .eq c 3#32) (Ideal.ofBits .f32 0xBECA32A0#32)
      (Scalar.select (IntOp.cmpi .eq c 2#32) (Ideal.ofBits .f32 0xBF066B30#32)
      (Scalar.select (IntOp.cmpi .eq c 1#32) (Ideal.ofBits .f32 0xBF3239B1#32)
        (Ideal.ofBits .f32 0xBF800000#32)))))))))))))))
      = Cert.Spec.nf4 c := by
  simp only [downSelect_eq_ite]
  rfl

/-! ## The main accumulator

The weight's product contracts axis 1 of both operands: its operand indices, axis by axis. -/

theorem downDot_lhs_0 (j : S2048x512.Idx) (k : dot_S2048x256_S512x256_S2048x512_1_1_0_0_n_n.contr.Idx) :
    (dot_S2048x256_S512x256_S2048x512_1_1_0_0_n_n.lhsIdx j k 0).val = (j 0).val := by
  unfold DotDims.lhsIdx
  rw [dif_neg (show ¬(0 : Fin S2048x256.rank) ∈ dot_S2048x256_S512x256_S2048x512_1_1_0_0_n_n.lhsBatch by decide),
    dif_pos (show (0 : Fin S2048x256.rank) ∈ dot_S2048x256_S512x256_S2048x512_1_1_0_0_n_n.lhsNonContracting by decide)]
  rfl

theorem downDot_lhs_1 (j : S2048x512.Idx) (k : dot_S2048x256_S512x256_S2048x512_1_1_0_0_n_n.contr.Idx) :
    (dot_S2048x256_S512x256_S2048x512_1_1_0_0_n_n.lhsIdx j k 1).val = (k ⟨0, by decide⟩).val :=
  dot_S2048x256_S512x256_S2048x512_1_1_0_0_n_n.lhsIdx_val_of_single (cl := 1) rfl j k

theorem downDot_rhs_0 (j : S2048x512.Idx) (k : dot_S2048x256_S512x256_S2048x512_1_1_0_0_n_n.contr.Idx) :
    (dot_S2048x256_S512x256_S2048x512_1_1_0_0_n_n.rhsIdx j k 0).val = (j 1).val := by
  unfold DotDims.rhsIdx
  rw [dif_neg (show ¬(0 : Fin S512x256.rank) ∈ dot_S2048x256_S512x256_S2048x512_1_1_0_0_n_n.rhsBatch by decide),
    dif_pos (show (0 : Fin S512x256.rank) ∈ dot_S2048x256_S512x256_S2048x512_1_1_0_0_n_n.rhsNonContracting by decide)]
  rfl

theorem downDot_rhs_1 (j : S2048x512.Idx) (k : dot_S2048x256_S512x256_S2048x512_1_1_0_0_n_n.contr.Idx) :
    (dot_S2048x256_S512x256_S2048x512_1_1_0_0_n_n.rhsIdx j k 1).val = (k ⟨0, by decide⟩).val :=
  dot_S2048x256_S512x256_S2048x512_1_1_0_0_n_n.rhsIdx_val_of_single (cr := 1) rfl j k

/-- At entry (p, q) and contracted coordinate d the weight's product reads the activations at (p, d) … -/
theorem downDot_lhsIdx (p : Fin 2048) (q : Fin 512) (d : Fin 256) :
    dot_S2048x256_S512x256_S2048x512_1_1_0_0_n_n.lhsIdx (ix2 p q)
      ((contrEquiv1 dot_S2048x256_S512x256_S2048x512_1_1_0_0_n_n 256 rfl rfl).symm d) = ix2 p d := by
  have hk := contrEquiv1_symm_val dot_S2048x256_S512x256_S2048x512_1_1_0_0_n_n 256 rfl rfl d
  funext ax; apply Fin.ext
  match ax with
  | ⟨0, _⟩ => exact downDot_lhs_0 _ _
  | ⟨1, _⟩ => exact (downDot_lhs_1 _ _).trans hk

/-- … and the dequantized block at (q, d). -/
theorem downDot_rhsIdx (p : Fin 2048) (q : Fin 512) (d : Fin 256) :
    dot_S2048x256_S512x256_S2048x512_1_1_0_0_n_n.rhsIdx (ix2 p q)
      ((contrEquiv1 dot_S2048x256_S512x256_S2048x512_1_1_0_0_n_n 256 rfl rfl).symm d) = ix2 q d := by
  have hk := contrEquiv1_symm_val dot_S2048x256_S512x256_S2048x512_1_1_0_0_n_n 256 rfl rfl d
  funext ax; apply Fin.ext
  match ax with
  | ⟨0, _⟩ => exact downDot_rhs_0 _ _
  | ⟨1, _⟩ => exact (downDot_rhs_1 _ _).trans hk

/-- The dequantized block times the activations: entry (p, q) sums, over the 256 contracted positions, the activation
    times the code's table value times the scale. -/
theorem dequantDot1_apply (v4 : FVec Ideal S2048x256 .bf16) (x1 : Vec Ideal S512x256 .i32) (v8 : FVec Ideal S512x256 .f32)
    (p : Fin 2048) (q : Fin 512) :
    k1_pay9 (F := Ideal) v4 x1 v8 (k1_pay8 x1) 7#32 (ix2 p q)
      = ∑ d : Fin 256, v4 (ix2 p d) * (Cert.Spec.nf4 (x1 (ix2 q d)) * v8 (ix2 q d)) := by
  unfold k1_pay9 k1_pay8
  refine (Ideal.matmul_constant_zero_apply dot_S2048x256_S512x256_S2048x512_1_1_0_0_n_n none v4 _ (ix2 p q)).trans ?_
  rw [← Equiv.sum_comp (contrEquiv1 dot_S2048x256_S512x256_S2048x512_1_1_0_0_n_n 256 rfl rfl).symm]
  refine Finset.sum_congr rfl fun d _ => ?_
  rw [downDot_lhsIdx p q d, downDot_rhsIdx p q d]
  exact congrArg (fun t => v4 (ix2 p d) * (t * v8 (ix2 q d))) (downCodeValue_word (x1 (ix2 q d)))

/-- The block of activations is taken as it is. -/
theorem activations1_eq (x0 : Vec Ideal S2048x256 .bf16) : k1_pay6 (F := Ideal) x0 = x0 :=
  shapeCast_self _ _

/-- The block of scales, widened, is the block of scales. -/
theorem scales1_apply (x2 : Vec Ideal S512x256 .bf16) (i : S512x256.Idx) : k1_pay7 (F := Ideal) x2 i = x2 i :=
  congrFun (shapeCast_self x2 shapeCasts_S512x256_S512x256) i

/-- ONE STEP OF THE MAIN ACCUMULATOR, entry (p, q): the accumulator plus, over the step's 256 contracted positions, the
    activation times the dequantized weight (the code's table value times its scale). -/
theorem accStep1_apply (x0 : Vec Ideal S2048x256 .bf16) (x1 : Vec Ideal S512x256 .i32) (x2 : Vec Ideal S512x256 .bf16)
    (a : Vec Ideal S2048x512 .f32) (p : Fin 2048) (q : Fin 512) :
    accStep1 (F := Ideal) x0 x1 x2 a (ix2 p q)
      = a (ix2 p q) + ∑ d : Fin 256, x0 (ix2 p d) * (Cert.Spec.nf4 (x1 (ix2 q d)) * x2 (ix2 q d)) := by
  unfold accStep1 k1_pay1
  refine (congrFun (shapeCast_self _ shapeCasts_S2048x512_S2048x512) (ix2 p q)).trans ?_
  refine congrArg (fun t => a (ix2 p q) + t) ?_
  refine (dequantDot1_apply _ x1 _ p q).trans ?_
  refine Finset.sum_congr rfl fun d _ => ?_
  rw [activations1_eq, scales1_apply]

/-! ## The low-rank accumulator and the finished block

The two low-rank products contract axis 1 of the left operand with axis 0 of the right one. -/

theorem downLowDot_lhs_0 (j : S2048x16.Idx) (k : dot_S2048x256_S256x16_S2048x16_1_0_0_1_n_n.contr.Idx) :
    (dot_S2048x256_S256x16_S2048x16_1_0_0_1_n_n.lhsIdx j k 0).val = (j 0).val := by
  unfold DotDims.lhsIdx
  rw [dif_neg (show ¬(0 : Fin S2048x256.rank) ∈ dot_S2048x256_S256x16_S2048x16_1_0_0_1_n_n.lhsBatch by decide),
    dif_pos (show (0 : Fin S2048x256.rank) ∈ dot_S2048x256_S256x16_S2048x16_1_0_0_1_n_n.lhsNonContracting by decide)]
  rfl

theorem downLowDot_lhs_1 (j : S2048x16.Idx) (k : dot_S2048x256_S256x16_S2048x16_1_0_0_1_n_n.contr.Idx) :
    (dot_S2048x256_S256x16_S2048x16_1_0_0_1_n_n.lhsIdx j k 1).val = (k ⟨0, by decide⟩).val :=
  dot_S2048x256_S256x16_S2048x16_1_0_0_1_n_n.lhsIdx_val_of_single (cl := 1) rfl j k

theorem downLowDot_rhs_0 (j : S2048x16.Idx) (k : dot_S2048x256_S256x16_S2048x16_1_0_0_1_n_n.contr.Idx) :
    (dot_S2048x256_S256x16_S2048x16_1_0_0_1_n_n.rhsIdx j k 0).val = (k ⟨0, by decide⟩).val :=
  dot_S2048x256_S256x16_S2048x16_1_0_0_1_n_n.rhsIdx_val_of_single (cr := 0) rfl j k

theorem downLowDot_rhs_1 (j : S2048x16.Idx) (k : dot_S2048x256_S256x16_S2048x16_1_0_0_1_n_n.contr.Idx) :
    (dot_S2048x256_S256x16_S2048x16_1_0_0_1_n_n.rhsIdx j k 1).val = (j 1).val := by
  unfold DotDims.rhsIdx
  rw [dif_neg (show ¬(1 : Fin S256x16.rank) ∈ dot_S2048x256_S256x16_S2048x16_1_0_0_1_n_n.rhsBatch by decide),
    dif_pos (show (1 : Fin S256x16.rank) ∈ dot_S2048x256_S256x16_S2048x16_1_0_0_1_n_n.rhsNonContracting by decide)]
  rfl

/-- At entry (p, r) and contracted coordinate d the first low-rank product reads the activations at (p, d) … -/
theorem downLowDot_lhsIdx (p : Fin 2048) (r : Fin 16) (d : Fin 256) :
    dot_S2048x256_S256x16_S2048x16_1_0_0_1_n_n.lhsIdx (ix2 p r)
      ((contrEquiv1 dot_S2048x256_S256x16_S2048x16_1_0_0_1_n_n 256 rfl rfl).symm d) = ix2 p d := by
  have hk := contrEquiv1_symm_val dot_S2048x256_S256x16_S2048x16_1_0_0_1_n_n 256 rfl rfl d
  funext ax; apply Fin.ext
  match ax with
  | ⟨0, _⟩ => exact downLowDot_lhs_0 _ _
  | ⟨1, _⟩ => exact (downLowDot_lhs_1 _ _).trans hk

/-- … and the first factor at (d, r). -/
theorem downLowDot_rhsIdx (p : Fin 2048) (r : Fin 16) (d : Fin 256) :
    dot_S2048x256_S256x16_S2048x16_1_0_0_1_n_n.rhsIdx (ix2 p r)
      ((contrEquiv1 dot_S2048x256_S256x16_S2048x16_1_0_0_1_n_n 256 rfl rfl).symm d) = ix2 d r := by
  have hk := contrEquiv1_symm_val dot_S2048x256_S256x16_S2048x16_1_0_0_1_n_n 256 rfl rfl d
  funext ax; apply Fin.ext
  match ax with
  | ⟨0, _⟩ => exact (downLowDot_rhs_0 _ _).trans hk
  | ⟨1, _⟩ => exact downLowDot_rhs_1 _ _

/-- ONE STEP OF THE LOW-RANK ACCUMULATOR, entry (p, r): the accumulator plus, over the step's 256 contracted positions,
    the activation times the first factor. -/
theorem lowStep1_apply (x0 : Vec Ideal S2048x256 .bf16) (x3 : Vec Ideal S256x16 .f32) (l : Vec Ideal S2048x16 .f32)
    (p : Fin 2048) (r : Fin 16) :
    lowStep1 (F := Ideal) x0 x3 l (ix2 p r) = l (ix2 p r) + ∑ d : Fin 256, x0 (ix2 p d) * x3 (ix2 d r) := by
  unfold lowStep1 k1_pay2
  refine (congrFun (shapeCast_self _ shapeCasts_S2048x16_S2048x16) (ix2 p r)).trans ?_
  refine congrArg (fun t => l (ix2 p r) + t) ?_
  refine (Ideal.matmul_constant_zero_apply dot_S2048x256_S256x16_S2048x16_1_0_0_1_n_n none _ _ (ix2 p r)).trans ?_
  rw [← Equiv.sum_comp (contrEquiv1 dot_S2048x256_S256x16_S2048x16_1_0_0_1_n_n 256 rfl rfl).symm]
  refine Finset.sum_congr rfl fun d _ => ?_
  rw [downLowDot_lhsIdx p r d, downLowDot_rhsIdx p r d, activations1_eq]
  rfl

/-! The last step's product of the low-rank accumulator with the second factor, likewise. -/

theorem downFinDot_lhs_0 (j : S2048x512.Idx) (k : dot_S2048x16_S16x512_S2048x512_1_0_0_1_n_n.contr.Idx) :
    (dot_S2048x16_S16x512_S2048x512_1_0_0_1_n_n.lhsIdx j k 0).val = (j 0).val := by
  unfold DotDims.lhsIdx
  rw [dif_neg (show ¬(0 : Fin S2048x16.rank) ∈ dot_S2048x16_S16x512_S2048x512_1_0_0_1_n_n.lhsBatch by decide),
    dif_pos (show (0 : Fin S2048x16.rank) ∈ dot_S2048x16_S16x512_S2048x512_1_0_0_1_n_n.lhsNonContracting by decide)]
  rfl

theorem downFinDot_lhs_1 (j : S2048x512.Idx) (k : dot_S2048x16_S16x512_S2048x512_1_0_0_1_n_n.contr.Idx) :
    (dot_S2048x16_S16x512_S2048x512_1_0_0_1_n_n.lhsIdx j k 1).val = (k ⟨0, by decide⟩).val :=
  dot_S2048x16_S16x512_S2048x512_1_0_0_1_n_n.lhsIdx_val_of_single (cl := 1) rfl j k

theorem downFinDot_rhs_0 (j : S2048x512.Idx) (k : dot_S2048x16_S16x512_S2048x512_1_0_0_1_n_n.contr.Idx) :
    (dot_S2048x16_S16x512_S2048x512_1_0_0_1_n_n.rhsIdx j k 0).val = (k ⟨0, by decide⟩).val :=
  dot_S2048x16_S16x512_S2048x512_1_0_0_1_n_n.rhsIdx_val_of_single (cr := 0) rfl j k

theorem downFinDot_rhs_1 (j : S2048x512.Idx) (k : dot_S2048x16_S16x512_S2048x512_1_0_0_1_n_n.contr.Idx) :
    (dot_S2048x16_S16x512_S2048x512_1_0_0_1_n_n.rhsIdx j k 1).val = (j 1).val := by
  unfold DotDims.rhsIdx
  rw [dif_neg (show ¬(1 : Fin S16x512.rank) ∈ dot_S2048x16_S16x512_S2048x512_1_0_0_1_n_n.rhsBatch by decide),
    dif_pos (show (1 : Fin S16x512.rank) ∈ dot_S2048x16_S16x512_S2048x512_1_0_0_1_n_n.rhsNonContracting by decide)]
  rfl

/-- At entry (p, q) and rank r the second low-rank product reads the low-rank accumulator at (p, r) … -/
theorem downFinDot_lhsIdx (p : Fin 2048) (q : Fin 512) (r : Fin 16) :
    dot_S2048x16_S16x512_S2048x512_1_0_0_1_n_n.lhsIdx (ix2 p q)
      ((contrEquiv1 dot_S2048x16_S16x512_S2048x512_1_0_0_1_n_n 16 rfl rfl).symm r) = ix2 p r := by
  have hk := contrEquiv1_symm_val dot_S2048x16_S16x512_S2048x512_1_0_0_1_n_n 16 rfl rfl r
  funext ax; apply Fin.ext
  match ax with
  | ⟨0, _⟩ => exact downFinDot_lhs_0 _ _
  | ⟨1, _⟩ => exact (downFinDot_lhs_1 _ _).trans hk

/-- … and the second factor at (r, q). -/
theorem downFinDot_rhsIdx (p : Fin 2048) (q : Fin 512) (r : Fin 16) :
    dot_S2048x16_S16x512_S2048x512_1_0_0_1_n_n.rhsIdx (ix2 p q)
      ((contrEquiv1 dot_S2048x16_S16x512_S2048x512_1_0_0_1_n_n 16 rfl rfl).symm r) = ix2 r q := by
  have hk := contrEquiv1_symm_val dot_S2048x16_S16x512_S2048x512_1_0_0_1_n_n 16 rfl rfl r
  funext ax; apply Fin.ext
  match ax with
  | ⟨0, _⟩ => exact (downFinDot_rhs_0 _ _).trans hk
  | ⟨1, _⟩ => exact downFinDot_rhs_1 _ _

/-- THE FINISHED BLOCK, entry (p, q): the main accumulator plus, over the 16 ranks, the low-rank accumulator times the
    second factor. -/
theorem finish1_apply (x4 : Vec Ideal S16x512 .f32) (l : Vec Ideal S2048x16 .f32) (a : Vec Ideal S2048x512 .f32)
    (p : Fin 2048) (q : Fin 512) :
    finish1 (F := Ideal) x4 l a (ix2 p q) = a (ix2 p q) + ∑ r : Fin 16, l (ix2 p r) * x4 (ix2 r q) := by
  unfold finish1 k1_pay3
  refine congrArg (fun t => a (ix2 p q) + t) ?_
  refine (Ideal.matmul_constant_zero_apply dot_S2048x16_S16x512_S2048x512_1_0_0_1_n_n none _ _ (ix2 p q)).trans ?_
  rw [← Equiv.sum_comp (contrEquiv1 dot_S2048x16_S16x512_S2048x512_1_0_0_1_n_n 16 rfl rfl).symm]
  refine Finset.sum_congr rfl fun r _ => ?_
  rw [downFinDot_lhsIdx p q r, downFinDot_rhsIdx p q r]
  rfl

/-! ## The first step's start -/

/-- The main accumulator restarts from zero. -/
theorem zeroAcc1_apply (j : S2048x512.Idx) : (k1_pay4 (F := Ideal)) j = 0 := by
  unfold k1_pay4
  refine (congrFun (shapeCast_self _ shapeCasts_S2048x512_S2048x512) j).trans ?_
  exact Ideal.ofBits_zero_f32

/-- The low-rank accumulator restarts from zero. -/
theorem zeroLow1_apply (j : S2048x16.Idx) : (k1_pay5 (F := Ideal)) j = 0 := by
  unfold k1_pay5
  refine (congrFun (shapeCast_self _ shapeCasts_S2048x16_S2048x16) j).trans ?_
  exact Ideal.ofBits_zero_f32

end Cert.KernelIdeal.Hand

end
-- ==== Proof.KI.Val1r.lean ====
/-
  The down region's input blocks, read at a global index.

  Point t of the grid is (token block i, output block j, contraction step k) with i = t / 344, j = t / 43 mod 8,
  k = t mod 43. The tokens' block at t is rows i·2048 … of the hidden array and columns k·256 …; the codes' and the
  scales' block is rows j·512 … and columns k·256 … of theirs; the first low-rank factor's block is rows k·256 … (all
  sixteen columns), the second's is columns j·512 … (all sixteen rows). The output block at t is rows i·2048 … and
  columns j·512 … of the result, so an entry (r, e) of the result lies in it exactly when r / 2048 = i and e / 512 = j.
-/
import proofs.«402316_j82248623718485_1_alg».proof.Proof.KI.Region1
import Idealize.ShloMosaic.Lib.ValueIdx
import Idealize.ShloMosaic.Lib.Pipeline.Value

set_option maxRecDepth 16384

noncomputable section

namespace Cert.KernelIdeal.Hand.Down

open Cert.KernelIdeal Cert.KernelIdeal.Gen Cert.KernelIdeal.Hand
open Idealize.ShloMosaic Idealize.ShloMosaic.TcCoe Idealize.ShloMosaic.ValueIdx

variable {F : FTy → Type} [FloatOps F]

/-! ## The printed index maps over the grid -/

/-- The tokens' window: block row i, block column k. -/
theorem idx1_0 : ∀ t : Fin cfg1.N, win1_0.index t (0 : Fin 2) = t.val / 344 ∧ win1_0.index t (1 : Fin 2) = t.val % 43 :=
  (by decide +kernel : ∀ t : Fin grid1.N, _)
/-- The codes' window: block row j, block column k. -/
theorem idx1_1 : ∀ t : Fin cfg1.N, win1_1.index t (0 : Fin 2) = t.val / 43 % 8 ∧ win1_1.index t (1 : Fin 2) = t.val % 43 :=
  (by decide +kernel : ∀ t : Fin grid1.N, _)
/-- The scales' window: block row j, block column k. -/
theorem idx1_2 : ∀ t : Fin cfg1.N, win1_2.index t (0 : Fin 2) = t.val / 43 % 8 ∧ win1_2.index t (1 : Fin 2) = t.val % 43 :=
  (by decide +kernel : ∀ t : Fin grid1.N, _)
/-- The first low-rank factor's window: block row k, the one block column. -/
theorem idx1_3 : ∀ t : Fin cfg1.N, win1_3.index t (0 : Fin 2) = t.val % 43 ∧ win1_3.index t (1 : Fin 2) = 0 :=
  (by decide +kernel : ∀ t : Fin grid1.N, _)
/-- The second low-rank factor's window: the one block row, block column j. -/
theorem idx1_4 : ∀ t : Fin cfg1.N, win1_4.index t (0 : Fin 2) = 0 ∧ win1_4.index t (1 : Fin 2) = t.val / 43 % 8 :=
  (by decide +kernel : ∀ t : Fin grid1.N, _)
/-- The output's window: block row i, block column j. -/
theorem idx1_5 : ∀ t : Fin cfg1.N, win1_5.index t (0 : Fin 2) = t.val / 344 ∧ win1_5.index t (1 : Fin 2) = t.val / 43 % 8 :=
  (by decide +kernel : ∀ t : Fin grid1.N, _)

/-! ## The blocks' global coordinates stay inside their arrays -/

/-- Row p of token block i is a row of the hidden array. -/
theorem tokRow_lt (t : Fin cfg1.N) (p : Fin 2048) : t.val / 344 * 2048 + p.val < 8192 := by
  have h := t.isLt; have hN : cfg1.N = 1376 := N_1; have hp := p.isLt; omega
/-- Position d of contraction step k is a contraction position. -/
theorem stepCol_lt (t : Fin cfg1.N) (d : Fin 256) : t.val % 43 * 256 + d.val < 11008 := by
  have hd := d.isLt; omega
/-- Row q of output block j is a row of the down weight. -/
theorem outCol_lt (t : Fin cfg1.N) (q : Fin 512) : t.val / 43 % 8 * 512 + q.val < 4096 := by
  have hq := q.isLt; omega

section Blocks

variable (V : (c : Dev nD) → (b : Ref sig .tc) → Buf (Elt F) ((c : Thread nD τ).loc b))

/-- The tokens' block at point t, entry (p, d): the hidden array at row i·2048 + p, column k·256 + d. -/
theorem tok1_apply (c : Dev nD) (t : Fin cfg1.N) (p : Fin 2048) (d : Fin 256) :
    tok1 V c t (ix2 p d) = V c main_v8 (ix2 ⟨t.val / 344 * 2048 + p.val, tokRow_lt t p⟩ ⟨t.val % 43 * 256 + d.val, stepCol_lt t d⟩) := by
  obtain ⟨e0, e1⟩ := idx1_0 t
  unfold tok1 iblk1
  show V c main_v8 (((cfg1.win 0).blk t).view.emb (ix2 p d)) = _
  refine congrArg _ (funext fun a => Fin.ext ?_)
  match a with
  | ⟨0, _⟩ => show win1_0.index t (0 : Fin 2) * 2048 + 1 * p.val = t.val / 344 * 2048 + p.val; rw [e0]; omega
  | ⟨1, _⟩ => show win1_0.index t (1 : Fin 2) * 256 + 1 * d.val = t.val % 43 * 256 + d.val; rw [e1]; omega

/-- The codes' block at point t, entry (q, d): the code array at row j·512 + q, column k·256 + d. -/
theorem cod1_apply (c : Dev nD) (t : Fin cfg1.N) (q : Fin 512) (d : Fin 256) :
    cod1 V c t (ix2 q d) = V c main_arg5 (ix2 ⟨t.val / 43 % 8 * 512 + q.val, outCol_lt t q⟩ ⟨t.val % 43 * 256 + d.val, stepCol_lt t d⟩) := by
  obtain ⟨e0, e1⟩ := idx1_1 t
  unfold cod1 iblk1
  show V c main_arg5 (((cfg1.win 1).blk t).view.emb (ix2 q d)) = _
  refine congrArg _ (funext fun a => Fin.ext ?_)
  match a with
  | ⟨0, _⟩ => show win1_1.index t (0 : Fin 2) * 512 + 1 * q.val = t.val / 43 % 8 * 512 + q.val; rw [e0]; omega
  | ⟨1, _⟩ => show win1_1.index t (1 : Fin 2) * 256 + 1 * d.val = t.val % 43 * 256 + d.val; rw [e1]; omega

/-- The scales' block at point t, entry (q, d): the scale array at row j·512 + q, column k·256 + d. -/
theorem scl1_apply (c : Dev nD) (t : Fin cfg1.N) (q : Fin 512) (d : Fin 256) :
    scl1 V c t (ix2 q d) = V c main_v7 (ix2 ⟨t.val / 43 % 8 * 512 + q.val, outCol_lt t q⟩ ⟨t.val % 43 * 256 + d.val, stepCol_lt t d⟩) := by
  obtain ⟨e0, e1⟩ := idx1_2 t
  unfold scl1 iblk1
  show V c main_v7 (((cfg1.win 2).blk t).view.emb (ix2 q d)) = _
  refine congrArg _ (funext fun a => Fin.ext ?_)
  match a with
  | ⟨0, _⟩ => show win1_2.index t (0 : Fin 2) * 512 + 1 * q.val = t.val / 43 % 8 * 512 + q.val; rw [e0]; omega
  | ⟨1, _⟩ => show win1_2.index t (1 : Fin 2) * 256 + 1 * d.val = t.val % 43 * 256 + d.val; rw [e1]; omega

/-- The first low-rank factor's block at point t, entry (d, r): the factor at row k·256 + d, column r. -/
theorem lra1_apply (c : Dev nD) (t : Fin cfg1.N) (d : Fin 256) (r : Fin 16) :
    lra1 V c t (ix2 d r) = V c main_arg7 (ix2 ⟨t.val % 43 * 256 + d.val, stepCol_lt t d⟩ r) := by
  obtain ⟨e0, e1⟩ := idx1_3 t
  unfold lra1 iblk1
  show V c main_arg7 (((cfg1.win 3).blk t).view.emb (ix2 d r)) = _
  refine congrArg _ (funext fun a => Fin.ext ?_)
  match a with
  | ⟨0, _⟩ => show win1_3.index t (0 : Fin 2) * 256 + 1 * d.val = t.val % 43 * 256 + d.val; rw [e0]; omega
  | ⟨1, _⟩ => show win1_3.index t (1 : Fin 2) * 16 + 1 * r.val = r.val; rw [e1]; omega

/-- The second low-rank factor's block at point t, entry (r, q): the factor at row r, column j·512 + q. -/
theorem lrb1_apply (c : Dev nD) (t : Fin cfg1.N) (r : Fin 16) (q : Fin 512) :
    lrb1 V c t (ix2 r q) = V c main_arg8 (ix2 r ⟨t.val / 43 % 8 * 512 + q.val, outCol_lt t q⟩) := by
  obtain ⟨e0, e1⟩ := idx1_4 t
  unfold lrb1 iblk1
  show V c main_arg8 (((cfg1.win 4).blk t).view.emb (ix2 r q)) = _
  refine congrArg _ (funext fun a => Fin.ext ?_)
  match a with
  | ⟨0, _⟩ => show win1_4.index t (0 : Fin 2) * 16 + 1 * r.val = r.val; rw [e0]; omega
  | ⟨1, _⟩ => show win1_4.index t (1 : Fin 2) * 512 + 1 * q.val = t.val / 43 % 8 * 512 + q.val; rw [e1]; omega

end Blocks

/-! ## The output block's entries -/

/-- An entry (r, e) of the result lies in the output block of point t exactly when its row is in token block i and its
    column in output block j. -/
theorem mem_blk1_5 (t : Fin cfg1.N) (r : Fin 8192) (e : Fin 4096) :
    (ix2 r e : S8192x4096.Idx) ∈ ((cfg1.win 5).blk t).view.set ↔ r.val / 2048 = t.val / 344 ∧ e.val / 512 = t.val / 43 % 8 := by
  obtain ⟨e0, e1⟩ := idx1_5 t
  show (ix2 r e : S8192x4096.Idx) ∈ ((View.whole main_v9).slice (win1_5.rect t)).set ↔ _
  rw [View.set_slice_whole, Rect.mem_set_unit]
  constructor
  · intro h
    have b0 : win1_5.index t (0 : Fin 2) * 2048 ≤ r.val ∧ r.val < win1_5.index t (0 : Fin 2) * 2048 + 2048 := h 0
    have b1 : win1_5.index t (1 : Fin 2) * 512 ≤ e.val ∧ e.val < win1_5.index t (1 : Fin 2) * 512 + 512 := h 1
    rw [e0] at b0; rw [e1] at b1
    omega
  · intro ⟨h0, h1⟩ a
    match a with
    | ⟨0, _⟩ =>
      show win1_5.index t (0 : Fin 2) * 2048 ≤ r.val ∧ r.val < win1_5.index t (0 : Fin 2) * 2048 + 2048
      rw [e0]; omega
    | ⟨1, _⟩ =>
      show win1_5.index t (1 : Fin 2) * 512 ≤ e.val ∧ e.val < win1_5.index t (1 : Fin 2) * 512 + 512
      rw [e1]; omega

end Cert.KernelIdeal.Hand.Down

end
-- ==== Proof.LibBlockSum.lean ====
/-
  Sums over an initial segment of the naturals, cut into consecutive blocks of equal length.

  The first K · B naturals are the disjoint union of the K blocks {k · B, …, k · B + B − 1}; a sum over them, in a
  commutative additive monoid, is therefore the sum over the blocks of the sums inside the blocks. The three statements
  give this for sums over ranges, for sums over finite index types, and one block at a time.
-/
import Mathlib.Algebra.BigOperators.Group.Finset.Basic
import Mathlib.Algebra.BigOperators.Fin
import Mathlib.Data.Fintype.BigOperators

namespace Cert.BlockSum

variable {M : Type*} [AddCommMonoid M]

/-- A sum over the first `K * B` naturals is the sum, over the `K` consecutive blocks of length `B`, of the sums
    inside the blocks: the term of index `d = k * B + j` is met once, in block `k` at place `j`. -/
theorem sum_range_mul (K B : ℕ) (g : ℕ → M) :
    ∑ d ∈ Finset.range (K * B), g d = ∑ k ∈ Finset.range K, ∑ j ∈ Finset.range B, g (k * B + j) := by
  induction K with
  | zero => simp
  | succ K ih => rw [Nat.add_mul, Nat.one_mul, Finset.sum_range_add, ih, Finset.sum_range_succ]

/-- The same over finite index types: a sum over `Fin N` with `N = K * B` is the sum over the `K` blocks of the sums
    over the `B` places of a block. -/
theorem sum_fin_mul (K B N : ℕ) (hN : K * B = N) (g : ℕ → M) :
    ∑ d : Fin N, g d.val = ∑ k ∈ Finset.range K, ∑ j : Fin B, g (k * B + j.val) := by
  subst hN
  rw [Fin.sum_univ_eq_sum_range (fun d => g d) (K * B), sum_range_mul]
  exact Finset.sum_congr rfl fun k _ => (Fin.sum_univ_eq_sum_range (fun j => g (k * B + j)) B).symm

/-- One block at a time: the sum over the first `k + 1` blocks is the sum over the first `k` blocks plus the sum inside
    block `k`. -/
theorem sum_range_succ_blocks (B : ℕ) (g : ℕ → M) (k : ℕ) :
    ∑ k' ∈ Finset.range (k + 1), ∑ j : Fin B, g (k' * B + j.val)
      = (∑ k' ∈ Finset.range k, ∑ j : Fin B, g (k' * B + j.val)) + ∑ j : Fin B, g (k * B + j.val) :=
  Finset.sum_range_succ _ k

end Cert.BlockSum
-- ==== Proof.KI.Val1b.lean ====
/-
  What the down projection's region leaves in its output array, over the extended reals.

  Grid point t has token block i = t / 344, output block j = t / 43 mod 8 and reduction step k = t mod 43. Within a group
  of 43 points the main accumulator, at row p and column q of its block, holds after step k the sum over the first
  (k + 1) · 256 contraction positions f of  h[i·2048 + p, f] · (nf4(code[j·512 + q, f]) · scale[j·512 + q, f]),  and the
  low-rank accumulator the sum of  h[i·2048 + p, f] · A[f, r]  over the same positions: the first step starts from zero,
  every later step adds one block of 256 positions. The last step adds the low-rank accumulator times the block of the
  second factor; the 43 blocks of 256 positions are the 11008 positions of the full contraction, so the block written
  back is the block of the down projection, and the written blocks tile the output array.
-/
import proofs.«402316_j82248623718485_1_alg».proof.Proof.KI.Region1
import proofs.«402316_j82248623718485_1_alg».proof.Proof.KI.Val1a
import proofs.«402316_j82248623718485_1_alg».proof.Proof.KI.Val1r
import proofs.«402316_j82248623718485_1_alg».proof.Proof.SpecFull
import proofs.«402316_j82248623718485_1_alg».proof.Proof.LibBlockSum
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand.Down

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays, and where a point's blocks lie in them -/

/-- The five arrays the region reads, as it finds them: the hidden array, the codes and per-entry scales of the down
    weight, the two low-rank factors. -/
abbrev hid (c : Dev nD) : (⟨2, ![8192, 11008]⟩ : Shape).Idx → EReal := V c main_v8
abbrev cdw (c : Dev nD) : (⟨2, ![4096, 11008]⟩ : Shape).Idx → BitVec 32 := V c main_arg5
abbrev scw (c : Dev nD) : (⟨2, ![4096, 11008]⟩ : Shape).Idx → EReal := V c main_v7
abbrev lfa (c : Dev nD) : (⟨2, ![11008, 16]⟩ : Shape).Idx → EReal := V c main_arg7
abbrev lfb (c : Dev nD) : (⟨2, ![16, 4096]⟩ : Shape).Idx → EReal := V c main_arg8

/-- The row of the hidden and of the output array under row `p` of point `t`'s token block. -/
abbrev gRow (t : Fin cfg1.N) (p : Fin 2048) : Fin 8192 := ⟨t.val / 344 * 2048 + p.val, tokRow_lt t p⟩
/-- The row of the weight, and column of the output array, under row `q` of point `t`'s weight block. -/
abbrev gCol (t : Fin cfg1.N) (q : Fin 512) : Fin 4096 := ⟨t.val / 43 % 8 * 512 + q.val, outCol_lt t q⟩

/-- The main product's term at contraction position `f` (zero past the last position). -/
def mainTerm (c : Dev nD) (r : Fin 8192) (e : Fin 4096) (f : ℕ) : EReal :=
  if h : f < 11008 then hid V c (ix2 r ⟨f, h⟩) * (Cert.Spec.nf4 (cdw V c (ix2 e ⟨f, h⟩)) * scw V c (ix2 e ⟨f, h⟩)) else 0
/-- The low-rank product's term at contraction position `f` (zero past the last position). -/
def lowTerm (c : Dev nD) (r : Fin 8192) (s : Fin 16) (f : ℕ) : EReal :=
  if h : f < 11008 then hid V c (ix2 r ⟨f, h⟩) * lfa V c (ix2 ⟨f, h⟩ s) else 0

/-! ## One step -/

/-- One step of the main accumulator at an element: one more block of 256 terms. -/
theorem step1_fst_apply (c : Dev nD) (t : Fin cfg1.N) (s : Vec Ideal S2048x512 .f32 × Vec Ideal S2048x16 .f32)
    (p : Fin 2048) (q : Fin 512) :
    (step1 V c t s).1 (ix2 p q)
      = s.1 (ix2 p q) + ∑ d : Fin 256, mainTerm V c (gRow t p) (gCol t q) (t.val % 43 * 256 + d.val) := by
  refine (accStep1_apply (tok1 V c t) (cod1 V c t) (scl1 V c t) s.1 p q).trans
    (congrArg (s.1 (ix2 p q) + ·) (Finset.sum_congr rfl fun d _ => ?_))
  rw [tok1_apply V c t p d, cod1_apply V c t q d, scl1_apply V c t q d]
  unfold mainTerm
  rw [dif_pos (stepCol_lt t d)]

/-- One step of the low-rank accumulator at an element. -/
theorem step1_snd_apply (c : Dev nD) (t : Fin cfg1.N) (s : Vec Ideal S2048x512 .f32 × Vec Ideal S2048x16 .f32)
    (p : Fin 2048) (r : Fin 16) :
    (step1 V c t s).2 (ix2 p r)
      = s.2 (ix2 p r) + ∑ d : Fin 256, lowTerm V c (gRow t p) r (t.val % 43 * 256 + d.val) := by
  refine (lowStep1_apply (tok1 V c t) (lra1 V c t) s.2 p r).trans
    (congrArg (s.2 (ix2 p r) + ·) (Finset.sum_congr rfl fun d _ => ?_))
  rw [tok1_apply V c t p d, lra1_apply V c t d r]
  unfold lowTerm
  rw [dif_pos (stepCol_lt t d)]

/-! ## The accumulators within a group of 43 points -/

/-- Points of one group share their token block and their output block. -/
theorem gRow_pred (n : ℕ) (hn : n + 1 < cfg1.N) (h0 : ¬(n + 1) % 43 = 0) (p : Fin 2048) :
    gRow ⟨n, Nat.lt_of_succ_lt hn⟩ p = gRow ⟨n + 1, hn⟩ p := Fin.ext (by show n / 344 * 2048 + p.val = (n + 1) / 344 * 2048 + p.val; omega)
theorem gCol_pred (n : ℕ) (hn : n + 1 < cfg1.N) (h0 : ¬(n + 1) % 43 = 0) (q : Fin 512) :
    gCol ⟨n, Nat.lt_of_succ_lt hn⟩ q = gCol ⟨n + 1, hn⟩ q := Fin.ext (by show n / 43 % 8 * 512 + q.val = (n + 1) / 43 % 8 * 512 + q.val; omega)

/-- What the two accumulators hold after point `t`, step `t mod 43` of its group: the first `t mod 43 + 1` blocks of
    256 terms of the two products. -/
def AccInv (c : Dev nD) (t : Fin cfg1.N) : Prop :=
  (∀ (p : Fin 2048) (q : Fin 512), (scr1 V c t.val t.isLt).1 (ix2 p q)
      = ∑ k ∈ Finset.range (t.val % 43 + 1), ∑ d : Fin 256, mainTerm V c (gRow t p) (gCol t q) (k * 256 + d.val))
  ∧ (∀ (p : Fin 2048) (r : Fin 16), (scr1 V c t.val t.isLt).2 (ix2 p r)
      = ∑ k ∈ Finset.range (t.val % 43 + 1), ∑ d : Fin 256, lowTerm V c (gRow t p) r (k * 256 + d.val))

/-- A first step: from zero, one block of terms. -/
theorem accInv_first (c : Dev nD) (t : Fin cfg1.N) (h0 : t.val % 43 = 0) : AccInv V c t := by
  have hs : scr1 V c t.val t.isLt = step1 V c t (k1_pay4 (F := Ideal), k1_pay5 (F := Ideal)) := scr1_first V c t h0
  refine ⟨fun p q => ?_, fun p r => ?_⟩
  · rw [hs, step1_fst_apply V c t _ p q]
    show k1_pay4 (F := Ideal) (ix2 p q) + _ = _
    rw [zeroAcc1_apply, zero_add, h0]
    exact (Finset.sum_range_one (fun k => ∑ d : Fin 256, mainTerm V c (gRow t p) (gCol t q) (k * 256 + d.val))).symm
  · rw [hs, step1_snd_apply V c t _ p r]
    show k1_pay5 (F := Ideal) (ix2 p r) + _ = _
    rw [zeroLow1_apply, zero_add, h0]
    exact (Finset.sum_range_one (fun k => ∑ d : Fin 256, lowTerm V c (gRow t p) r (k * 256 + d.val))).symm

/-- After every point the accumulators hold the blocks of terms of the steps of its group so far. -/
theorem accInv (c : Dev nD) : ∀ (n : ℕ) (hn : n < cfg1.N), AccInv V c ⟨n, hn⟩ := by
  intro n
  induction n with
  | zero => exact fun hn => accInv_first V c ⟨0, hn⟩ rfl
  | succ n ih =>
    intro hn
    by_cases h0 : (n + 1) % 43 = 0
    · exact accInv_first V c ⟨n + 1, hn⟩ h0
    · have hs : scr1 V c (n + 1) hn = step1 V c ⟨n + 1, hn⟩ (scr1 V c n (Nat.lt_of_succ_lt hn)) := scr1_next V c ⟨n + 1, hn⟩ h0
      have hk : n % 43 + 1 = (n + 1) % 43 := by omega
      obtain ⟨ih1, ih2⟩ := ih (Nat.lt_of_succ_lt hn)
      refine ⟨fun p q => ?_, fun p r => ?_⟩
      · show (scr1 V c (n + 1) hn).1 (ix2 p q) = _
        rw [hs, step1_fst_apply V c ⟨n + 1, hn⟩ _ p q]
        refine (congrArg (· + _) ((ih1 p q).trans ?_)).trans
          (Finset.sum_range_succ (fun k => ∑ d : Fin 256, mainTerm V c (gRow ⟨n + 1, hn⟩ p) (gCol ⟨n + 1, hn⟩ q) (k * 256 + d.val)) ((n + 1) % 43)).symm
        show ∑ k ∈ Finset.range (n % 43 + 1), ∑ d : Fin 256, mainTerm V c (gRow ⟨n, Nat.lt_of_succ_lt hn⟩ p) (gCol ⟨n, Nat.lt_of_succ_lt hn⟩ q) (k * 256 + d.val) = _
        rw [gRow_pred n hn h0 p, gCol_pred n hn h0 q, hk]
      · show (scr1 V c (n + 1) hn).2 (ix2 p r) = _
        rw [hs, step1_snd_apply V c ⟨n + 1, hn⟩ _ p r]
        refine (congrArg (· + _) ((ih2 p r).trans ?_)).trans
          (Finset.sum_range_succ (fun k => ∑ d : Fin 256, lowTerm V c (gRow ⟨n + 1, hn⟩ p) r (k * 256 + d.val)) ((n + 1) % 43)).symm
        show ∑ k ∈ Finset.range (n % 43 + 1), ∑ d : Fin 256, lowTerm V c (gRow ⟨n, Nat.lt_of_succ_lt hn⟩ p) r (k * 256 + d.val) = _
        rw [gRow_pred n hn h0 p, hk]

/-! ## The finished block -/

/-- The 43 blocks of 256 positions are the 11008 positions of the full contraction: the main product … -/
theorem mainTerm_total (c : Dev nD) (r : Fin 8192) (e : Fin 4096) :
    ∑ k ∈ Finset.range 43, ∑ d : Fin 256, mainTerm V c r e (k * 256 + d.val)
      = ∑ f : Fin 11008, hid V c (ix2 r f) * (Cert.Spec.nf4 (cdw V c (ix2 e f)) * scw V c (ix2 e f)) := by
  rw [← Cert.BlockSum.sum_fin_mul 43 256 11008 rfl (mainTerm V c r e)]
  refine Finset.sum_congr rfl fun f _ => ?_
  unfold mainTerm
  rw [dif_pos f.isLt]
/-- … and the low-rank product. -/
theorem lowTerm_total (c : Dev nD) (r : Fin 8192) (s : Fin 16) :
    ∑ k ∈ Finset.range 43, ∑ d : Fin 256, lowTerm V c r s (k * 256 + d.val)
      = ∑ f : Fin 11008, hid V c (ix2 r f) * lfa V c (ix2 f s) := by
  rw [← Cert.BlockSum.sum_fin_mul 43 256 11008 rfl (lowTerm V c r s)]
  refine Finset.sum_congr rfl fun f _ => ?_
  unfold lowTerm
  rw [dif_pos f.isLt]

/-- The block a last step finishes is the block of the down projection. -/
theorem fin1_apply (c : Dev nD) (t : Fin cfg1.N) (h : t.val % 43 = 42) (p : Fin 2048) (q : Fin 512) :
    fin1 V c t (ix2 p q)
      = Cert.Spec.outFull (hid V c) (cdw V c) (scw V c) (lfa V c) (lfb V c) (ix2 (gRow t p) (gCol t q)) := by
  obtain ⟨i1, i2⟩ := accInv V c t.val t.isLt
  have e1 : (scr1 V c t.val t.isLt).1 (ix2 p q)
      = ∑ k ∈ Finset.range 43, ∑ d : Fin 256, mainTerm V c (gRow t p) (gCol t q) (k * 256 + d.val) := by
    have := i1 p q; rw [show (⟨t.val, t.isLt⟩ : Fin cfg1.N).val % 43 = 42 from h] at this; exact this
  have e2 : ∀ r : Fin 16, (scr1 V c t.val t.isLt).2 (ix2 p r)
      = ∑ k ∈ Finset.range 43, ∑ d : Fin 256, lowTerm V c (gRow t p) r (k * 256 + d.val) := fun r => by
    have := i2 p r; rw [show (⟨t.val, t.isLt⟩ : Fin cfg1.N).val % 43 = 42 from h] at this; exact this
  unfold fin1
  refine (finish1_apply (lrb1 V c t) (scr1 V c t.val t.isLt).2 (scr1 V c t.val t.isLt).1 p q).trans ?_
  show _ = (∑ f : Fin 11008, hid V c (ix2 (gRow t p) f) * (Cert.Spec.nf4 (cdw V c (ix2 (gCol t q) f)) * scw V c (ix2 (gCol t q) f)))
    + ∑ r : Fin 16, (∑ f : Fin 11008, hid V c (ix2 (gRow t p) f) * lfa V c (ix2 f r)) * lfb V c (ix2 r (gCol t q))
  rw [e1, mainTerm_total]
  refine congrArg _ (Finset.sum_congr rfl fun r _ => ?_)
  rw [e2 r, lowTerm_total, lrb1_apply V c t r q]

/-! ## From the blocks to the array -/

/-- What a last step writes back is its block of the down projection. -/
theorem flushed1_eq (c : Dev nD) (t : Fin cfg1.N) (hf : (cfg1.win 5).flush t = true) :
    (dat1 V c).flushed 5 t
      = ((cfg1.win 5).blk t).view.read (Elt Ideal) (Cert.Spec.outFull (hid V c) (cdw V c) (scw V c) (lfa V c) (lfb V c)) := by
  have h42 : t.val % 43 = 42 := (flush1_5 t).mp hf
  show (cfg1.win 5).cut (grid1.coords t) ((dat1 V c).after 5 t) = _
  rw [after1_5]
  funext j
  obtain ⟨p, q, rfl⟩ : ∃ (p : Fin 2048) (q : Fin 512), j = ix2 p q := ⟨j 0, j 1, eq_ix2 j⟩
  show fin1 V c t (ix2 p q)
    = Cert.Spec.outFull (hid V c) (cdw V c) (scw V c) (lfa V c) (lfb V c) (((cfg1.win 5).blk t).view.emb (ix2 p q))
  rw [fin1_apply V c t h42 p q]
  refine congrArg _ (funext fun a => Fin.ext ?_).symm
  obtain ⟨e0, e1⟩ := idx1_5 t
  match a with
  | ⟨0, _⟩ => show win1_5.index t (0 : Fin 2) * 2048 + 1 * p.val = t.val / 344 * 2048 + p.val; rw [e0]; omega
  | ⟨1, _⟩ => show win1_5.index t (1 : Fin 2) * 512 + 1 * q.val = t.val / 43 % 8 * 512 + q.val; rw [e1]; omega

/-- Every entry of the output array is in the block some last step writes back. -/
theorem covered1 (i : (⟨2, ![8192, 4096]⟩ : Shape).Idx) :
    ∃ t : Fin cfg1.N, (cfg1.win 5).flush t = true ∧ i ∈ ((cfg1.win 5).blk t).view.set := by
  have hN : cfg1.N = 1376 := N_1
  obtain ⟨r, e, rfl⟩ : ∃ (r : Fin 8192) (e : Fin 4096), i = ix2 r e := ⟨i 0, i 1, eq_ix2 i⟩
  have hr := r.isLt
  have he := e.isLt
  refine ⟨⟨r.val / 2048 * 344 + e.val / 512 * 43 + 42, by omega⟩, (flush1_5 _).mpr (by show (r.val / 2048 * 344 + e.val / 512 * 43 + 42) % 43 = 42; omega), ?_⟩
  rw [mem_blk1_5]
  show r.val / 2048 = (r.val / 2048 * 344 + e.val / 512 * 43 + 42) / 344 ∧ e.val / 512 = (r.val / 2048 * 344 + e.val / 512 * 43 + 42) / 43 % 8
  omega

/-- The output array after the region: the down projection of the arrays the region found. -/
theorem final1 (c : Dev nD) :
    (dat1 (F := Ideal) V c).arrAt 5 cfg1.N
      = Cert.Spec.outFull (V c main_v8) (V c main_arg5) (V c main_v7) (V c main_arg7) (V c main_arg8) :=
  (dat1 V c).arrAt_eq_of_cover 5 (Cert.Spec.outFull (hid V c) (cdw V c) (scw V c) (lfa V c) (lfb V c))
    (fun t ht => flushed1_eq V c t ht) (fun i => covered1 i)

end Cert.KernelIdeal.Hand.Down

end
-- ==== Proof.KI.Value.lean ====
/-
  The result array, as a function of the arguments: the second pipeline's output window ends at the down projection of
  what it found in its token array, which is what the first pipeline's output window ended at — the hidden layer of the
  arguments —, the per-entry scales being each block's scale repeated, and every other array an argument unchanged.
-/
import proofs.«402316_j82248623718485_1_alg».proof.Proof.KI.Run
import proofs.«402316_j82248623718485_1_alg».proof.Proof.KI.HostVal
import proofs.«402316_j82248623718485_1_alg».proof.Proof.SpecFull
import proofs.«402316_j82248623718485_1_alg».proof.Proof.KI.Val0b
import proofs.«402316_j82248623718485_1_alg».proof.Proof.KI.Val1b

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first region finds every argument as launched: the host operations write none. -/
theorem Vr1_arg (c : Dev nD) (r : Ref sig .tc) (h : r ∉ hostW) : Vr1 m c r = m ((c.tc : Thread nD τ).loc r) :=
  W1_of m c r h

/-- The first pipeline's output array ends at the hidden layer of the arguments. -/
theorem hidden_val (c : Dev nD) :
    Vr2 m c main_v8 = Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show Vr2 m c main_v8 = (dat0 (Vr1 m) c).arrAt 5 cfg0.N from W2_main_v8 m c, final0,
    Cert.Spec.hiddenFull_eq _ _ _ (m ((c.tc : Thread nD τ).loc main_arg2)) _ _ (fun f d => scalesUp_apply (W0 m c) f d),
    Vr1_arg m c main_arg0 (by decide), Vr1_arg m c main_arg1 (by decide), Vr1_arg m c main_arg3 (by decide),
    Vr1_arg m c main_arg4 (by decide)]

/-- The second region finds, beside the hidden array, the down weight's codes and factors as launched and its per-entry
    scales as the host operations left them. -/
theorem Vr2_arg (c : Dev nD) (r : Ref sig .tc) (h0 : ∀ w, Pipeline.arrRef spec0 w ≠ r) (h : r ∉ hostW) :
    Vr2 m c r = m ((c.tc : Thread nD τ).loc r) :=
  (W2_of_ne m c r h0).trans (W1_of m c r h)

/-- The result array ends at the specification's value of the arguments. -/
theorem out_val (c : Dev nD) :
    W3 m c (Proc.devRef .tc main_v9) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) := by
  rw [W3_main_v9 m c, Down.final1, hidden_val m c,
    Cert.Spec.outFull_eq _ _ _ (m ((c.tc : Thread nD τ).loc main_arg6)) _ _ (fun e f => by
      rw [show Vr2 m c main_v7 = Vr1 m c main_v7 from W2_of_ne m c main_v7 (by decide)]
      exact scalesDown_apply (W0 m c) e f),
    Vr2_arg m c main_arg5 (by decide) (by decide), Vr2_arg m c main_arg7 (by decide) (by decide),
    Vr2_arg m c main_arg8 (by decide) (by decide)]
  rfl

/-- The idealized program runs to the end, nothing faulting; its result array ends at the specification's value of the
    arguments and every argument array as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v9) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (out_val m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩)
    (run_all m ρ)

end Cert.KernelIdeal.Hand

end
-- ==== Proof.RefStages.lean ====
/-
  The reference computation as a composition of a few named stages, each a pure function of the argument arrays:

    tab        the sixteen-entry table of code values;
    refIdx c   the flat codes as table rows: a negative code plus sixteen, in a trailing axis of length one;
    refW c s   the dequantized flat weight: the table entry of each code times its block's scale, the scale
               array repeated 64 times along a new minor axis and flattened;
    refY1      the up projection  x · Wupᵀ + (x · A1) · B1,  Wup the flat weight at shape 11008 × 4096;
    refSilu y  y · (1 / (1 + exp (−y))), elementwise;
    refHidden  refSilu of refY1;
    refTerm    the down projection  h · Wdownᵀ + (h · A2) · B2  of the hidden array h.
-/
import proofs.«402316_j82248623718485_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The stages -/

/-- The sixteen code values, in the order of the codes. -/
def tab : FVec F S16 .f32 := fun i => FloatOps.ofBits .f32 (lit0 (S16.rowMajor i))

/-- The flat codes as table rows: a negative code is read sixteen higher; one trailing axis of length one. -/
def refIdx (c : IVec S45088768 32) : IVec S45088768x1 32 :=
  broadcastInDim S45088768x1 ![0] bcast_S45088768_S45088768x1_0
    (select (cmpi .slt c (broadcastInDim S45088768 ![] bcast_S_S45088768 (constantI S_ 32 0#32)))
      (addi c (broadcastInDim S45088768 ![] bcast_S_S45088768 (constantI S_ 32 16#32))) c)

/-- The dequantized flat weight: each code's table entry times the scale of its block of 64. -/
def refW (c : IVec S45088768 32) (s : FVec F S704512 .f32) : FVec F S45088768 .f32 :=
  mulf (Host.gather gather_S16_S45088768x1_S45088768_n_0_n_n_0_1_1 (tab (F := F)) (refIdx c))
    (shapeCast S45088768 (broadcastInDim S704512x64 ![0] bcast_S704512_S704512x64_0 s) shapeCasts_S704512x64_S45088768)

/-- The up projection before the activation. -/
def refY1 (a0 : FVec F S8192x4096 .f32) (a1 : IVec S11008x4096 32) (a2 : FVec F S704512 .f32)
    (a3 : FVec F S4096x16 .f32) (a4 : FVec F S16x11008 .f32) : FVec F S8192x11008 .f32 :=
  addf
    (Host.dotGeneral dot_S8192x4096_S4096x11008_S8192x11008_1_0_0_1_n_n none a0
      (transpose S4096x11008 [1, 0]
        (shapeCast S11008x4096 (refW (shapeCast S45088768 a1 shapeCasts_S11008x4096_S45088768) a2)
          shapeCasts_S45088768_S11008x4096)
        transposes_S11008x4096_S4096x11008_1_0))
    (Host.dotGeneral dot_S8192x16_S16x11008_S8192x11008_1_0_0_1_n_n none
      (Host.dotGeneral dot_S8192x4096_S4096x16_S8192x16_1_0_0_1_n_n none a0 a3) a4)

/-- The activation: y times one over one plus the exponential of minus y. -/
def refSilu (y : FVec F S8192x11008 .f32) : FVec F S8192x11008 .f32 :=
  mulf y
    (Host.divf (broadcastInDim S8192x11008 ![] bcast_S_S8192x11008 (constant S_ .f32 0x3F800000#32))
      (addf (broadcastInDim S8192x11008 ![] bcast_S_S8192x11008 (constant S_ .f32 0x3F800000#32))
        (Host.exp (Host.negf y))))

/-- The hidden array. -/
def refHidden (a0 : FVec F S8192x4096 .f32) (a1 : IVec S11008x4096 32) (a2 : FVec F S704512 .f32)
    (a3 : FVec F S4096x16 .f32) (a4 : FVec F S16x11008 .f32) : FVec F S8192x11008 .f32 :=
  refSilu (refY1 a0 a1 a2 a3 a4)

/-- The result: the down projection of the hidden array. -/
def refTerm (a0 : FVec F S8192x4096 .f32) (a1 : IVec S11008x4096 32) (a2 : FVec F S704512 .f32)
    (a3 : FVec F S4096x16 .f32) (a4 : FVec F S16x11008 .f32) (a5 : IVec S4096x11008 32) (a6 : FVec F S704512 .f32)
    (a7 : FVec F S11008x16 .f32) (a8 : FVec F S16x4096 .f32) : FVec F S8192x4096 .f32 :=
  addf
    (Host.dotGeneral dot_S8192x11008_S11008x4096_S8192x4096_1_0_0_1_n_n none (refHidden a0 a1 a2 a3 a4)
      (transpose S11008x4096 [1, 0]
        (shapeCast S4096x11008 (refW (shapeCast S45088768 a5 shapeCasts_S4096x11008_S45088768) a6)
          shapeCasts_S45088768_S4096x11008)
        transposes_S4096x11008_S11008x4096_1_0))
    (Host.dotGeneral dot_S8192x16_S16x4096_S8192x4096_1_0_0_1_n_n none
      (Host.dotGeneral dot_S8192x11008_S11008x16_S8192x16_1_0_0_1_n_n none (refHidden a0 a1 a2 a3 a4) a7) a8)

end Cert.ReferenceIdeal.Hand

end
-- ==== Proof.RefRun.lean ====
/-
  The reference program's run. The program is a straight line of 48 operations (the activation's nine written out at
  its one call); after them the result buffer holds the composed stages of RefStages.lean — `refTerm` of the nine
  arguments' contents — and no operation writes an argument buffer.

  `run`: every weakly fair execution of the program terminates with the result buffer at `refTerm` of the
  arguments' launch contents and the nine argument buffers unchanged.
-/
import proofs.«402316_j82248623718485_1_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The program as a list of operations -/

/-- The program's 48 operations in order: twenty up to the sum before the activation, the activation's nine over
    the buffers of its one call, nineteen after. -/
abbrev ops : List (HloOp τ sig (Elt F)) :=
  [
    nullary main_cst (fun i => FloatOps.ofBits .f32 (lit0 (S16.rowMajor i))),
    reshape main_arg1 main_v0 rfl shapeCasts_S11008x4096_S45088768,
    nullary main_c (constantI S_ 32 0#32),
    unary main_c main_v1 (broadcastInDim S45088768 ![] bcast_S_S45088768 : (⟨S_, .i32⟩ : BufTy).Contents (Elt F) → (⟨S45088768, .i32⟩ : BufTy).Contents (Elt F)),
    binary main_v0 main_v1 main_v2 (cmpi .slt : (⟨S45088768, .i32⟩ : BufTy).Contents (Elt F) → (⟨S45088768, .i32⟩ : BufTy).Contents (Elt F) → (⟨S45088768, .i1⟩ : BufTy).Contents (Elt F)),
    nullary main_c_0 (constantI S_ 32 16#32),
    unary main_c_0 main_v3 (broadcastInDim S45088768 ![] bcast_S_S45088768 : (⟨S_, .i32⟩ : BufTy).Contents (Elt F) → (⟨S45088768, .i32⟩ : BufTy).Contents (Elt F)),
    binary main_v0 main_v3 main_v4 (addi : (⟨S45088768, .i32⟩ : BufTy).Contents (Elt F) → (⟨S45088768, .i32⟩ : BufTy).Contents (Elt F) → (⟨S45088768, .i32⟩ : BufTy).Contents (Elt F)),
    ternary main_v2 main_v4 main_v0 main_v5 (select : (⟨S45088768, .i1⟩ : BufTy).Contents (Elt F) → (⟨S45088768, .i32⟩ : BufTy).Contents (Elt F) → (⟨S45088768, .i32⟩ : BufTy).Contents (Elt F) → (⟨S45088768, .i32⟩ : BufTy).Contents (Elt F)),
    unary main_v5 main_v6 (broadcastInDim S45088768x1 ![0] bcast_S45088768_S45088768x1_0 : (⟨S45088768, .i32⟩ : BufTy).Contents (Elt F) → (⟨S45088768x1, .i32⟩ : BufTy).Contents (Elt F)),
    binary main_cst main_v6 main_v7 ((fun x i => Host.gather gather_S16_S45088768x1_S45088768_n_0_n_n_0_1_1 x i) : (⟨S16, .f32⟩ : BufTy).Contents (Elt F) → (⟨S45088768x1, .i32⟩ : BufTy).Contents (Elt F) → (⟨S45088768, .f32⟩ : BufTy).Contents (Elt F)),
    unary main_arg2 main_v8 (broadcastInDim S704512x64 ![0] bcast_S704512_S704512x64_0 : (⟨S704512, .f32⟩ : BufTy).Contents (Elt F) → (⟨S704512x64, .f32⟩ : BufTy).Contents (Elt F)),
    reshape main_v8 main_v9 rfl shapeCasts_S704512x64_S45088768,
    binary main_v7 main_v9 main_v10 (mulf : (⟨S45088768, .f32⟩ : BufTy).Contents (Elt F) → (⟨S45088768, .f32⟩ : BufTy).Contents (Elt F) → (⟨S45088768, .f32⟩ : BufTy).Contents (Elt F)),
    reshape main_v10 main_v11 rfl shapeCasts_S45088768_S11008x4096,
    unary main_v11 main_v12 ((transpose S4096x11008 [1, 0] · transposes_S11008x4096_S4096x11008_1_0) : (⟨S11008x4096, .f32⟩ : BufTy).Contents (Elt F) → (⟨S4096x11008, .f32⟩ : BufTy).Contents (Elt F)),
    binary main_arg0 main_v12 main_v13 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    binary main_arg0 main_arg3 main_v14 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    binary main_v14 main_arg4 main_v15 ((fun l r => Host.dotGeneral dot_S8192x16_S16x11008_S8192x11008_1_0_0_1_n_n none l r) : (⟨S8192x16, .f32⟩ : BufTy).Contents (Elt F) → (⟨S16x11008, .f32⟩ : BufTy).Contents (Elt F) → (⟨S8192x11008, .f32⟩ : BufTy).Contents (Elt F)),
    binary main_v13 main_v15 main_v16 (addf : (⟨S8192x11008, .f32⟩ : BufTy).Contents (Elt F) → (⟨S8192x11008, .f32⟩ : BufTy).Contents (Elt F) → (⟨S8192x11008, .f32⟩ : BufTy).Contents (Elt F)),
    TRef.unary (.of main_v16) main_call0.v0 Host.negf,
    TRef.unary main_call0.v0 main_call0.v1 Host.exp,
    TRef.nullary main_call0.cst (constant S_ .f32 0x3F800000#32),
    TRef.unary main_call0.cst main_call0.v2 (broadcastInDim S8192x11008 ![] bcast_S_S8192x11008),
    TRef.binary main_call0.v2 main_call0.v1 main_call0.v3 addf,
    TRef.nullary main_call0.cst_0 (constant S_ .f32 0x3F800000#32),
    TRef.unary main_call0.cst_0 main_call0.v4 (broadcastInDim S8192x11008 ![] bcast_S_S8192x11008),
    TRef.binary main_call0.v4 main_call0.v3 main_call0.v5 Host.divf,
    TRef.binary (.of main_v16) main_call0.v5 main_call0.v6 mulf,
    reshape main_arg5 main_v18 rfl shapeCasts_S4096x11008_S45088768,
    nullary main_c_1 (constantI S_ 32 0#32),
    unary main_c_1 main_v19 (broadcastInDim S45088768 ![] bcast_S_S45088768 : (⟨S_, .i32⟩ : BufTy).Contents (Elt F) → (⟨S45088768, .i32⟩ : BufTy).Contents (Elt F)),
    binary main_v18 main_v19 main_v20 (cmpi .slt : (⟨S45088768, .i32⟩ : BufTy).Contents (Elt F) → (⟨S45088768, .i32⟩ : BufTy).Contents (Elt F) → (⟨S45088768, .i1⟩ : BufTy).Contents (Elt F)),
    nullary main_c_2 (constantI S_ 32 16#32),
    unary main_c_2 main_v21 (broadcastInDim S45088768 ![] bcast_S_S45088768 : (⟨S_, .i32⟩ : BufTy).Contents (Elt F) → (⟨S45088768, .i32⟩ : BufTy).Contents (Elt F)),
    binary main_v18 main_v21 main_v22 (addi : (⟨S45088768, .i32⟩ : BufTy).Contents (Elt F) → (⟨S45088768, .i32⟩ : BufTy).Contents (Elt F) → (⟨S45088768, .i32⟩ : BufTy).Contents (Elt F)),
    ternary main_v20 main_v22 main_v18 main_v23 (select : (⟨S45088768, .i1⟩ : BufTy).Contents (Elt F) → (⟨S45088768, .i32⟩ : BufTy).Contents (Elt F) → (⟨S45088768, .i32⟩ : BufTy).Contents (Elt F) → (⟨S45088768, .i32⟩ : BufTy).Contents (Elt F)),
    unary main_v23 main_v24 (broadcastInDim S45088768x1 ![0] bcast_S45088768_S45088768x1_0 : (⟨S45088768, .i32⟩ : BufTy).Contents (Elt F) → (⟨S45088768x1, .i32⟩ : BufTy).Contents (Elt F)),
    binary main_cst main_v24 main_v25 ((fun x i => Host.gather gather_S16_S45088768x1_S45088768_n_0_n_n_0_1_1 x i) : (⟨S16, .f32⟩ : BufTy).Contents (Elt F) → (⟨S45088768x1, .i32⟩ : BufTy).Contents (Elt F) → (⟨S45088768, .f32⟩ : BufTy).Contents (Elt F)),
    unary main_arg6 main_v26 (broadcastInDim S704512x64 ![0] bcast_S704512_S704512x64_0 : (⟨S704512, .f32⟩ : BufTy).Contents (Elt F) → (⟨S704512x64, .f32⟩ : BufTy).Contents (Elt F)),
    reshape main_v26 main_v27 rfl shapeCasts_S704512x64_S45088768,
    binary main_v25 main_v27 main_v28 (mulf : (⟨S45088768, .f32⟩ : BufTy).Contents (Elt F) → (⟨S45088768, .f32⟩ : BufTy).Contents (Elt F) → (⟨S45088768, .f32⟩ : BufTy).Contents (Elt F)),
    reshape main_v28 main_v29 rfl shapeCasts_S45088768_S4096x11008,
    unary main_v29 main_v30 ((transpose S11008x4096 [1, 0] · transposes_S4096x11008_S11008x4096_1_0) : (⟨S4096x11008, .f32⟩ : BufTy).Contents (Elt F) → (⟨S11008x4096, .f32⟩ : BufTy).Contents (Elt F)),
    binary main_v17 main_v30 main_v31 ((fun l r => Host.dotGeneral dot_S8192x11008_S11008x4096_S8192x4096_1_0_0_1_n_n none l r) : (⟨S8192x11008, .f32⟩ : BufTy).Contents (Elt F) → (⟨S11008x4096, .f32⟩ : BufTy).Contents (Elt F) → (⟨S8192x4096, .f32⟩ : BufTy).Contents (Elt F)),
    binary main_v17 main_arg7 main_v32 ((fun l r => Host.dotGeneral dot_S8192x11008_S11008x16_S8192x16_1_0_0_1_n_n none l r) : (⟨S8192x11008, .f32⟩ : BufTy).Contents (Elt F) → (⟨S11008x16, .f32⟩ : BufTy).Contents (Elt F) → (⟨S8192x16, .f32⟩ : BufTy).Contents (Elt F)),
    binary main_v32 main_arg8 main_v33 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    binary main_v31 main_v33 main_v34 (addf : (⟨S8192x4096, .f32⟩ : BufTy).Contents (Elt F) → (⟨S8192x4096, .f32⟩ : BufTy).Contents (Elt F) → (⟨S8192x4096, .f32⟩ : BufTy).Contents (Elt F)) ]

set_option maxRecDepth 4096 in
/-- The program is that straight line: the activation's body unfolded at its call, both sides are one chain of
    steps once sequencing is reassociated. -/
theorem main_eq (c : Dev nD) : main (F := F) c = seq ops := by
  simp only [main, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., binary_bufs_sub .., reshape_bufs_sub .., unary_bufs_sub .., binary_bufs_sub .., binary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub ..,
    reshape_bufs_sub .., unary_bufs_sub .., binary_bufs_sub .., binary_bufs_sub .., binary_bufs_sub .., binary_bufs_sub ..⟩

/-! ## What the buffers hold after the operations -/

set_option maxRecDepth 16384 in
set_option maxHeartbeats 1600000 in
/-- The result buffer holds the composed stages of the arguments' contents. -/
theorem out_eq (V : Valuation τ sig (Elt F)) :
    after ops V (main_v34 : DevRef τ sig)
      = refTerm (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) := by
  after_results_simp
  rfl

/-! The argument buffers: no operation writes one. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-! ## The run -/

/-- On every device, for any float values, from any memory with zero counters: every weakly fair execution of the
    program terminates with the result buffer at the composed stages of the arguments' launch contents, and the nine
    argument buffers as they were. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v34)
          = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun _ h c => ⟨(h c main_v34).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.Hand

end
-- ==== Proof.RefRead.lean ====
/-
  The reference's result, stage by stage, is the specification, entry by entry, over the extended reals.

  * The table lookup.  A code word c in 0 … 15 is not negative, so the wrap of negative rows leaves it alone, and it is
    inside the sixteen-entry table, so the clamp leaves it alone: the row read is c itself, and entry c of the table is
    the value the chain of sixteen equality tests assigns to c (checked for each of the sixteen codes).
  * The scales.  Repeating each scale 64 times along a new minor axis and flattening puts, at flat position q, the
    scale of block q / 64, since q = (q / 64) · 64 + q mod 64.
  * The weights.  Entry (f, d) of the 11008 × 4096 reshape of the flat weight is flat position f · 4096 + d, and the
    transpose reads it at (d, f); likewise entry (e, f) of the 4096 × 11008 reshape is flat position e · 11008 + f.
  * A product of an M × K by a K × N matrix at entry (p, q) is the sum over k of x[p, k] · y[k, q].
  * One over one plus the exponential of minus y is the logistic function of y (the pattern 0x3F800000 denotes 1).

  Both sides then are the same sums of the same products in the same order; only + and · of extended reals occur, so
  nothing is asked of the real arrays.
-/
import proofs.«402316_j82248623718485_1_alg».proof.Proof.Spec
import proofs.«402316_j82248623718485_1_alg».proof.Proof.RefStages
import Idealize.ShloMosaic.Lib.StableHlo.Predicate
import Idealize.ShloMosaic.Lib.ValueLayout
import Idealize.ShloMosaic.PureOps.Ideal.Laws

noncomputable section

open scoped BigOperators

namespace Cert.ReferenceIdeal.HandRead

open Cert.ReferenceIdeal Cert.ReferenceIdeal.Gen Cert.ReferenceIdeal.Hand Idealize.ShloMosaic Idealize.ShloMosaic.ValueIdx
  Idealize.ShloMosaic.StableHlo

/-! ## The table -/

/-- The rank-1 index at a coordinate, in its two spellings. -/
theorem ofFin_eq_ix1 {n : Nat} (k : Fin n) : Shape.Idx.ofFin k = ix1 k := by
  funext a; match a with | ⟨0, _⟩ => rfl

/-- Entry k of the table is the k-th listed value. -/
theorem tab_apply (k : Fin 16) : tab (F := Ideal) (ix1 k) = Ideal.ofBits .f32 (lit0 k) := by
  unfold tab
  have e : S16.rowMajor (ix1 k) = k := Fin.ext (Shape.rowMajor_val_one (ix1 k))
  rw [e]; rfl

/-- The k-th listed value is the value of the code word k. -/
theorem lit_eq_nf4 (k : Fin 16) : Ideal.ofBits .f32 (lit0 k) = Cert.Spec.nf4 (BitVec.ofNat 32 k.val) := by
  fin_cases k <;> rfl

/-- A code word in 0 … 15 is not negative: the wrap of negative indices leaves it alone. -/
theorem wrap_of_lt {c : BitVec 32} (hc : c.toNat < 16) :
    Scalar.select (IntOp.cmpi .slt c 0#32) (IntOp.addi c 16#32) c = c := by
  have h : ¬ IntOp.cmpi .slt c 0#32 = 1#1 := by
    rw [IntOp.cmpi_slt, Predicate.toInt_eq_toNat_of_lt (by omega)]
    have : (0#32 : BitVec 32).toInt = 0 := by decide
    omega
  rw [eq_zero_of_ne_one h, select_zero]

/-! ## The flat dequantized weight at a position -/

/-- The table row read at flat position q: the code there, sixteen higher when negative. -/
theorem refIdx_apply (c : IVec S45088768 32) (q : Fin 45088768) :
    refIdx c (Predicate.ixP q)
      = Scalar.select (IntOp.cmpi .slt (c (ix1 q)) 0#32) (IntOp.addi (c (ix1 q)) 16#32) (c (ix1 q)) := by
  unfold refIdx
  rw [Predicate.bcast_col1, ofFin_eq_ix1]
  rfl

/-- The table lookup at flat position q, when the row word there is a code in 0 … 15, is that code's value. -/
theorem gather_tab_apply (idx : IVec S45088768x1 32) (q : Fin 45088768) (w : BitVec 32)
    (hw : idx (Predicate.ixP q) = w) (hlt : w.toNat < 16) :
    Host.gather gather_S16_S45088768x1_S45088768_n_0_n_n_0_1_1 (tab (F := Ideal)) idx (ix1 q) = Cert.Spec.nf4 w := by
  subst hw
  rw [← ofFin_eq_ix1, Predicate.gather_take _ rfl rfl rfl rfl _ _ q (by decide), ofFin_eq_ix1]
  have e : (⟨min (idx (Predicate.ixP q)).toInt.toNat (16 - 1), by omega⟩ : Fin 16) = ⟨(idx (Predicate.ixP q)).toNat, hlt⟩ := by
    apply Fin.ext
    show min (idx (Predicate.ixP q)).toInt.toNat (16 - 1) = (idx (Predicate.ixP q)).toNat
    rw [Predicate.toInt_eq_toNat_of_lt (by omega), Int.toNat_natCast]
    omega
  rw [e, tab_apply, lit_eq_nf4]
  show Cert.Spec.nf4 (BitVec.ofNat 32 (idx (Predicate.ixP q)).toNat) = _
  rw [BitVec.ofNat_toNat, BitVec.setWidth_eq]

/-- The scales, each repeated 64 times and flattened: position q reads the scale of block q / 64. -/
theorem scales_apply {α : Type} (s : S704512.Idx → α) (q : Fin 45088768) :
    shapeCast S45088768 (broadcastInDim S704512x64 ![0] bcast_S704512_S704512x64_0 s) shapeCasts_S704512x64_S45088768 (ix1 q)
      = s (ix1 ⟨q.val / 64, by have := q.isLt; omega⟩) := by
  refine (shapeCast_apply _ _ (ix1 q)
    (ix2 (⟨q.val / 64, by have := q.isLt; omega⟩ : Fin 704512) (⟨q.val % 64, Nat.mod_lt _ (by decide)⟩ : Fin 64)) ?_).trans ?_
  · rw [Shape.rowMajor_val_two, Shape.rowMajor_val_one]
    show q.val / 64 * 64 + q.val % 64 = q.val
    omega
  · refine broadcastInDim_apply _ _ s _ _ fun a => ?_
    match a with
    | ⟨0, _⟩ =>
      show q.val / 64 = if (704512 : Nat) = 1 then 0 else q.val / 64
      rw [if_neg (by decide)]

/-- The flat dequantized weight at position q: the value of the code there times the scale of its block of 64. -/
theorem refW_apply (c : IVec S45088768 32) (s : FVec Ideal S704512 .f32) (q : Fin 45088768)
    (hc : (c (ix1 q)).toNat < 16) :
    refW (F := Ideal) c s (ix1 q)
      = Cert.Spec.nf4 (c (ix1 q)) * s (ix1 ⟨q.val / 64, by have := q.isLt; omega⟩) := by
  unfold refW
  rw [mulf_apply, scales_apply,
    gather_tab_apply (refIdx c) q (c (ix1 q)) (by rw [refIdx_apply, wrap_of_lt hc]) hc]

/-! ## The two weight matrices at an entry -/

/-- The up weight as the first product reads it, at row d and column f: entry (f, d) of the specification's. -/
theorem upWeight_apply (a1 : IVec S11008x4096 32) (a2 : FVec Ideal S704512 .f32) (h1 : Cert.Spec.CodesOk a1)
    (d : Fin 4096) (f : Fin 11008) :
    transpose S4096x11008 [1, 0]
        (shapeCast S11008x4096 (refW (F := Ideal) (shapeCast S45088768 a1 shapeCasts_S11008x4096_S45088768) a2)
          shapeCasts_S45088768_S11008x4096)
        transposes_S11008x4096_S4096x11008_1_0 (ix2 d f)
      = Cert.Spec.wUp a1 a2 f d := by
  have hq : f.val * 4096 + d.val < 45088768 := by have := f.isLt; have := d.isLt; omega
  have hcode : shapeCast S45088768 a1 shapeCasts_S11008x4096_S45088768 (ix1 ⟨f.val * 4096 + d.val, hq⟩) = a1 (ix2 f d) :=
    shapeCast_apply _ _ _ _ (by rw [Shape.rowMajor_val_two, Shape.rowMajor_val_one]; rfl)
  rw [transpose_ix2_apply,
    shapeCast_apply _ shapeCasts_S45088768_S11008x4096 (ix2 f d) (ix1 ⟨f.val * 4096 + d.val, hq⟩)
      (by rw [Shape.rowMajor_val_two, Shape.rowMajor_val_one]; rfl),
    refW_apply _ _ _ (by rw [hcode]; exact h1 _), hcode]
  rfl

/-- The down weight as the second product reads it, at row f and column e: entry (e, f) of the specification's. -/
theorem downWeight_apply (a5 : IVec S4096x11008 32) (a6 : FVec Ideal S704512 .f32) (h5 : Cert.Spec.CodesOk a5)
    (f : Fin 11008) (e : Fin 4096) :
    transpose S11008x4096 [1, 0]
        (shapeCast S4096x11008 (refW (F := Ideal) (shapeCast S45088768 a5 shapeCasts_S4096x11008_S45088768) a6)
          shapeCasts_S45088768_S4096x11008)
        transposes_S4096x11008_S11008x4096_1_0 (ix2 f e)
      = Cert.Spec.wDown a5 a6 e f := by
  have hq : e.val * 11008 + f.val < 45088768 := by have := f.isLt; have := e.isLt; omega
  have hcode : shapeCast S45088768 a5 shapeCasts_S4096x11008_S45088768 (ix1 ⟨e.val * 11008 + f.val, hq⟩) = a5 (ix2 e f) :=
    shapeCast_apply _ _ _ _ (by rw [Shape.rowMajor_val_two, Shape.rowMajor_val_one]; rfl)
  rw [transpose_ix2_apply,
    shapeCast_apply _ shapeCasts_S45088768_S4096x11008 (ix2 e f) (ix1 ⟨e.val * 11008 + f.val, hq⟩)
      (by rw [Shape.rowMajor_val_two, Shape.rowMajor_val_one]; rfl),
    refW_apply _ _ _ (by rw [hcode]; exact h5 _), hcode]
  rfl

/-! ## A matrix product at an entry -/

section PlainDot
variable (M K N : Nat)

theorem plain_lhs_row (j : (⟨2, ![M, N]⟩ : Shape).Idx) (k : (DotDims.plain M K N).contr.Idx) :
    ((DotDims.plain M K N).lhsIdx j k 0).val = (j 0).val := rfl

theorem plain_lhs_contracted (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

theorem plain_rhs_contracted (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

theorem plain_rhs_column (j : (⟨2, ![M, N]⟩ : Shape).Idx) (k : (DotDims.plain M K N).contr.Idx) :
    ((DotDims.plain M K N).rhsIdx j k 1).val = (j 1).val := rfl

/-- A product of an M × K by a K × N matrix of extended reals, read at entry (p, q): the sum over the K inner
    positions of the products of the entries. -/
theorem plainDot_apply {φ₁ φ₂ : FTy} (D : DotDims ⟨2, ![M, K]⟩ ⟨2, ![K, N]⟩ ⟨2, ![M, N]⟩) (hD : D = DotDims.plain M K N)
    (x : FVec Ideal ⟨2, ![M, K]⟩ φ₁) (y : FVec Ideal ⟨2, ![K, N]⟩ φ₂) (p : Fin M) (q : Fin N) :
    Host.dotGeneral (F := Ideal) D none x y (ix2 p q) = ∑ k : Fin K, x (ix2 p k) * y (ix2 k q) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contracted M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contracted M K N _ _).trans hk
      | ⟨1, _⟩ => exact plain_rhs_column M K N _ _)
  rw [el, er]

end PlainDot

/-! ## The activation -/

/-- The single-precision pattern 0x3F800000 denotes one. -/
theorem ofBits_one_f32 : Ideal.ofBits .f32 0x3F800000#32 = 1 := by
  simp [Ideal.ofBits, Ideal.ieee, -EReal.coe_mul]; norm_num

/-- The activation at an entry: y times the logistic function of y. -/
theorem refSilu_apply (y : FVec Ideal S8192x11008 .f32) (i : S8192x11008.Idx) :
    refSilu (F := Ideal) y i = Cert.Spec.silu (y i) := by
  show y i * Ideal.div (Ideal.ofBits .f32 0x3F800000#32) (Ideal.ofBits .f32 0x3F800000#32 + Ideal.exp (-(y i)))
    = y i * Ideal.logistic (y i)
  rw [ofBits_one_f32]
  rfl

/-! ## The stages are the specification -/

/-- The up projection at entry (n, f). -/
theorem refY1_apply (a0 : FVec Ideal S8192x4096 .f32) (a1 : IVec S11008x4096 32) (a2 : FVec Ideal S704512 .f32)
    (a3 : FVec Ideal S4096x16 .f32) (a4 : FVec Ideal S16x11008 .f32) (h1 : Cert.Spec.CodesOk a1)
    (n : Fin 8192) (f : Fin 11008) :
    refY1 (F := Ideal) a0 a1 a2 a3 a4 (ix2 n f) = Cert.Spec.y1 a0 a1 a2 a3 a4 n f := by
  unfold refY1 Cert.Spec.y1
  rw [addf_apply, plainDot_apply 8192 4096 11008 dot_S8192x4096_S4096x11008_S8192x11008_1_0_0_1_n_n rfl,
    plainDot_apply 8192 16 11008 dot_S8192x16_S16x11008_S8192x11008_1_0_0_1_n_n rfl]
  congr 1
  · exact Finset.sum_congr rfl fun d _ => by rw [upWeight_apply a1 a2 h1 d f]
  · exact Finset.sum_congr rfl fun r _ => by
      rw [plainDot_apply 8192 4096 16 dot_S8192x4096_S4096x16_S8192x16_1_0_0_1_n_n rfl]

/-- The hidden array is the specification's. -/
theorem refHidden_eq_spec (a0 : FVec Ideal S8192x4096 .f32) (a1 : IVec S11008x4096 32) (a2 : FVec Ideal S704512 .f32)
    (a3 : FVec Ideal S4096x16 .f32) (a4 : FVec Ideal S16x11008 .f32) (h1 : Cert.Spec.CodesOk a1) :
    refHidden (F := Ideal) a0 a1 a2 a3 a4 = Cert.Spec.hidden a0 a1 a2 a3 a4 := by
  funext j
  obtain ⟨n, f, rfl⟩ : ∃ (n : Fin 8192) (f : Fin 11008), j = ix2 n f := ⟨j 0, j 1, eq_ix2 j⟩
  unfold refHidden
  rw [refSilu_apply, refY1_apply a0 a1 a2 a3 a4 h1]
  rfl

/-- The specification's down projection at entry (n, e), with the coordinates written out. -/
theorem y2_apply (h : (⟨2, ![8192, 11008]⟩ : Shape).Idx → EReal) (codes : (⟨2, ![4096, 11008]⟩ : Shape).Idx → BitVec 32)
    (am : (⟨1, ![704512]⟩ : Shape).Idx → EReal) (la : (⟨2, ![11008, 16]⟩ : Shape).Idx → EReal)
    (lb : (⟨2, ![16, 4096]⟩ : Shape).Idx → EReal) (n : Fin 8192) (e : Fin 4096) :
    Cert.Spec.y2 h codes am la lb (ix2 n e)
      = (∑ f : Fin 11008, h (ix2 n f) * Cert.Spec.wDown codes am e f)
        + ∑ r : Fin 16, (∑ f : Fin 11008, h (ix2 n f) * la (ix2 f r)) * lb (ix2 r e) := rfl

/-- The reference's result is the specification's, when every weight code is one of 0 … 15. -/
theorem refTerm_eq_spec (a0 : FVec Ideal S8192x4096 .f32) (a1 : IVec S11008x4096 32) (a2 : FVec Ideal S704512 .f32)
    (a3 : FVec Ideal S4096x16 .f32) (a4 : FVec Ideal S16x11008 .f32) (a5 : IVec S4096x11008 32)
    (a6 : FVec Ideal S704512 .f32) (a7 : FVec Ideal S11008x16 .f32) (a8 : FVec Ideal S16x4096 .f32)
    (h1 : Cert.Spec.CodesOk a1) (h5 : Cert.Spec.CodesOk a5) :
    refTerm (F := Ideal) a0 a1 a2 a3 a4 a5 a6 a7 a8 = Cert.Spec.out a0 a1 a2 a3 a4 a5 a6 a7 a8 := by
  funext j
  obtain ⟨n, e, rfl⟩ : ∃ (n : Fin 8192) (e : Fin 4096), j = ix2 n e := ⟨j 0, j 1, eq_ix2 j⟩
  unfold refTerm Cert.Spec.out
  rw [y2_apply, refHidden_eq_spec a0 a1 a2 a3 a4 h1, addf_apply,
    plainDot_apply 8192 11008 4096 dot_S8192x11008_S11008x4096_S8192x4096_1_0_0_1_n_n rfl,
    plainDot_apply 8192 16 4096 dot_S8192x16_S16x4096_S8192x4096_1_0_0_1_n_n rfl]
  congr 1
  · exact Finset.sum_congr rfl fun f _ => by rw [downWeight_apply a5 a6 h5 f e]
  · exact Finset.sum_congr rfl fun r _ => by
      rw [plainDot_apply 8192 11008 16 dot_S8192x11008_S11008x16_S8192x16_1_0_0_1_n_n rfl]

end Cert.ReferenceIdeal.HandRead

end
-- ==== Proof.PreCodes.lean ====
/-
  The range of the weight codes, read out of the input condition.

  The input condition is a conjunction of eleven tests, each "every entry of an array passes".  Seven of them say
  that a real-valued array has only finite entries; the other four say of the two arrays of weight codes that every
  entry, read as a signed 32-bit integer, is at least 0 and is below 16.  A signed word in that range has the
  same value read unsigned, so every code is one of 0 … 15: the sixteen entries of the code table.  Nothing here
  depends on how the real numbers are represented, so the statement holds for every number model.
-/
import proofs.«402316_j82248623718485_1_alg».proof.Proof.Spec
import proofs.«402316_j82248623718485_1_alg».proof.Proof.Gen.Pre_finite_inputs
import Idealize.ShloMosaic.Lib.ReduceAll

namespace Cert.Pre_finite_inputs.Hand

open Idealize.ShloMosaic

/-- The shape with no axes has exactly one index. -/
instance scalarIdxSubsingleton : Subsingleton S_.Idx := ⟨fun _ _ => funext fun d => d.elim0⟩

/-- A 32-bit word whose signed value is at least 0 and below 16 has an unsigned value below 16. -/
theorem toNat_lt_sixteen_of_signed_range {x : BitVec 32}
    (hge : IntOp.cmpi .sge x 0#32 = 1#1) (hlt : IntOp.cmpi .slt x 16#32 = 1#1) : x.toNat < 16 := by
  rw [IntOp.cmpi_sge] at hge
  rw [IntOp.cmpi_slt] at hlt
  have h0 : (0#32 : BitVec 32).toInt = 0 := by decide
  have h16 : (16#32 : BitVec 32).toInt = 16 := by decide
  rw [h0] at hge
  rw [h16] at hlt
  rw [BitVec.toInt_eq_toNat_cond] at hge hlt
  have hx := x.isLt
  split at hge <;> omega

/-- An array of words all of whose entries pass "signed ≥ 0" and "signed < 16" holds only codes 0 … 15. -/
theorem codesOk_of_all_in_range {S : Shape} {axes : List (Fin S.rank)} (codes : IVec S 32)
    (bc : S_.BroadcastsInDim S (![] : Fin 0 → Fin S.rank)) (rd : S.ReducesTo axes S_) (hpos : 0 < S_.numel)
    (hge : Host.reduce IntOp.andi (cmpi .sge codes (broadcastInDim S ![] bc (constantI S_ 32 0#32)))
      (constantI S_ 1 1#1) rd hpos ValueIdx.ix0 = 1#1)
    (hlt : Host.reduce IntOp.andi (cmpi .slt codes (broadcastInDim S ![] bc (constantI S_ 32 16#32)))
      (constantI S_ 1 1#1) rd hpos ValueIdx.ix0 = 1#1) : Cert.Spec.CodesOk codes := by
  intro i
  have ege := Host.reduce_andi_all _ _ rd hpos _ hge i
  have elt := Host.reduce_andi_all _ _ rd hpos _ hlt i
  exact toNat_lt_sixteen_of_signed_range ege elt

/-- If the input condition holds of the nine argument arrays, both arrays of weight codes hold only codes 0 … 15. -/
theorem codesOk_of_pre {F : FTy → Type} [FloatOps F] [Facts]
    (a0 : FVec F S8192x4096 .f32) (a1 : IVec S11008x4096 32) (a2 : FVec F S704512 .f32)
    (a3 : FVec F S4096x16 .f32) (a4 : FVec F S16x11008 .f32) (a5 : IVec S4096x11008 32)
    (a6 : FVec F S704512 .f32) (a7 : FVec F S11008x16 .f32) (a8 : FVec F S16x4096 .f32)
    (h : fn (F := F) a0 a1 a2 a3 a4 a5 a6 a7 a8 = fun _ => 1#1) :
    Cert.Spec.CodesOk a1 ∧ Cert.Spec.CodesOk a5 := by
  have h0 := congrFun h ValueIdx.ix0
  dsimp only [fn, fn_part1, fn_part2] at h0
  obtain ⟨h1, lt5⟩ := IntOp.andi_eq_one.1 h0
  obtain ⟨h2, ge5⟩ := IntOp.andi_eq_one.1 h1
  obtain ⟨h3, lt1⟩ := IntOp.andi_eq_one.1 h2
  obtain ⟨_, ge1⟩ := IntOp.andi_eq_one.1 h3
  exact ⟨codesOk_of_all_in_range a1 _ _ _ ge1 lt1, codesOk_of_all_in_range a5 _ _ _ ge5 lt5⟩

end Cert.Pre_finite_inputs.Hand
-- ==== Proof.lean ====
/-
  Two programs compute a quantized two-layer projection with low-rank corrections. Each weight matrix is stored as 4-bit
  codes into a table of sixteen values, with one scale per 64 consecutive entries; the up projection of the tokens, plus
  the tokens through two thin factors, goes through y · logistic y; the down projection of that, plus its own low-rank
  term, is the result (Proof/Spec.lean states it).

  The kernel program spreads each weight's scales over its entries on the host and then runs two grid kernels, each
  walking the contraction axis block by block and keeping two running sums between grid points; the reference looks the
  codes up in the table, forms both weights whole and multiplies. Over the extended reals the blockwise running sums are
  the whole sums (only associativity and commutativity of + are used, so no input needs to be finite), and the chain of
  sixteen equality tests by which the kernel reads a code is the table lookup exactly when the code is one of 0 … 15 —
  the one place the precondition is used: outside that range the reference's lookup clamps or wraps where the kernel
  falls back to the first entry.

  frame_Kernel and frame_KernelIdeal are one text read at the two float instances (Proof/K/Run.lean, Proof/KI/Run.lean);
  frame_ReferenceIdeal is the reference's run with the value dropped (Proof/RefRun.lean); the idealization rewrote
  nothing, so there is nothing to preserve; the value claim pairs the kernel program's run to the specification
  (Proof/KI/Value.lean) with the reference's (Proof/RefRun.lean, Proof/RefRead.lean).
-/
import proofs.«402316_j82248623718485_1_alg».proof.Defs
import proofs.«402316_j82248623718485_1_alg».proof.Proof.K.Run
import proofs.«402316_j82248623718485_1_alg».proof.Proof.KI.Value
import proofs.«402316_j82248623718485_1_alg».proof.Proof.RefRun
import proofs.«402316_j82248623718485_1_alg».proof.Proof.RefRead
import proofs.«402316_j82248623718485_1_alg».proof.Proof.PreCodes

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- From memories agreeing on the arguments, whose codes the precondition puts in 0 … 15, both programs end with the
    specification's value of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  obtain ⟨h1, h5⟩ := Cert.Pre_finite_inputs.Hand.codesOk_of_pre _ _ _ _ _ _ _ _ _ (hpre c)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact Cert.ReferenceIdeal.HandRead.refTerm_eq_spec _ _ _ _ _ _ _ _ _ h1 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
